-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![3072, 768]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![96, 768]⟩ ⟨2, ![768, 768]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S768x384 : Shape := ⟨2, ![768, 384]⟩
abbrev S384x768 : Shape := ⟨2, ![384, 768]⟩
abbrev S_ : Shape := ⟨0, ![]⟩

class Facts : Prop where
  bcast_S_S768x384 : S_.BroadcastsInDim S768x384 (![] : Fin 0 → Fin S768x384.rank)
  reducesTo_S768x384_S_d0_1 : S768x384.ReducesTo [0, 1] S_
  h_S_ : 0 < S_.numel
  bcast_S_S384x768 : S_.BroadcastsInDim S384x768 (![] : Fin 0 → Fin S384x768.rank)
  reducesTo_S384x768_S_d0_1 : S384x768.ReducesTo [0, 1] S_

variable [Facts]

def fn {F : FTy → Type} [FloatOps F] (main_arg0 : FVec F S768x384 .f32) (main_arg1 : FVec F S384x768 .f32) : IVec S_ 1 :=
  let main_v0 : FVec F S768x384 .f32 := Host.absf main_arg0
  let main_cst : FVec F S_ .f32 := constant S_ .f32 0x7F800000#32
  let main_v1 : FVec F S768x384 .f32 := broadcastInDim S768x384 ![] bcast_S_S768x384 main_cst
  let main_v2 : IVec S768x384 1 := cmpf .olt main_v0 main_v1
  let main_c : IVec S_ 1 := constantI S_ 1 1#1
  let main_v3 : IVec S_ 1 := (fun x v => Host.reduce IntOp.andi x v reducesTo_S768x384_S_d0_1 h_S_) main_v2 main_c
  let main_v4 : FVec F S384x768 .f32 := Host.absf main_arg1
  let main_cst_0 : FVec F S_ .f32 := constant S_ .f32 0x7F800000#32
  let main_v5 : FVec F S384x768 .f32 := broadcastInDim S384x768 ![] bcast_S_S384x768 main_cst_0
  let main_v6 : IVec S384x768 1 := cmpf .olt main_v4 main_v5
  let main_c_1 : IVec S_ 1 := constantI S_ 1 1#1
  let main_v7 : IVec S_ 1 := (fun x v => Host.reduce IntOp.andi x v reducesTo_S384x768_S_d0_1 h_S_) main_v6 main_c_1
  let main_v8 : IVec S_ 1 := andi main_v3 main_v7
  main_v8
-- ==== Pre_finite_inputs_ReferenceIdeal.lean ====
abbrev S768x3072 : Shape := ⟨2, ![768, 3072]⟩
abbrev S3072x768 : Shape := ⟨2, ![3072, 768]⟩
abbrev S_ : Shape := ⟨0, ![]⟩

class Facts : Prop where
  bcast_S_S768x3072 : S_.BroadcastsInDim S768x3072 (![] : Fin 0 → Fin S768x3072.rank)
  reducesTo_S768x3072_S_d0_1 : S768x3072.ReducesTo [0, 1] S_
  h_S_ : 0 < S_.numel
  bcast_S_S3072x768 : S_.BroadcastsInDim S3072x768 (![] : Fin 0 → Fin S3072x768.rank)
  reducesTo_S3072x768_S_d0_1 : S3072x768.ReducesTo [0, 1] S_

variable [Facts]

def fn {F : FTy → Type} [FloatOps F] (main_arg0 : FVec F S768x3072 .f32) (main_arg1 : FVec F S3072x768 .f32) : IVec S_ 1 :=
  let main_v0 : FVec F S768x3072 .f32 := Host.absf main_arg0
  let main_cst : FVec F S_ .f32 := constant S_ .f32 0x7F800000#32
  let main_v1 : FVec F S768x3072 .f32 := broadcastInDim S768x3072 ![] bcast_S_S768x3072 main_cst
  let main_v2 : IVec S768x3072 1 := cmpf .olt main_v0 main_v1
  let main_c : IVec S_ 1 := constantI S_ 1 1#1
  let main_v3 : IVec S_ 1 := (fun x v => Host.reduce IntOp.andi x v reducesTo_S768x3072_S_d0_1 h_S_) main_v2 main_c
  let main_v4 : FVec F S3072x768 .f32 := Host.absf main_arg1
  let main_cst_0 : FVec F S_ .f32 := constant S_ .f32 0x7F800000#32
  let main_v5 : FVec F S3072x768 .f32 := broadcastInDim S3072x768 ![] bcast_S_S3072x768 main_cst_0
  let main_v6 : IVec S3072x768 1 := cmpf .olt main_v4 main_v5
  let main_c_1 : IVec S_ 1 := constantI S_ 1 1#1
  let main_v7 : IVec S_ 1 := (fun x v => Host.reduce IntOp.andi x v reducesTo_S3072x768_S_d0_1 h_S_) main_v6 main_c_1
  let main_v8 : IVec S_ 1 := andi main_v3 main_v7
  main_v8
-- ==== Kernel.lean ====
abbrev S768x384 : Shape := ⟨2, ![768, 384]⟩
abbrev S384x768 : Shape := ⟨2, ![384, 768]⟩
abbrev S96x768 : Shape := ⟨2, ![96, 768]⟩
abbrev S7x96x768 : Shape := ⟨3, ![7, 96, 768]⟩
abbrev S7 : Shape := ⟨1, ![7]⟩
abbrev S_ : Shape := ⟨0, ![]⟩
abbrev S96x384 : Shape := ⟨2, ![96, 384]⟩
abbrev S1x96x768 : Shape := ⟨3, ![1, 96, 768]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S96x768, .f32⟩
  | .local _ .vmem, ⟨0, _⟩ => ⟨S768x384, .f32⟩
  | .local _ .vmem, ⟨1, _⟩ => ⟨S384x768, .f32⟩
  | .local _ .vmem, ⟨2, _⟩ => ⟨S96x768, .f32⟩
  | .local _ .vmem, ⟨3, _⟩ => ⟨S7x96x768, .bf16⟩
  | .local _ .vmem, ⟨4, _⟩ => ⟨S7x96x768, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c0_i32 : BitVec 32 := 0#32
  let v5 : BitVec 32 := Scalar.addi v4 c0_i32
  let c8_i32_1 : BitVec 32 := 8#32
  let c0_i32_2 : BitVec 32 := 0#32
  let v6 : BitVec 1 := Scalar.cmpi .eq c8_i32_1 c0_i32_2
  let c1_i32_3 : BitVec 32 := 1#32
  let v7 : BitVec 32 := Scalar.select v6 c1_i32_3 c8_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v18 : BitVec 32 := Scalar.addi v2 c1_i32_10
  let c1_i32_11 : BitVec 32 := 1#32
  let v19 : BitVec 32 := Scalar.addi v18 c1_i32_11
  let c8_i32_12 : BitVec 32 := 8#32
  let c0_i32_13 : BitVec 32 := 0#32
  let v20 : BitVec 1 := Scalar.cmpi .eq c8_i32_12 c0_i32_13
  let c1_i32_14 : BitVec 32 := 1#32
  let v21 : BitVec 32 := Scalar.select v20 c1_i32_14 c8_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v32 : BitVec 32 := Scalar.addi v2 c1_i32_21
  let c2_i32 : BitVec 32 := 2#32
  let v33 : BitVec 32 := Scalar.addi v32 c2_i32
  let c8_i32_22 : BitVec 32 := 8#32
  let c0_i32_23 : BitVec 32 := 0#32
  let v34 : BitVec 1 := Scalar.cmpi .eq c8_i32_22 c0_i32_23
  let c1_i32_24 : BitVec 32 := 1#32
  let v35 : BitVec 32 := Scalar.select v34 c1_i32_24 c8_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v46 : BitVec 32 := Scalar.addi v2 c1_i32_31
  let c3_i32 : BitVec 32 := 3#32
  let v47 : BitVec 32 := Scalar.addi v46 c3_i32
  let c8_i32_32 : BitVec 32 := 8#32
  let c0_i32_33 : BitVec 32 := 0#32
  let v48 : BitVec 1 := Scalar.cmpi .eq c8_i32_32 c0_i32_33
  let c1_i32_34 : BitVec 32 := 1#32
  let v49 : BitVec 32 := Scalar.select v48 c1_i32_34 c8_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c1_i32_39 : BitVec 32 := 1#32
  let v58 : BitVec 32 := Scalar.muli v57 c1_i32_39
  let v59 : BitVec 32 := Scalar.addi c0_i32_40 v58
  v59.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v60 : BitVec 32 := Scalar.addi v2 c1_i32_41
  let c4_i32 : BitVec 32 := 4#32
  let v61 : BitVec 32 := Scalar.addi v60 c4_i32
  let c8_i32_42 : BitVec 32 := 8#32
  let c0_i32_43 : BitVec 32 := 0#32
  let v62 : BitVec 1 := Scalar.cmpi .eq c8_i32_42 c0_i32_43
  let c1_i32_44 : BitVec 32 := 1#32
  let v63 : BitVec 32 := Scalar.select v62 c1_i32_44 c8_i32_42
  let v64 : BitVec 32 := Scalar.remsi v61 v63
  let c0_i32_46 : BitVec 32 := 0#32
  let v66 : BitVec 1 := Scalar.cmpi .slt v64 c0_i32_46
  let c0_i32_47 : BitVec 32 := 0#32
  let v67 : BitVec 1 := Scalar.cmpi .slt v63 c0_i32_47
  let v68 : BitVec 1 := Scalar.xori v66 v67
  let c0_i32_45 : BitVec 32 := 0#32
  let v65 : BitVec 1 := Scalar.cmpi .ne v64 c0_i32_45
  let v69 : BitVec 1 := Scalar.andi v68 v65
  let v70 : BitVec 32 := Scalar.addi v64 v63
  let v71 : BitVec 32 := Scalar.select v69 v70 v64
  let c1_i32_49 : BitVec 32 := 1#32
  let v72 : BitVec 32 := Scalar.muli v71 c1_i32_49
  let v73 : BitVec 32 := Scalar.addi c0_i32_50 v72
  v73.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v74 : BitVec 32 := Scalar.addi v2 c1_i32_51
  let c5_i32 : BitVec 32 := 5#32
  let v75 : BitVec 32 := Scalar.addi v74 c5_i32
  let c8_i32_52 : BitVec 32 := 8#32
  let c0_i32_53 : BitVec 32 := 0#32
  let v76 : BitVec 1 := Scalar.cmpi .eq c8_i32_52 c0_i32_53
  let c1_i32_54 : BitVec 32 := 1#32
  let v77 : BitVec 32 := Scalar.select v76 c1_i32_54 c8_i32_52
  let v78 : BitVec 32 := Scalar.remsi v75 v77
  let c0_i32_56 : BitVec 32 := 0#32
  let v80 : BitVec 1 := Scalar.cmpi .slt v78 c0_i32_56
  let c0_i32_57 : BitVec 32 := 0#32
  let v81 : BitVec 1 := Scalar.cmpi .slt v77 c0_i32_57
  let v82 : BitVec 1 := Scalar.xori v80 v81
  let c0_i32_55 : BitVec 32 := 0#32
  let v79 : BitVec 1 := Scalar.cmpi .ne v78 c0_i32_55
  let v83 : BitVec 1 := Scalar.andi v82 v79
  let v84 : BitVec 32 := Scalar.addi v78 v77
  let v85 : BitVec 32 := Scalar.select v83 v84 v78
  let c1_i32_59 : BitVec 32 := 1#32
  let v86 : BitVec 32 := Scalar.muli v85 c1_i32_59
  let v87 : BitVec 32 := Scalar.addi c0_i32_60 v86
  v87.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v88 : BitVec 32 := Scalar.addi v2 c1_i32_61
  let c6_i32 : BitVec 32 := 6#32
  let v89 : BitVec 32 := Scalar.addi v88 c6_i32
  let c8_i32_62 : BitVec 32 := 8#32
  let c0_i32_63 : BitVec 32 := 0#32
  let v90 : BitVec 1 := Scalar.cmpi .eq c8_i32_62 c0_i32_63
  let c1_i32_64 : BitVec 32 := 1#32
  let v91 : BitVec 32 := Scalar.select v90 c1_i32_64 c8_i32_62
  let v92 : BitVec 32 := Scalar.remsi v89 v91
  let c0_i32_66 : BitVec 32 := 0#32
  let v94 : BitVec 1 := Scalar.cmpi .slt v92 c0_i32_66
  let c0_i32_67 : BitVec 32 := 0#32
  let v95 : BitVec 1 := Scalar.cmpi .slt v91 c0_i32_67
  let v96 : BitVec 1 := Scalar.xori v94 v95
  let c0_i32_65 : BitVec 32 := 0#32
  let v93 : BitVec 1 := Scalar.cmpi .ne v92 c0_i32_65
  let v97 : BitVec 1 := Scalar.andi v96 v93
  let v98 : BitVec 32 := Scalar.addi v92 v91
  let v99 : BitVec 32 := Scalar.select v97 v98 v92
  let c1_i32_69 : BitVec 32 := 1#32
  let v100 : BitVec 32 := Scalar.muli v99 c1_i32_69
  let v101 : BitVec 32 := Scalar.addi c0_i32_70 v100
  v101.toNat
def k0_off1 (d0 : Dev nD) (c0_i32_73 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v105 : BitVec 32 := Scalar.addi v2 c1_i32_72
  let v106 : BitVec 32 := Scalar.addi v105 c0_i32_73
  let c8_i32_74 : BitVec 32 := 8#32
  let c0_i32_75 : BitVec 32 := 0#32
  let v107 : BitVec 1 := Scalar.cmpi .eq c8_i32_74 c0_i32_75
  let c1_i32_76 : BitVec 32 := 1#32
  let v108 : BitVec 32 := Scalar.select v107 c1_i32_76 c8_i32_74
  let v109 : BitVec 32 := Scalar.remsi v106 v108
  let c0_i32_78 : BitVec 32 := 0#32
  let v111 : BitVec 1 := Scalar.cmpi .slt v109 c0_i32_78
  let c0_i32_79 : BitVec 32 := 0#32
  let v112 : BitVec 1 := Scalar.cmpi .slt v108 c0_i32_79
  let v113 : BitVec 1 := Scalar.xori v111 v112
  let c0_i32_77 : BitVec 32 := 0#32
  let v110 : BitVec 1 := Scalar.cmpi .ne v109 c0_i32_77
  let v114 : BitVec 1 := Scalar.andi v113 v110
  let v115 : BitVec 32 := Scalar.addi v109 v108
  let v116 : BitVec 32 := Scalar.select v114 v115 v109
  let c96_i32 : BitVec 32 := 96#32
  let v117 : BitVec 32 := Scalar.muli v116 c96_i32
  let v118 : Index := Scalar.indexCast v117
  let c0_80 : Index := 0#32
  ![v118.toNat, 0]
def k0_dev8 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v105 : BitVec 32 := Scalar.addi v2 c1_i32_72
  let c0_i32_73 : BitVec 32 := 0#32
  let v106 : BitVec 32 := Scalar.addi v105 c0_i32_73
  let c8_i32_74 : BitVec 32 := 8#32
  let c0_i32_75 : BitVec 32 := 0#32
  let v107 : BitVec 1 := Scalar.cmpi .eq c8_i32_74 c0_i32_75
  let c1_i32_76 : BitVec 32 := 1#32
  let v108 : BitVec 32 := Scalar.select v107 c1_i32_76 c8_i32_74
  let v109 : BitVec 32 := Scalar.remsi v106 v108
  let c0_i32_78 : BitVec 32 := 0#32
  let v111 : BitVec 1 := Scalar.cmpi .slt v109 c0_i32_78
  let c0_i32_79 : BitVec 32 := 0#32
  let v112 : BitVec 1 := Scalar.cmpi .slt v108 c0_i32_79
  let v113 : BitVec 1 := Scalar.xori v111 v112
  let c0_i32_77 : BitVec 32 := 0#32
  let v110 : BitVec 1 := Scalar.cmpi .ne v109 c0_i32_77
  let v114 : BitVec 1 := Scalar.andi v113 v110
  let v115 : BitVec 32 := Scalar.addi v109 v108
  let v116 : BitVec 32 := Scalar.select v114 v115 v109
  let c1_i32_88 : BitVec 32 := 1#32
  let v127 : BitVec 32 := Scalar.muli v116 c1_i32_88
  let v128 : BitVec 32 := Scalar.addi c0_i32_89 v127
  v128.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_94 : BitVec 32 := 1#32
  let v137 : BitVec 32 := Scalar.addi v2 c1_i32_94
  let c1_i32_95 : BitVec 32 := 1#32
  let v138 : BitVec 32 := Scalar.addi v137 c1_i32_95
  let c8_i32_96 : BitVec 32 := 8#32
  let c0_i32_97 : BitVec 32 := 0#32
  let v139 : BitVec 1 := Scalar.cmpi .eq c8_i32_96 c0_i32_97
  let c1_i32_98 : BitVec 32 := 1#32
  let v140 : BitVec 32 := Scalar.select v139 c1_i32_98 c8_i32_96
  let v141 : BitVec 32 := Scalar.remsi v138 v140
  let c0_i32_100 : BitVec 32 := 0#32
  let v143 : BitVec 1 := Scalar.cmpi .slt v141 c0_i32_100
  let c0_i32_101 : BitVec 32 := 0#32
  let v144 : BitVec 1 := Scalar.cmpi .slt v140 c0_i32_101
  let v145 : BitVec 1 := Scalar.xori v143 v144
  let c0_i32_99 : BitVec 32 := 0#32
  let v142 : BitVec 1 := Scalar.cmpi .ne v141 c0_i32_99
  let v146 : BitVec 1 := Scalar.andi v145 v142
  let v147 : BitVec 32 := Scalar.addi v141 v140
  let v148 : BitVec 32 := Scalar.select v146 v147 v141
  let c1_i32_111 : BitVec 32 := 1#32
  let v159 : BitVec 32 := Scalar.muli v148 c1_i32_111
  let v160 : BitVec 32 := Scalar.addi c0_i32_112 v159
  v160.toNat
def k0_dev10 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_117 : BitVec 32 := 1#32
  let v169 : BitVec 32 := Scalar.addi v2 c1_i32_117
  let c2_i32_118 : BitVec 32 := 2#32
  let v170 : BitVec 32 := Scalar.addi v169 c2_i32_118
  let c8_i32_119 : BitVec 32 := 8#32
  let c0_i32_120 : BitVec 32 := 0#32
  let v171 : BitVec 1 := Scalar.cmpi .eq c8_i32_119 c0_i32_120
  let c1_i32_121 : BitVec 32 := 1#32
  let v172 : BitVec 32 := Scalar.select v171 c1_i32_121 c8_i32_119
  let v173 : BitVec 32 := Scalar.remsi v170 v172
  let c0_i32_123 : BitVec 32 := 0#32
  let v175 : BitVec 1 := Scalar.cmpi .slt v173 c0_i32_123
  let c0_i32_124 : BitVec 32 := 0#32
  let v176 : BitVec 1 := Scalar.cmpi .slt v172 c0_i32_124
  let v177 : BitVec 1 := Scalar.xori v175 v176
  let c0_i32_122 : BitVec 32 := 0#32
  let v174 : BitVec 1 := Scalar.cmpi .ne v173 c0_i32_122
  let v178 : BitVec 1 := Scalar.andi v177 v174
  let v179 : BitVec 32 := Scalar.addi v173 v172
  let v180 : BitVec 32 := Scalar.select v178 v179 v173
  let c1_i32_134 : BitVec 32 := 1#32
  let v191 : BitVec 32 := Scalar.muli v180 c1_i32_134
  let v192 : BitVec 32 := Scalar.addi c0_i32_135 v191
  v192.toNat
def k0_dev11 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_140 : BitVec 32 := 1#32
  let v201 : BitVec 32 := Scalar.addi v2 c1_i32_140
  let c3_i32_141 : BitVec 32 := 3#32
  let v202 : BitVec 32 := Scalar.addi v201 c3_i32_141
  let c8_i32_142 : BitVec 32 := 8#32
  let c0_i32_143 : BitVec 32 := 0#32
  let v203 : BitVec 1 := Scalar.cmpi .eq c8_i32_142 c0_i32_143
  let c1_i32_144 : BitVec 32 := 1#32
  let v204 : BitVec 32 := Scalar.select v203 c1_i32_144 c8_i32_142
  let v205 : BitVec 32 := Scalar.remsi v202 v204
  let c0_i32_146 : BitVec 32 := 0#32
  let v207 : BitVec 1 := Scalar.cmpi .slt v205 c0_i32_146
  let c0_i32_147 : BitVec 32 := 0#32
  let v208 : BitVec 1 := Scalar.cmpi .slt v204 c0_i32_147
  let v209 : BitVec 1 := Scalar.xori v207 v208
  let c0_i32_145 : BitVec 32 := 0#32
  let v206 : BitVec 1 := Scalar.cmpi .ne v205 c0_i32_145
  let v210 : BitVec 1 := Scalar.andi v209 v206
  let v211 : BitVec 32 := Scalar.addi v205 v204
  let v212 : BitVec 32 := Scalar.select v210 v211 v205
  let c1_i32_157 : BitVec 32 := 1#32
  let v223 : BitVec 32 := Scalar.muli v212 c1_i32_157
  let v224 : BitVec 32 := Scalar.addi c0_i32_158 v223
  v224.toNat
def k0_dev12 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_163 : BitVec 32 := 1#32
  let v233 : BitVec 32 := Scalar.addi v2 c1_i32_163
  let c4_i32_164 : BitVec 32 := 4#32
  let v234 : BitVec 32 := Scalar.addi v233 c4_i32_164
  let c8_i32_165 : BitVec 32 := 8#32
  let c0_i32_166 : BitVec 32 := 0#32
  let v235 : BitVec 1 := Scalar.cmpi .eq c8_i32_165 c0_i32_166
  let c1_i32_167 : BitVec 32 := 1#32
  let v236 : BitVec 32 := Scalar.select v235 c1_i32_167 c8_i32_165
  let v237 : BitVec 32 := Scalar.remsi v234 v236
  let c0_i32_169 : BitVec 32 := 0#32
  let v239 : BitVec 1 := Scalar.cmpi .slt v237 c0_i32_169
  let c0_i32_170 : BitVec 32 := 0#32
  let v240 : BitVec 1 := Scalar.cmpi .slt v236 c0_i32_170
  let v241 : BitVec 1 := Scalar.xori v239 v240
  let c0_i32_168 : BitVec 32 := 0#32
  let v238 : BitVec 1 := Scalar.cmpi .ne v237 c0_i32_168
  let v242 : BitVec 1 := Scalar.andi v241 v238
  let v243 : BitVec 32 := Scalar.addi v237 v236
  let v244 : BitVec 32 := Scalar.select v242 v243 v237
  let c1_i32_180 : BitVec 32 := 1#32
  let v255 : BitVec 32 := Scalar.muli v244 c1_i32_180
  let v256 : BitVec 32 := Scalar.addi c0_i32_181 v255
  v256.toNat
def k0_dev13 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_186 : BitVec 32 := 1#32
  let v265 : BitVec 32 := Scalar.addi v2 c1_i32_186
  let c5_i32_187 : BitVec 32 := 5#32
  let v266 : BitVec 32 := Scalar.addi v265 c5_i32_187
  let c8_i32_188 : BitVec 32 := 8#32
  let c0_i32_189 : BitVec 32 := 0#32
  let v267 : BitVec 1 := Scalar.cmpi .eq c8_i32_188 c0_i32_189
  let c1_i32_190 : BitVec 32 := 1#32
  let v268 : BitVec 32 := Scalar.select v267 c1_i32_190 c8_i32_188
  let v269 : BitVec 32 := Scalar.remsi v266 v268
  let c0_i32_192 : BitVec 32 := 0#32
  let v271 : BitVec 1 := Scalar.cmpi .slt v269 c0_i32_192
  let c0_i32_193 : BitVec 32 := 0#32
  let v272 : BitVec 1 := Scalar.cmpi .slt v268 c0_i32_193
  let v273 : BitVec 1 := Scalar.xori v271 v272
  let c0_i32_191 : BitVec 32 := 0#32
  let v270 : BitVec 1 := Scalar.cmpi .ne v269 c0_i32_191
  let v274 : BitVec 1 := Scalar.andi v273 v270
  let v275 : BitVec 32 := Scalar.addi v269 v268
  let v276 : BitVec 32 := Scalar.select v274 v275 v269
  let c1_i32_203 : BitVec 32 := 1#32
  let v287 : BitVec 32 := Scalar.muli v276 c1_i32_203
  let v288 : BitVec 32 := Scalar.addi c0_i32_204 v287
  v288.toNat
def k0_dev14 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_209 : BitVec 32 := 1#32
  let v297 : BitVec 32 := Scalar.addi v2 c1_i32_209
  let c6_i32_210 : BitVec 32 := 6#32
  let v298 : BitVec 32 := Scalar.addi v297 c6_i32_210
  let c8_i32_211 : BitVec 32 := 8#32
  let c0_i32_212 : BitVec 32 := 0#32
  let v299 : BitVec 1 := Scalar.cmpi .eq c8_i32_211 c0_i32_212
  let c1_i32_213 : BitVec 32 := 1#32
  let v300 : BitVec 32 := Scalar.select v299 c1_i32_213 c8_i32_211
  let v301 : BitVec 32 := Scalar.remsi v298 v300
  let c0_i32_215 : BitVec 32 := 0#32
  let v303 : BitVec 1 := Scalar.cmpi .slt v301 c0_i32_215
  let c0_i32_216 : BitVec 32 := 0#32
  let v304 : BitVec 1 := Scalar.cmpi .slt v300 c0_i32_216
  let v305 : BitVec 1 := Scalar.xori v303 v304
  let c0_i32_214 : BitVec 32 := 0#32
  let v302 : BitVec 1 := Scalar.cmpi .ne v301 c0_i32_214
  let v306 : BitVec 1 := Scalar.andi v305 v302
  let v307 : BitVec 32 := Scalar.addi v301 v300
  let v308 : BitVec 32 := Scalar.select v306 v307 v301
  let c1_i32_226 : BitVec 32 := 1#32
  let v319 : BitVec 32 := Scalar.muli v308 c1_i32_226
  let v320 : BitVec 32 := Scalar.addi c0_i32_227 v319
  v320.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_232 : BitVec 32 := 96#32
  let v329 : BitVec 32 := Scalar.muli v2 c96_i32_232
  let v330 : Index := Scalar.indexCast v329
  let c0_233 : Index := 0#32
  ![v330.toNat, 0]
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S384x768_S384x768_0_0 : ∀ a, (![0, 0] : Fin 2 → Nat) a + S384x768.size a ≤ S384x768.size a
  h_S384x768 : 0 < S384x768.numel
  shapeCasts_S384x768_S384x768 : S384x768.ShapeCasts S384x768
  bitsLt_bf16_f32 : FTy.bits .bf16 < FTy.bits .f32
  h_S96x384 : 0 < S96x384.numel
  shapeCasts_S96x384_S96x384 : S96x384.ShapeCasts S96x384
  inb_S7x96x768_S1x96x768_0_0_0 : ∀ a, (![0, 0, 0] : Fin 3 → Nat) a + S1x96x768.size a ≤ S7x96x768.size a
  h_S1x96x768 : 0 < S1x96x768.numel
  shapeCasts_S1x96x768_S96x768 : S1x96x768.ShapeCasts S96x768
  shapeCasts_S96x768_S1x96x768 : S96x768.ShapeCasts S1x96x768
  packedbf16_S7x96x768_S1x96x768_0_0_0 : (Rect.unit (s := S7x96x768) ![0, 0, 0] S1x96x768.size inb_S7x96x768_S1x96x768_0_0_0).PackedRows (EltTy.packing .bf16)
  hamt_7 : (7#32 : BitVec 32).msb = false
  inb_S7_S1_0 : ∀ a, (![0] : Fin 1 → Nat) a + S1.size a ≤ S7.size a
  squeezes_S1_S_ : S1.Squeezes S_
  inb_S7_S1_6 : ∀ a, (![6] : Fin 1 → Nat) a + S1.size a ≤ S7.size a
  inb_S7x96x768_S1x96x768_6_0_0 : ∀ a, (![6, 0, 0] : Fin 3 → Nat) a + S1x96x768.size a ≤ S7x96x768.size a
  squeezes_S1x96x768_S96x768 : S1x96x768.Squeezes S96x768
  wordsbf16_S7x96x768_S1x96x768_0_0_0 : (Rect.unit (s := S7x96x768) ![0, 0, 0] S1x96x768.size inb_S7x96x768_S1x96x768_0_0_0).WholeWords (EltTy.packing .bf16)
  wordsbf16_S7x96x768_S1x96x768_6_0_0 : (Rect.unit (s := S7x96x768) ![6, 0, 0] S1x96x768.size inb_S7x96x768_S1x96x768_6_0_0).WholeWords (EltTy.packing .bf16)
  inb_S7x96x768_S1x96x768_1_0_0 : ∀ a, (![1, 0, 0] : Fin 3 → Nat) a + S1x96x768.size a ≤ S7x96x768.size a
  packedbf16_S7x96x768_S1x96x768_1_0_0 : (Rect.unit (s := S7x96x768) ![1, 0, 0] S1x96x768.size inb_S7x96x768_S1x96x768_1_0_0).PackedRows (EltTy.packing .bf16)
  inb_S7_S1_1 : ∀ a, (![1] : Fin 1 → Nat) a + S1.size a ≤ S7.size a
  inb_S7_S1_5 : ∀ a, (![5] : Fin 1 → Nat) a + S1.size a ≤ S7.size a
  inb_S7x96x768_S1x96x768_5_0_0 : ∀ a, (![5, 0, 0] : Fin 3 → Nat) a + S1x96x768.size a ≤ S7x96x768.size a
  wordsbf16_S7x96x768_S1x96x768_1_0_0 : (Rect.unit (s := S7x96x768) ![1, 0, 0] S1x96x768.size inb_S7x96x768_S1x96x768_1_0_0).WholeWords (EltTy.packing .bf16)
  wordsbf16_S7x96x768_S1x96x768_5_0_0 : (Rect.unit (s := S7x96x768) ![5, 0, 0] S1x96x768.size inb_S7x96x768_S1x96x768_5_0_0).WholeWords (EltTy.packing .bf16)
  inb_S7x96x768_S1x96x768_2_0_0 : ∀ a, (![2, 0, 0] : Fin 3 → Nat) a + S1x96x768.size a ≤ S7x96x768.size a
  packedbf16_S7x96x768_S1x96x768_2_0_0 : (Rect.unit (s := S7x96x768) ![2, 0, 0] S1x96x768.size inb_S7x96x768_S1x96x768_2_0_0).PackedRows (EltTy.packing .bf16)
  inb_S7_S1_2 : ∀ a, (![2] : Fin 1 → Nat) a + S1.size a ≤ S7.size a
  inb_S7_S1_4 : ∀ a, (![4] : Fin 1 → Nat) a + S1.size a ≤ S7.size a
  inb_S7x96x768_S1x96x768_4_0_0 : ∀ a, (![4, 0, 0] : Fin 3 → Nat) a + S1x96x768.size a ≤ S7x96x768.size a
  wordsbf16_S7x96x768_S1x96x768_2_0_0 : (Rect.unit (s := S7x96x768) ![2, 0, 0] S1x96x768.size inb_S7x96x768_S1x96x768_2_0_0).WholeWords (EltTy.packing .bf16)
  wordsbf16_S7x96x768_S1x96x768_4_0_0 : (Rect.unit (s := S7x96x768) ![4, 0, 0] S1x96x768.size inb_S7x96x768_S1x96x768_4_0_0).WholeWords (EltTy.packing .bf16)
  inb_S7x96x768_S1x96x768_3_0_0 : ∀ a, (![3, 0, 0] : Fin 3 → Nat) a + S1x96x768.size a ≤ S7x96x768.size a
  packedbf16_S7x96x768_S1x96x768_3_0_0 : (Rect.unit (s := S7x96x768) ![3, 0, 0] S1x96x768.size inb_S7x96x768_S1x96x768_3_0_0).PackedRows (EltTy.packing .bf16)
  inb_S7_S1_3 : ∀ a, (![3] : Fin 1 → Nat) a + S1.size a ≤ S7.size a
  wordsbf16_S7x96x768_S1x96x768_3_0_0 : (Rect.unit (s := S7x96x768) ![3, 0, 0] S1x96x768.size inb_S7x96x768_S1x96x768_3_0_0).WholeWords (EltTy.packing .bf16)
  packedbf16_S7x96x768_S1x96x768_4_0_0 : (Rect.unit (s := S7x96x768) ![4, 0, 0] S1x96x768.size inb_S7x96x768_S1x96x768_4_0_0).PackedRows (EltTy.packing .bf16)
  packedbf16_S7x96x768_S1x96x768_5_0_0 : (Rect.unit (s := S7x96x768) ![5, 0, 0] S1x96x768.size inb_S7x96x768_S1x96x768_5_0_0).PackedRows (EltTy.packing .bf16)
  packedbf16_S7x96x768_S1x96x768_6_0_0 : (Rect.unit (s := S7x96x768) ![6, 0, 0] S1x96x768.size inb_S7x96x768_S1x96x768_6_0_0).PackedRows (EltTy.packing .bf16)
  inb_S96x768_S96x768_0_0 : ∀ a, (![0, 0] : Fin 2 → Nat) a + S96x768.size a ≤ S96x768.size a
  h_S96x768 : 0 < S96x768.numel
  dot_S96x384_S384x768_S96x768_1_0_0_1_n_n_wf : DotDims.WF S96x384 S384x768 S96x768 [1] [0] [0] [1] [] []
  hcc0_scratch2 : 3 + S7.numel ≤ 17
  hcc0_scratch3 : 10 + S7.numel ≤ 17
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r : Fin 7), ∀ a, (k0_off1 d0 (BitVec.ofNat 32 r.val)) a + S96x384.size a ≤ S768x384.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off2_inb : ∀ d0 : Dev nD, ∀ a, (k0_off2 d0) a + S96x384.size a ≤ S768x384.size a
  hstage0_0 : ∀ j, (stage0_0 j).IsWhole
  hstage0_1 : ∀ j, (stage0_1 j).IsWhole
  hstage0_2 : ∀ j, (stage0_2 j).IsWhole

variable [Facts₀]

abbrev cc0_scratch2 : DmaSems sig S7 := SemArray.consecutive 3 S7 hcc0_scratch2
abbrev cc0_scratch3 : DmaSems sig S7 := SemArray.consecutive 10 S7 hcc0_scratch3
def dot_S96x384_S384x768_S96x768_1_0_0_1_n_n : DotDims S96x384 S384x768 S96x768 where
  lhsContracting := [1]
  rhsContracting := [0]
  lhsNonContracting := [0]
  rhsNonContracting := [1]
  lhsBatch := []
  rhsBatch := []
  wf := dot_S96x384_S384x768_S96x768_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S768x3072 : Shape := ⟨2, ![768, 3072]⟩
abbrev S3072x768 : Shape := ⟨2, ![3072, 768]⟩
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S768x3072, .f32⟩
  | .hbm, ⟨1, _⟩ => ⟨S3072x768, .f32⟩
  | .hbm, ⟨2, _⟩ => ⟨S768x768, .f32⟩
  | _, _ => ⟨S768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S768x3072_S3072x768_S768x768_1_0_0_1_n_n_wf : DotDims.WF S768x3072 S3072x768 S768x768 [1] [0] [0] [1] [] []

variable [Facts₀]

def dot_S768x3072_S3072x768_S768x768_1_0_0_1_n_n : DotDims S768x3072 S3072x768 S768x768 where
  lhsContracting := [1]
  rhsContracting := [0]
  lhsNonContracting := [0]
  rhsNonContracting := [1]
  lhsBatch := []
  rhsBatch := []
  wf := dot_S768x3072_S3072x768_S768x768_1_0_0_1_n_n_wf

class Facts : Prop extends Facts₀ where

variable [Facts]
-- ==== Proof.Spec.lean ====
/-
  What each device computes, as pure terms over the staged argument blocks.

  The mesh has eight devices. Device `c` holds the column block `A c` (768 x 384) of the left operand and the
  row block `B c` (384 x 768) of the right operand. For each of its seven peers `nb c d` (the device `d + 1`
  places further round the ring) it multiplies the 96 rows of `A c` that belong to that peer's block of the result
  by `B c` and sends the partial product there; it keeps the partial product of its own 96 rows. What arrives in
  its landing slot `s` is the partial product the peer `nb c s` computed for it, and the result block is the sum
  of its own partial product and the seven that arrived, added in the order slot 6, 5, ..., 0.
-/
import proofs.«900558_g7700000000000559_dist_matmul_mk_i_outk_m768_n768_k384_v7x_i8_bf16_1_alg».proof.Proof.Gen.KernelIdeal.Skeleton

noncomputable section

namespace Cert.KernelIdeal.Spec

open Cert.KernelIdeal Cert.KernelIdeal.Gen
open Idealize.ShloMosaic Idealize.SL.Sem

variable {F : FTy → Type} [FloatOps F]

/-- The peer `d + 1` places further round the ring of eight. -/
def nb (c : Dev nD) (d : Fin 7) : Dev nD := ⟨(c.val + 1 + d.val) % 8, Nat.mod_lt _ (by decide)⟩

/-- Slot `6 - d`: the peer reached by step `d` reaches back by step `6 - d`. -/
def rev (d : Fin 7) : Fin 7 := ⟨6 - d.val, by omega⟩

theorem nb_nb_rev (c : Dev nD) (d : Fin 7) : nb (nb c d) (rev d) = c := by revert c d; decide
theorem rev_rev (d : Fin 7) : rev (rev d) = d := by revert d; decide
theorem nb_ne_self (c : Dev nD) (d : Fin 7) : nb c d ≠ c := by revert c d; decide
theorem nb_inj (c : Dev nD) (d d' : Fin 7) (h : nb c d = nb c d') : d = d' := by revert c d d'; decide

/-- The staged left operand as a whole-buffer memref: the rows sent to a peer are read through it. -/
abbrev aM : Memref sig .tc .vmem S768x384 .f32 := Memref.whole cc0_stg0_0

/-- The 96 rows of `A c` that belong to the result block of peer `nb c d`, as the kernel's load reads them. -/
def rowsFor (A : Dev nD → (cc0_stg0_0 : Ref sig .tc).ty.Contents (Elt F)) (c : Dev nD) (d : Fin 7) : Vec F S96x384 .f32 :=
  (aM : Memref sig .tc .vmem S768x384 .f32).view.readAt (Elt F)
    (Rect.unit (s := S768x384) (k0_off1 c (BitVec.ofNat 32 d.val)) S96x384.size (k0_off1_inb c d)).toLoadRect (A c)

/-- The 96 rows of `A c` that belong to device `c`'s own result block. -/
def rowsOwn (A : Dev nD → (cc0_stg0_0 : Ref sig .tc).ty.Contents (Elt F)) (c : Dev nD) : Vec F S96x384 .f32 :=
  (aM : Memref sig .tc .vmem S768x384 .f32).view.readAt (Elt F)
    (Rect.unit (s := S768x384) (k0_off2 c) S96x384.size (k0_off2_inb c)).toLoadRect (A c)

/-- The partial product device `c` sends to peer `nb c d`: its rows for that peer times its block of `B`. -/
def sendVal (A : Dev nD → (cc0_stg0_0 : Ref sig .tc).ty.Contents (Elt F)) (B : Dev nD → (cc0_stg1_0 : Ref sig .tc).ty.Contents (Elt F))
    (c : Dev nD) (d : Fin 7) : FVec F S1x96x768 .bf16 :=
  k0_pay3 (k0_pay1 (B c)) (rowsFor A c d)

/-- What lands in slot `s` of device `c`: the partial product peer `nb c s` computed for `c`. -/
def rcvVal (A : Dev nD → (cc0_stg0_0 : Ref sig .tc).ty.Contents (Elt F)) (B : Dev nD → (cc0_stg1_0 : Ref sig .tc).ty.Contents (Elt F))
    (c : Dev nD) (s : Fin 7) : FVec F S1x96x768 .bf16 :=
  sendVal A B (nb c s) (rev s)

/-- Device `c`'s result block: its own partial product plus the seven received, slot 6 first. -/
def outVal (A : Dev nD → (cc0_stg0_0 : Ref sig .tc).ty.Contents (Elt F)) (B : Dev nD → (cc0_stg1_0 : Ref sig .tc).ty.Contents (Elt F))
    (c : Dev nD) : FVec F S96x768 .f32 :=
  k0_pay12
    (k0_pay11
      (k0_pay10
        (k0_pay9 (k0_pay1 (B c)) (rowsOwn A c) (rcvVal A B c 6))
        (rcvVal A B c 5) (rcvVal A B c 4) (rcvVal A B c 3))
      (rcvVal A B c 2) (rcvVal A B c 1))
    (rcvVal A B c 0)

/-- The first send's payload is printed over the raw load of `B`; it is the same term. -/
theorem pay2_eq (v102 : Vec F S384x768 .f32) (v119 : Vec F S96x384 .f32) : k0_pay2 v102 v119 = k0_pay3 (k0_pay1 v102) v119 := rfl

end Cert.KernelIdeal.Spec

end
-- ==== Proof.Proto.lean ====
/-
  The protocol of the eight devices, as a schedule of rounds.

  Every device has one barrier cell, seven send cells and seven receive cells.  A barrier cell has ONE round of
  seven duties of one unit each: duty `e` is the signal of the peer that reaches this device by step `e`;
  with it the peer hands over its landing slot `e` (the slot this device's copy will fill) and the fact that
  the peer's receive cell `e` is open.  Send cell `d` has one duty: the copy of send slot `d` having been read
  out; it returns the slot.  Receive cell `s` has one duty: the copy from peer `nb c s` having landed; it
  hands the owner the landing slot holding that peer's partial product.
-/
import proofs.«900558_g7700000000000559_dist_matmul_mk_i_outk_m768_n768_k384_v7x_i8_bf16_1_alg».proof.Proof.Spec
import proofs.«900558_g7700000000000559_dist_matmul_mk_i_outk_m768_n768_k384_v7x_i8_bf16_1_alg».proof.Proof.Gen.KernelIdeal.Launch
import proofs.«900558_g7700000000000559_dist_matmul_mk_i_outk_m768_n768_k384_v7x_i8_bf16_1_alg».proof.Proof.Gen.KernelIdeal.Points
import proofs.«900558_g7700000000000559_dist_matmul_mk_i_outk_m768_n768_k384_v7x_i8_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The kernel's device chains and row offsets, in closed form -/

theorem k0_dev1_eq : ∀ c : Dev nD, k0_dev1 c = (nb c 0).val := by decide +kernel
theorem k0_dev2_eq : ∀ c : Dev nD, k0_dev2 c = (nb c 1).val := by decide +kernel
theorem k0_dev3_eq : ∀ c : Dev nD, k0_dev3 c = (nb c 2).val := by decide +kernel
theorem k0_dev4_eq : ∀ c : Dev nD, k0_dev4 c = (nb c 3).val := by decide +kernel
theorem k0_dev5_eq : ∀ c : Dev nD, k0_dev5 c = (nb c 4).val := by decide +kernel
theorem k0_dev6_eq : ∀ c : Dev nD, k0_dev6 c = (nb c 5).val := by decide +kernel
theorem k0_dev7_eq : ∀ c : Dev nD, k0_dev7 c = (nb c 6).val := by decide +kernel
theorem k0_dev8_eq : ∀ c : Dev nD, k0_dev8 c = (nb c 0).val := by decide +kernel
theorem k0_dev9_eq : ∀ c : Dev nD, k0_dev9 c = (nb c 1).val := by decide +kernel
theorem k0_dev10_eq : ∀ c : Dev nD, k0_dev10 c = (nb c 2).val := by decide +kernel
theorem k0_dev11_eq : ∀ c : Dev nD, k0_dev11 c = (nb c 3).val := by decide +kernel
theorem k0_dev12_eq : ∀ c : Dev nD, k0_dev12 c = (nb c 4).val := by decide +kernel
theorem k0_dev13_eq : ∀ c : Dev nD, k0_dev13 c = (nb c 5).val := by decide +kernel
theorem k0_dev14_eq : ∀ c : Dev nD, k0_dev14 c = (nb c 6).val := by decide +kernel

theorem dev1_eq (c : Dev nD) : (⟨k0_dev1 c, k0_dev1_lt c⟩ : Dev nD) = nb c 0 := Fin.ext (k0_dev1_eq c)
theorem dev2_eq (c : Dev nD) : (⟨k0_dev2 c, k0_dev2_lt c⟩ : Dev nD) = nb c 1 := Fin.ext (k0_dev2_eq c)
theorem dev3_eq (c : Dev nD) : (⟨k0_dev3 c, k0_dev3_lt c⟩ : Dev nD) = nb c 2 := Fin.ext (k0_dev3_eq c)
theorem dev4_eq (c : Dev nD) : (⟨k0_dev4 c, k0_dev4_lt c⟩ : Dev nD) = nb c 3 := Fin.ext (k0_dev4_eq c)
theorem dev5_eq (c : Dev nD) : (⟨k0_dev5 c, k0_dev5_lt c⟩ : Dev nD) = nb c 4 := Fin.ext (k0_dev5_eq c)
theorem dev6_eq (c : Dev nD) : (⟨k0_dev6 c, k0_dev6_lt c⟩ : Dev nD) = nb c 5 := Fin.ext (k0_dev6_eq c)
theorem dev7_eq (c : Dev nD) : (⟨k0_dev7 c, k0_dev7_lt c⟩ : Dev nD) = nb c 6 := Fin.ext (k0_dev7_eq c)
theorem dev8_eq (c : Dev nD) : (⟨k0_dev8 c, k0_dev8_lt c⟩ : Dev nD) = nb c 0 := Fin.ext (k0_dev8_eq c)
theorem dev9_eq (c : Dev nD) : (⟨k0_dev9 c, k0_dev9_lt c⟩ : Dev nD) = nb c 1 := Fin.ext (k0_dev9_eq c)
theorem dev10_eq (c : Dev nD) : (⟨k0_dev10 c, k0_dev10_lt c⟩ : Dev nD) = nb c 2 := Fin.ext (k0_dev10_eq c)
theorem dev11_eq (c : Dev nD) : (⟨k0_dev11 c, k0_dev11_lt c⟩ : Dev nD) = nb c 3 := Fin.ext (k0_dev11_eq c)
theorem dev12_eq (c : Dev nD) : (⟨k0_dev12 c, k0_dev12_lt c⟩ : Dev nD) = nb c 4 := Fin.ext (k0_dev12_eq c)
theorem dev13_eq (c : Dev nD) : (⟨k0_dev13 c, k0_dev13_lt c⟩ : Dev nD) = nb c 5 := Fin.ext (k0_dev13_eq c)
theorem dev14_eq (c : Dev nD) : (⟨k0_dev14 c, k0_dev14_lt c⟩ : Dev nD) = nb c 6 := Fin.ext (k0_dev14_eq c)

/-- The rows read for the peer reached by step `d` start at row `96 * (that peer's position)`. -/
theorem k0_off1_eq : ∀ (c : Dev nD) (d : Fin 7), k0_off1 c (BitVec.ofNat 32 d.val) = ![96 * (nb c d).val, 0] := by decide +kernel

/-! ## The memrefs, the slots, the semaphores, the cells -/

abbrev bM : Memref sig .tc .vmem S384x768 .f32 := Memref.whole cc0_stg1_0
abbrev oM : Memref sig .tc .vmem S96x768 .f32 := Memref.whole cc0_stg2_0
/-- The send buffer and the landing buffer: seven slots of 96 x 768 each. -/
abbrev sM : Memref sig .tc .vmem S7x96x768 .bf16 := Memref.whole cc0_scratch0
abbrev rM : Memref sig .tc .vmem S7x96x768 .bf16 := Memref.whole cc0_scratch1

theorem slot_inb : ∀ (d : Fin 7) a, (![d.val, 0, 0] : Fin 3 → ℕ) a + S1x96x768.size a ≤ S7x96x768.size a := by decide
/-- Slot `d` of a seven-slot buffer, as the rectangle the kernel's loads and stores go through. -/
abbrev slotRect (d : Fin 7) : Rect S7x96x768 := Rect.unit (s := S7x96x768) ![d.val, 0, 0] S1x96x768.size (slot_inb d)
/-- Slot `d` of the send buffer and of the landing buffer, as the 96 x 768 memrefs the copies go through. -/
abbrev sSlot (d : Fin 7) : Memref sig .tc .vmem S96x768 .bf16 :=
  (sM.slice (slotRect d) (fun _ => rfl)).squeeze S96x768 Gen.squeezes_S1x96x768_S96x768
abbrev rSlot (d : Fin 7) : Memref sig .tc .vmem S96x768 .bf16 :=
  (rM.slice (slotRect d) (fun _ => rfl)).squeeze S96x768 Gen.squeezes_S1x96x768_S96x768

/-- The runtime's barrier semaphore of collective id 0 (unscoped); the send and receive DMA semaphores (scoped scratch). -/
abbrev barS : Sem sig := (SemArray.scalar (sig.barrier 0 rfl) : Sems sig S_).sem
abbrev sendS (d : Fin 7) : DmaSem sig := ⟨3 + d.val, by have := d.isLt; show 3 + d.val < 17; omega⟩
abbrev recvS (d : Fin 7) : DmaSem sig := ⟨10 + d.val, by have := d.isLt; show 10 + d.val < 17; omega⟩

abbrev barCell (c : Dev nD) : GSem nD τ sig := ((c : Thread nD τ), .reg barS)
abbrev sendCell (c : Dev nD) (d : Fin 7) : GSem nD τ sig := ((c : Thread nD τ), .dma (sendS d))
abbrev recvCell (c : Dev nD) (d : Fin 7) : GSem nD τ sig := ((c : Thread nD τ), .dma (recvS d))

/-- The kernel reaches its DMA semaphores by slicing the two arrays. -/
theorem sendS_eq : ∀ d : Fin 7, ((cc0_scratch2.slice (Rect.unit (s := S7) ![d.val] S1.size (by revert d; decide))).squeeze S_ Gen.squeezes_S1_S_).sem = sendS d := by decide
theorem recvS_eq : ∀ d : Fin 7, ((cc0_scratch3.slice (Rect.unit (s := S7) ![d.val] S1.size (by revert d; decide))).squeeze S_ Gen.squeezes_S1_S_).sem = recvS d := by decide

/-- The credit of one slot's copy. -/
abbrev N : ℕ := (rSlot 0 : Memref sig .tc .vmem S96x768 .bf16).view.dmaCredit
theorem N_pos : 0 < N := View.dmaCredit_pos _ (by decide)

end Cert.KernelIdeal.Hand

end
-- ==== Proof.Sched.lean ====
/-
  The schedule of rounds, the contents each landing names, what every device owes at launch, the levels,
  and the pipeline's proof data.

  Device `c` signals the barrier cell of each peer `nb c d` (duty `d` of that cell), handing over its landing slot
  `d` — the slot that peer's copy will fill, because the peer reaches `c` by step `6 - d` and writes slot
  `6 - (6 - d)`.  After its barrier cell has received all seven signals it holds, for each step `d`, slot
  `6 - d` of peer `nb c d`, and copies its send slot `d` there.  What lands in slot `s` of `c` is therefore the
  partial product peer `nb c s` computed for `c`.
-/
import proofs.«900558_g7700000000000559_dist_matmul_mk_i_outk_m768_n768_k384_v7x_i8_bf16_1_alg».proof.Proof.Proto

noncomputable section

namespace Cert.KernelIdeal.Hand

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s staged blocks of the two operands: its argument buffers, whole. -/
def Ablk (c : Dev nD) : (cc0_stg0_0 : Ref sig .tc).ty.Contents (Elt F) :=
  (win0_0.blk (0 : Fin 1)).view.read (Elt F) (m ((c : Thread nD τ).loc main_arg0))
def Bblk (c : Dev nD) : (cc0_stg1_0 : Ref sig .tc).ty.Contents (Elt F) :=
  (win0_1.blk (0 : Fin 1)).view.read (Elt F) (m ((c : Thread nD τ).loc main_arg1))

/-- The partial product `c` sends by step `d`; the one that lands in its slot `s`; its result block. -/
abbrev sVal (c : Dev nD) (d : Fin 7) : FVec F S1x96x768 .bf16 := Spec.sendVal (Ablk m) (Bblk m) c d
abbrev rVal (c : Dev nD) (s : Fin 7) : FVec F S1x96x768 .bf16 := Spec.rcvVal (Ablk m) (Bblk m) c s
abbrev oVal (c : Dev nD) : FVec F S96x768 .f32 := Spec.outVal (Ablk m) (Bblk m) c

/-- Contents that are never read: what a buffer holds off the slot a points-to speaks of. -/
def junkS (c : Dev nD) : Buf (Elt F) ((sM : Memref sig .tc .vmem S7x96x768 .bf16).view.loc (c : Thread nD τ)) := Classical.arbitrary _
def junkR (c : Dev nD) : Buf (Elt F) ((rM : Memref sig .tc .vmem S7x96x768 .bf16).view.loc (c : Thread nD τ)) := Classical.arbitrary _

/-- The send buffer of `c` with the partial product for step `d` stored in slot `d`. -/
def sentBuf (c : Dev nD) (d : Fin 7) : Buf (Elt F) ((sM : Memref sig .tc .vmem S7x96x768 .bf16).view.loc (c : Thread nD τ)) :=
  ((sM : Memref sig .tc .vmem S7x96x768 .bf16).access (slotRect d)).write (Elt F) (junkS c) (sVal m c d) Finset.univ
/-- The landing buffer of `c` with peer `nb c s`'s partial product landed in slot `s`. -/
def landedBuf (c : Dev nD) (s : Fin 7) : Buf (Elt F) ((rM : Memref sig .tc .vmem S7x96x768 .bf16).view.loc (c : Thread nD τ)) :=
  (rSlot s : Memref sig .tc .vmem S96x768 .bf16).view.write (Elt F) (junkR c)
    (shapeCast S96x768 (rVal m c s) Gen.shapeCasts_S1x96x768_S96x768) Finset.univ

/-- Slot `d` of the send buffer, and of the landing buffer, of device `c`, held at contents `f`. -/
def sPts (c : Dev nD) (d : Fin 7) (f : Buf (Elt F) ((sM : Memref sig .tc .vmem S7x96x768 .bf16).view.loc (c : Thread nD τ))) : sProp 𝕄 :=
  (sSlot d : Memref sig .tc .vmem S96x768 .bf16).view.loc (c : Thread nD τ) ↦[(sSlot d : Memref sig .tc .vmem S96x768 .bf16).view.set]{fullShare} f
def rPts (c : Dev nD) (d : Fin 7) (f : Buf (Elt F) ((rM : Memref sig .tc .vmem S7x96x768 .bf16).view.loc (c : Thread nD τ))) : sProp 𝕄 :=
  (rSlot d : Memref sig .tc .vmem S96x768 .bf16).view.loc (c : Thread nD τ) ↦[(rSlot d : Memref sig .tc .vmem S96x768 .bf16).view.set]{fullShare} f

omit [FloatOps F] in
instance sPts_storable (c : Dev nD) (d : Fin 7) (f) : BI.Storable (upEmb : UEmb _ 𝕄) (sPts (F := F) c d f) := by unfold sPts; infer_instance
omit [FloatOps F] in
instance rPts_storable (c : Dev nD) (d : Fin 7) (f) : BI.Storable (upEmb : UEmb _ 𝕄) (rPts (F := F) c d f) := by unfold rPts; infer_instance

/-! ## The schedule -/

/-- Which DMA semaphore: `(false, d)` send cell `d`, `(true, d)` receive cell `d`. -/
def dmaIdx (q : DmaSem sig) : Option (Bool × Fin 7) :=
  if h : 3 ≤ q.val ∧ q.val < 10 then some (false, ⟨q.val - 3, by omega⟩)
  else if h : 10 ≤ q.val ∧ q.val < 17 then some (true, ⟨q.val - 10, by omega⟩) else none

theorem dmaIdx_send (d : Fin 7) : dmaIdx (sendS d) = some (false, d) := by
  have := d.isLt
  unfold dmaIdx; rw [dif_pos (by show 3 ≤ 3 + d.val ∧ 3 + d.val < 10; omega)]
  exact congrArg some (Prod.ext rfl (Fin.ext (by show 3 + d.val - 3 = d.val; omega)))
theorem dmaIdx_recv (d : Fin 7) : dmaIdx (recvS d) = some (true, d) := by
  have := d.isLt
  unfold dmaIdx; rw [dif_neg (by show ¬(3 ≤ 10 + d.val ∧ 10 + d.val < 10); omega), dif_pos (by show 10 ≤ 10 + d.val ∧ 10 + d.val < 17; omega)]
  exact congrArg some (Prod.ext rfl (Fin.ext (by show 10 + d.val - 10 = d.val; omega)))

/-- What the signal of duty `e` hands the owner `y` of a barrier cell: the signaller is the peer that reaches `y`
    by step `e`, that is `nb y (rev e)`; it hands over its landing slot `e` and that its receive cell `e` is open. -/
def barPay (y : Dev nD) (e : Fin 7) : sProp 𝕄 :=
  iprop((∃ f, rPts (nb y (rev e)) e f) ∗ reached ER (recvCell (nb y (rev e)) e) 0)

/-- One round, round 0: a barrier cell has seven duties of one unit; a send or receive cell the duty `0` of the slot's credit. -/
def ringRd : Rounds.Schedule (GSem nD τ sig) (Fin 7) 𝕄 where
  duties g r :=
    if r = 0 ∧ g.1.2 = .tc then
      (match g.2 with
        | .reg s => if s = barS then Finset.univ else ∅
        | .dma q => if (dmaIdx q).isSome then {0} else ∅)
    else ∅
  unitless _ := False
  amount g _ _ := match g.2 with | .reg _ => 1 | .dma _ => N
  payload g _ e := match g.2 with
    | .reg _ => barPay g.1.1 e
    | .dma q => match dmaIdx q with
      | some (false, d) => sPts g.1.1 d (sentBuf m g.1.1 d)
      | some (true, d) => rPts g.1.1 d (landedBuf m g.1.1 d)
      | none => iprop(emp)
  amount_pos g _ _ _ := by
    cases g.2 with
    | reg _ => exact Nat.one_pos
    | dma _ => exact N_pos

instance ringRd_payload_storable (g : GSem nD τ sig) (r : ℕ) (e : Fin 7) :
    BI.Storable (upEmb : UEmb _ 𝕄) ((ringRd (F := F) m).payload g r e) := by
  show BI.Storable upEmb (match g.2 with
    | .reg _ => barPay g.1.1 e
    | .dma q => match dmaIdx q with
      | some (false, d) => sPts g.1.1 d (sentBuf m g.1.1 d)
      | some (true, d) => rPts g.1.1 d (landedBuf m g.1.1 d)
      | none => iprop(emp))
  unfold barPay
  (repeat' split) <;> infer_instance

/-! ## The schedule's tables -/

section Tables
variable (c : Dev nD) (d : Fin 7)

theorem duties_bar : (ringRd (F := F) m).duties (barCell c) 0 = Finset.univ := by
  dsimp only [ringRd]; rw [if_pos ⟨rfl, rfl⟩]; exact if_pos rfl
theorem duties_send : (ringRd (F := F) m).duties (sendCell c d) 0 = {0} := by
  dsimp only [ringRd]; rw [if_pos ⟨rfl, rfl⟩]; show (if (dmaIdx (sendS d)).isSome then ({0} : Finset (Fin 7)) else ∅) = {0}
  rw [dmaIdx_send]; rfl
theorem duties_recv : (ringRd (F := F) m).duties (recvCell c d) 0 = {0} := by
  dsimp only [ringRd]; rw [if_pos ⟨rfl, rfl⟩]; show (if (dmaIdx (recvS d)).isSome then ({0} : Finset (Fin 7)) else ∅) = {0}
  rw [dmaIdx_recv]; rfl
theorem duties_later (g : GSem nD τ sig) : ∀ r, 1 ≤ r → (ringRd (F := F) m).duties g r = ∅ :=
  fun r hr => by dsimp only [ringRd]; rw [if_neg fun h => by omega]

theorem amount_bar (e : Fin 7) : (ringRd (F := F) m).amount (barCell c) 0 e = 1 := rfl
theorem amount_send (e : Fin 7) : (ringRd (F := F) m).amount (sendCell c d) 0 e = N := rfl
theorem amount_recv (e : Fin 7) : (ringRd (F := F) m).amount (recvCell c d) 0 e = N := rfl

theorem expect_bar : (ringRd (F := F) m).expect (barCell c) 0 = 7 := by
  unfold Schedule.expect Schedule.amountOf
  rw [duties_bar, Finset.sum_congr rfl fun e _ => amount_bar m c e, Finset.sum_const, Finset.card_univ, Fintype.card_fin, smul_eq_mul]
theorem expect_send : (ringRd (F := F) m).expect (sendCell c d) 0 = N := by
  unfold Schedule.expect Schedule.amountOf; rw [duties_send, Finset.sum_singleton, amount_send]
theorem expect_recv : (ringRd (F := F) m).expect (recvCell c d) 0 = N := by
  unfold Schedule.expect Schedule.amountOf; rw [duties_recv, Finset.sum_singleton, amount_recv]

theorem payload_bar (e : Fin 7) : (ringRd (F := F) m).payload (barCell c) 0 e = barPay c e := rfl
/-- At the signaller: the duty `d` of peer `nb c d`'s barrier cell hands over `c`'s own slot `d`. -/
theorem payload_bar_at : (ringRd (F := F) m).payload (barCell (nb c d)) 0 d
    = iprop((∃ f, rPts c d f) ∗ reached ER (recvCell c d) 0) := by
  rw [payload_bar]; unfold barPay; rw [nb_nb_rev]
theorem payload_send (e : Fin 7) : (ringRd (F := F) m).payload (sendCell c d) 0 e = sPts c d (sentBuf m c d) := by
  show (match dmaIdx (sendS d) with
      | some (false, d') => sPts c d' (sentBuf m c d')
      | some (true, d') => rPts c d' (landedBuf m c d')
      | none => iprop(emp)) = _
  rw [dmaIdx_send]
theorem payload_recv (e : Fin 7) : (ringRd (F := F) m).payload (recvCell c d) 0 e = rPts c d (landedBuf m c d) := by
  show (match dmaIdx (recvS d) with
      | some (false, d') => sPts c d' (sentBuf m c d')
      | some (true, d') => rPts c d' (landedBuf m c d')
      | none => iprop(emp)) = _
  rw [dmaIdx_recv]

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The whole of the barrier cell's round: the seven peers' payloads. -/
theorem rest_bar : bigSep ((ringRd (F := F) m).duties (barCell c) 0 \ ∅) (fun e => (ringRd (F := F) m).payload (barCell c) 0 e)
    = iprop(barPay c 0 ∗ barPay c 1 ∗ barPay c 2 ∗ barPay c 3 ∗ barPay c 4 ∗ barPay c 5 ∗ barPay c 6) := by
  rw [Finset.sdiff_empty, duties_bar, bigSep_fin7]; rfl
theorem rest_send : bigSep ((ringRd (F := F) m).duties (sendCell c d) 0 \ ∅) (fun e => (ringRd (F := F) m).payload (sendCell c d) 0 e) = sPts c d (sentBuf m c d) := by
  rw [Finset.sdiff_empty, duties_send, bigSep_singleton, payload_send]
theorem rest_recv : bigSep ((ringRd (F := F) m).duties (recvCell c d) 0 \ ∅) (fun e => (ringRd (F := F) m).payload (recvCell c d) 0 e) = rPts c d (landedBuf m c d) := by
  rw [Finset.sdiff_empty, duties_recv, bigSep_singleton, payload_recv]

end Tables

/-! ## What each device owes at launch; the levels -/

/-- The tallies of a list of (cell, units), the HEAD the one paid first. -/
def tallies : List (GSem nD τ sig × ℕ) → CellTallies nD τ sig Unit
  | [] => 0
  | x :: l => tallies l + tallyAt x.1 () x.2

theorem tallies_cons (x : GSem nD τ sig × ℕ) (l : List (GSem nD τ sig × ℕ)) : tallies (x :: l) = tallies l + tallyAt x.1 () x.2 := rfl

/-- The copies device `c` owes from step `k` on: step `d` lands the slot's credit on receive cell `6 - d` of peer `nb c d`. -/
def copiesFrom (c : Dev nD) : ℕ → List (GSem nD τ sig × ℕ)
  | 0 => (recvCell (nb c 0) 6, N) :: (recvCell (nb c 1) 5, N) :: (recvCell (nb c 2) 4, N) :: (recvCell (nb c 3) 3, N) :: (recvCell (nb c 4) 2, N) :: (recvCell (nb c 5) 1, N) :: (recvCell (nb c 6) 0, N) :: []
  | 1 => (recvCell (nb c 1) 5, N) :: (recvCell (nb c 2) 4, N) :: (recvCell (nb c 3) 3, N) :: (recvCell (nb c 4) 2, N) :: (recvCell (nb c 5) 1, N) :: (recvCell (nb c 6) 0, N) :: []
  | 2 => (recvCell (nb c 2) 4, N) :: (recvCell (nb c 3) 3, N) :: (recvCell (nb c 4) 2, N) :: (recvCell (nb c 5) 1, N) :: (recvCell (nb c 6) 0, N) :: []
  | 3 => (recvCell (nb c 3) 3, N) :: (recvCell (nb c 4) 2, N) :: (recvCell (nb c 5) 1, N) :: (recvCell (nb c 6) 0, N) :: []
  | 4 => (recvCell (nb c 4) 2, N) :: (recvCell (nb c 5) 1, N) :: (recvCell (nb c 6) 0, N) :: []
  | 5 => (recvCell (nb c 5) 1, N) :: (recvCell (nb c 6) 0, N) :: []
  | 6 => (recvCell (nb c 6) 0, N) :: []
  | _ => []
/-- The signals it owes from step `k` on, then all its copies. -/
def sigsFrom (c : Dev nD) : ℕ → List (GSem nD τ sig × ℕ)
  | 0 => (barCell (nb c 0), 1) :: (barCell (nb c 1), 1) :: (barCell (nb c 2), 1) :: (barCell (nb c 3), 1) :: (barCell (nb c 4), 1) :: (barCell (nb c 5), 1) :: (barCell (nb c 6), 1) :: copiesFrom c 0
  | 1 => (barCell (nb c 1), 1) :: (barCell (nb c 2), 1) :: (barCell (nb c 3), 1) :: (barCell (nb c 4), 1) :: (barCell (nb c 5), 1) :: (barCell (nb c 6), 1) :: copiesFrom c 0
  | 2 => (barCell (nb c 2), 1) :: (barCell (nb c 3), 1) :: (barCell (nb c 4), 1) :: (barCell (nb c 5), 1) :: (barCell (nb c 6), 1) :: copiesFrom c 0
  | 3 => (barCell (nb c 3), 1) :: (barCell (nb c 4), 1) :: (barCell (nb c 5), 1) :: (barCell (nb c 6), 1) :: copiesFrom c 0
  | 4 => (barCell (nb c 4), 1) :: (barCell (nb c 5), 1) :: (barCell (nb c 6), 1) :: copiesFrom c 0
  | 5 => (barCell (nb c 5), 1) :: (barCell (nb c 6), 1) :: copiesFrom c 0
  | 6 => (barCell (nb c 6), 1) :: copiesFrom c 0
  | _ => copiesFrom c 0

/-- What device `c` owes at launch: its seven signals, then its seven copies, in program order. -/
def O₀ (c : Dev nD) : CellTallies nD τ sig Unit := tallies (sigsFrom c 0)
/-- What it still owes when it waits on its barrier cell: the seven copies. -/
def OC (c : Dev nD) : CellTallies nD τ sig Unit := tallies (copiesFrom c 0)

def L (g : GSem nD τ sig) : Finset Unit := if g.1.2 = .tc then {()} else ∅
/-- Barrier cells at 1, receive cells at 2, everything else (staging, send) at 0. -/
def lv (g : GSem nD τ sig) (_ : Unit) : ℕ :=
  match g.2 with
  | .reg s => if s = barS then 1 else 0
  | .dma q => match dmaIdx q with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; exact if_pos rfl
theorem lv_recv (c : Dev nD) (d : Fin 7) (u : Unit) : lv (recvCell c d) u = 2 := by
  show (match dmaIdx (recvS d) with | some (true, _) => 2 | _ => 0) = 2
  rw [dmaIdx_recv]
theorem lv_send (c : Dev nD) (d : Fin 7) (u : Unit) : lv (sendCell c d) u = 0 := by
  show (match dmaIdx (sendS d) with | some (true, _) => 2 | _ => 0) = 0
  rw [dmaIdx_send]

/-! ## The cells' names, the ghost state a device starts from, and the pipeline's proof data -/

/-- A device's fifteen cells: its barrier cell, its seven send cells, its seven receive cells. -/
abbrev kB : Fin 15 := 0
abbrev kS (d : Fin 7) : Fin 15 := ⟨1 + d.val, by have := d.isLt; omega⟩
abbrev kR (d : Fin 7) : Fin 15 := ⟨8 + d.val, by have := d.isLt; omega⟩
def csem (k : Fin 15) : SemLoc sig :=
  if h : k.val = 0 then .reg barS
  else if h8 : k.val < 8 then .dma (sendS ⟨k.val - 1, by omega⟩)
  else .dma (recvS ⟨k.val - 8, by have := k.isLt; omega⟩)
abbrev kcell (ck : Dev nD × Fin 15) : GSem nD τ sig := ((ck.1 : Thread nD τ), csem ck.2)

theorem kcell_B (c : Dev nD) : kcell (c, kB) = barCell c := rfl
theorem kcell_S (c : Dev nD) (d : Fin 7) : kcell (c, kS d) = sendCell c d := by
  have := d.isLt
  show ((c : Thread nD τ), csem (kS d)) = _
  unfold csem; rw [dif_neg (by show ¬(1 + d.val = 0); omega), dif_pos (by show 1 + d.val < 8; omega)]
  exact congrArg (fun q => ((c : Thread nD τ), SemLoc.dma (sendS q))) (Fin.ext (by show 1 + d.val - 1 = d.val; omega))
theorem kcell_R (c : Dev nD) (d : Fin 7) : kcell (c, kR d) = recvCell c d := by
  have := d.isLt
  show ((c : Thread nD τ), csem (kR d)) = _
  unfold csem; rw [dif_neg (by show ¬(8 + d.val = 0); omega), dif_neg (by show ¬(8 + d.val < 8); omega)]
  exact congrArg (fun q => ((c : Thread nD τ), SemLoc.dma (recvS q))) (Fin.ext (by show 8 + d.val - 8 = d.val; omega))

section Ghost
variable (K : Dev nD × Fin 15 → ℕ) (c : Dev nD)

/-- The cells' invariants device `c`'s body opens, under the names the launch allocated them at: its own fifteen, the
    seven peers' barrier cells (its signals), the seven peers' receive cells its copies land on. -/
def invs : sProp 𝕄 :=
  iprop(cellInv ER (ringRd m) (K (c, kB)) (barCell c)
    ∗ (bigSep Finset.univ fun d : Fin 7 => cellInv ER (ringRd m) (K (c, kS d)) (sendCell c d))
    ∗ (bigSep Finset.univ fun d : Fin 7 => cellInv ER (ringRd m) (K (c, kR d)) (recvCell c d))
    ∗ (bigSep Finset.univ fun d : Fin 7 => cellInv ER (ringRd m) (K (nb c d, kB)) (barCell (nb c d)))
    ∗ (bigSep Finset.univ fun d : Fin 7 => cellInv ER (ringRd m) (K (nb c d, kR (rev d))) (recvCell (nb c d) (rev d))))

instance invs_persistent : BI.Persistent (invs m K c) := by unfold invs; infer_instance

/-- The rounds already reached that the body presents: of the cells it pays, and of its own send and receive cells. -/
def reacheds : sProp 𝕄 :=
  iprop((bigSep Finset.univ fun d : Fin 7 => reached ER (barCell (nb c d)) 0)
    ∗ (bigSep Finset.univ fun d : Fin 7 => reached ER (recvCell (nb c d) (rev d)) 0)
    ∗ (bigSep Finset.univ fun d : Fin 7 => reached ER (sendCell c d) 0)
    ∗ (bigSep Finset.univ fun d : Fin 7 => reached ER (recvCell c d) 0))

instance reacheds_persistent : BI.Persistent (reacheds (F := F) c) := by unfold reacheds; infer_instance

/-- The tokens of the duties device `c` pays: duty `d` of peer `nb c d`'s barrier cell, the duty of that peer's
    receive cell `6 - d`, the duty of its own send cell `d`. -/
def payToks : sProp 𝕄 :=
  iprop((bigSep Finset.univ fun d : Fin 7 => dutyTok ER (barCell (nb c d)) 0 d)
    ∗ (bigSep Finset.univ fun d : Fin 7 => dutyTok ER (recvCell (nb c d) (rev d)) 0 0)
    ∗ (bigSep Finset.univ fun d : Fin 7 => dutyTok ER (sendCell c d) 0 0))

/-- Its positions: at round 0 of each of its fifteen cells, nothing taken. -/
def positions : sProp 𝕄 :=
  iprop(atPos ER (barCell c) 0 ∅ 0
    ∗ (bigSep Finset.univ fun d : Fin 7 => atPos ER (sendCell c d) 0 ∅ 0)
    ∗ (bigSep Finset.univ fun d : Fin 7 => atPos ER (recvCell c d) 0 ∅ 0))

def ghost : sProp 𝕄 := iprop(invs m K c ∗ reacheds c ∗ positions c ∗ payToks c)

end Ghost

/-- What device `c`'s body starts from: the ghost state at some names, the credit other devices owe its cells (seven
    units on its barrier cell, a slot's credit on each receive cell) and the level facts. -/
def start (c : Dev nD) : sProp 𝕄 :=
  iprop((∃ K, ghost m K c) ∗ cred (tallyAt (barCell c) () 7)
    ∗ (bigSep Finset.univ fun d : Fin 7 => cred (tallyAt (recvCell c d) () N)) ∗ levAts L lv)

/-- Before the point: that, and the two seven-slot buffers whole at anything. -/
def Φ₀ (c : Dev nD) : sProp 𝕄 :=
  iprop(start m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: the two buffers whole at anything again, the fourteen OWN cells closed at zero (the barrier cell is
    the runtime's: nothing to hand back). -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun d : Fin 7 => semVal (sendCell c d) 0)
    ∗ (bigSep Finset.univ fun d : Fin 7 => semVal (recvCell c d) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Ablk m c
    | ⟨1, _⟩ => Bblk m c
    | ⟨2, _⟩ => oVal m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Hand

end
-- ==== Proof.Views.lean ====
/-
  Facts about a seven-slot buffer seen two ways: through the 1 x 96 x 768 rectangle at slot `d` (what the kernel's
  loads and stores go through) and through the 96 x 768 squeeze of that slice (what the copies go through).  Both
  name the same elements; a value written one way is read back the other way re-indexed by row-major position.
-/
import proofs.«900558_g7700000000000559_dist_matmul_mk_i_outk_m768_n768_k384_v7x_i8_bf16_1_alg».proof.Proof.Proto
import Idealize.ShloMosaic.Lib.Ring
import Idealize.ShloMosaic.Lib.Writes
import Idealize.ShloMosaic.Lib.Pipeline.Value

noncomputable section

namespace Cert.KernelIdeal.Hand

open Cert.KernelIdeal Cert.KernelIdeal.Gen Cert.KernelIdeal.Spec
open Idealize.ShloMosaic Idealize.ShloMosaic.TcCoe
open Idealize.SL Idealize.SL.Sem

variable {F : FTy → Type} [FloatOps F]

/-- Slot `d` of any seven-slot memref, as the 96 x 768 memref a copy goes through. -/
abbrev slotOf (M : Memref sig .tc .vmem S7x96x768 .bf16) (d : Fin 7) : Memref sig .tc .vmem S96x768 .bf16 :=
  (M.slice (slotRect d) (fun _ => rfl)).squeeze S96x768 Gen.squeezes_S1x96x768_S96x768

/-- The elements of slot `d`, as elements of the whole buffer. -/
def slotSet (M : Memref sig .tc .vmem S7x96x768 .bf16) (d : Fin 7) : Finset M.view.ty.Idx := (slotOf M d).view.set

theorem sSlot_eq (d : Fin 7) : sSlot d = slotOf sM d := rfl
theorem rSlot_eq (d : Fin 7) : rSlot d = slotOf rM d := rfl

/-- A load through the slot's rectangle touches only the slot's elements; -/
theorem load_sub (M : Memref sig .tc .vmem S7x96x768 .bf16) (d : Fin 7) :
    M.view.setOn (slotRect d).toLoadRect.set ⊆ (slotOf M d).view.set := by
  -- the squeeze re-indexes the slice and keeps its elements; the slice's elements are the rectangle's, placed in the buffer
  have h : (slotOf M d).view.set = M.view.setOn (slotRect d).toLoadRect.set :=
    (View.set_reshape (M.view.slice (slotRect d)) _).trans (View.set_slice M.view (slotRect d))
  exact h.ge

/-- so does a full store through it. -/
theorem store_sub (M : Memref sig .tc .vmem S7x96x768 .bf16) (d : Fin 7) :
    (M.access (slotRect d)).setOn Finset.univ ⊆ (slotOf M d).view.set := by
  -- a full store through the rectangle writes the slice's elements, which the squeeze keeps
  have h : (slotOf M d).view.set = (M.access (slotRect d)).setOn Finset.univ :=
    View.set_reshape (M.view.slice (slotRect d)) _
  exact h.ge

/-- What a copy reads out of a slot the kernel has just stored `w` into: `w`, re-indexed to 96 x 768. -/
theorem read_slot_of_store (M : Memref sig .tc .vmem S7x96x768 .bf16) (d : Fin 7) (f : M.view.ty.Contents (Elt F))
    (w : S1x96x768.Idx → Elt F .bf16) :
    (slotOf M d).view.read (Elt F) ((M.access (slotRect d)).write (Elt F) f w Finset.univ)
      = shapeCast S96x768 w Gen.shapeCasts_S1x96x768_S96x768 := by
  -- the squeeze reads what a load at the rectangle reads, re-indexed; that load reads the stored payload back
  rw [Memref.read_squeeze_slice M (slotRect d) (fun _ => rfl) Gen.squeezes_S1x96x768_S96x768
    Gen.shapeCasts_S1x96x768_S96x768, View.readAt_rect]
  exact congrArg (fun x => shapeCast S96x768 x Gen.shapeCasts_S1x96x768_S96x768) (View.read_write_univ (v := M.access (slotRect d)) f w)

/-- What a load through the slot's rectangle reads after a copy has landed `w` in the slot: `w`, re-indexed to 1 x 96 x 768. -/
theorem readAt_slot_of_landing (M : Memref sig .tc .vmem S7x96x768 .bf16) (d : Fin 7) (f : M.view.ty.Contents (Elt F))
    (w : S96x768.Idx → Elt F .bf16) :
    M.view.readAt (Elt F) (slotRect d).toLoadRect ((slotOf M d).view.write (Elt F) f w Finset.univ)
      = shapeCast S1x96x768 w Gen.shapeCasts_S96x768_S1x96x768 := by
  -- a full write through the squeeze is the full write of the re-indexed payload through the slice, which the load reads back
  have hw : (slotOf M d).view.write (Elt F) f w Finset.univ
      = (M.view.slice (slotRect d)).write (Elt F) f
          (fun x => w ((Shape.reshapeEquiv Gen.squeezes_S1x96x768_S96x768.numel_eq).symm x)) Finset.univ :=
    View.write_reshape_univ (M.view.slice (slotRect d)) Gen.squeezes_S1x96x768_S96x768.numel_eq f w
  rw [hw, View.readAt_rect, View.read_write_univ, Shape.reshapeEquiv_symm]
  rfl

/-- Re-indexing to 96 x 768 and back is the identity. -/
theorem shapeCast_round {α : Type} (w : S1x96x768.Idx → α) :
    shapeCast S1x96x768 (shapeCast S96x768 w Gen.shapeCasts_S1x96x768_S96x768) Gen.shapeCasts_S96x768_S1x96x768 = w := by
  exact shapeCast_shapeCast w _ _

/-- A full write through a view determines the contents on the view's elements, whatever was there before. -/
theorem write_univ_congr_on_set {κ : Kind} {sp : Space} {s : Shape} {e : EltTy} (v : View sig κ sp s e)
    (f g : v.ty.Contents (Elt F)) (w : s.Idx → Elt F e) :
    ∀ i ∈ v.set, v.write (Elt F) f w Finset.univ i = v.write (Elt F) g w Finset.univ i := by
  -- every element of the view lies under the full mask, so the prior contents are not consulted
  intro i hi
  exact View.write_congr (fun _ _ _ => rfl) (fun hn => absurd hi hn)

/-- The seven slots of a WHOLE seven-slot buffer are pairwise disjoint and cover it. -/
theorem slots_disjoint (M : Memref sig .tc .vmem S7x96x768 .bf16) (d d' : Fin 7) (h : d ≠ d') :
    Disjoint (slotSet M d) (slotSet M d') := by
  -- the squeeze keeps the slice's elements, the slice's are the rectangle's placed in the buffer, and the placement is
  -- injective: so it is enough that the rectangles, which differ by their offset on the leading axis, are disjoint
  have hs : ∀ k : Fin 7, slotSet M k = (slotRect k).set.map M.view.emb := fun k =>
    (View.set_reshape (M.view.slice (slotRect k)) _).trans (View.set_slice M.view (slotRect k))
  rw [hs d, hs d', Finset.disjoint_map]
  exact Ring.lead_disjoint (s := S7x96x768) (NB := 7) (0 : Fin 3) 1 (fun k : Fin 7 => ![k.val, 0, 0]) S1x96x768.size
    slot_inb (fun k => (Nat.one_mul k.val).symm) rfl d d' h

/-- The seven rectangles, one unit of the leading axis each and whole on the other two, cover the shape. -/
theorem slotRects_cover : Finset.univ.biUnion (fun d : Fin 7 => (slotRect d).set) = Finset.univ :=
  Ring.lead_cover (s := S7x96x768) (NB := 7) (0 : Fin 3) 1 (fun k : Fin 7 => ![k.val, 0, 0]) S1x96x768.size
    slot_inb (fun k => (Nat.one_mul k.val).symm) (by decide) rfl (by decide) rfl

theorem sSlots_cover : Finset.univ.biUnion (fun d : Fin 7 => slotSet sM d) = Finset.univ := by
  -- in a whole buffer the slice's elements are the rectangle's own
  have hs : ∀ k : Fin 7, slotSet sM k = (slotRect k).set := fun k =>
    (View.set_reshape ((View.whole cc0_scratch0).slice (slotRect k)) _).trans (View.set_slice_whole cc0_scratch0 (slotRect k))
  rw [Finset.biUnion_congr rfl (fun k _ => hs k)]
  exact slotRects_cover

theorem rSlots_cover : Finset.univ.biUnion (fun d : Fin 7 => slotSet rM d) = Finset.univ := by
  have hs : ∀ k : Fin 7, slotSet rM k = (slotRect k).set := fun k =>
    (View.set_reshape ((View.whole cc0_scratch1).slice (slotRect k)) _).trans (View.set_slice_whole cc0_scratch1 (slotRect k))
  rw [Finset.biUnion_congr rfl (fun k _ => hs k)]
  exact slotRects_cover

end Cert.KernelIdeal.Hand

end
-- ==== Proof.Levels.lean ====
/-
  The one wait a device makes while it still owes something: on its barrier cell it owes its seven copies, which land
  on receive cells, and receive cells sit above barrier cells.
-/
import proofs.«900558_g7700000000000559_dist_matmul_mk_i_outk_m768_n768_k384_v7x_i8_bf16_1_alg».proof.Proof.Sched

noncomputable section

namespace Cert.KernelIdeal.Hand

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A positive tally of a list sits at one of the list's cells. -/
theorem tallies_pos {l : List (GSem nD τ sig × ℕ)} {g : GSem nD τ sig} {u : Unit} (h : 0 < tallies l g u) : ∃ x ∈ l, g = x.1 := by
  induction l with
  | nil => exact absurd h (Nat.lt_irrefl 0)
  | cons x l ih =>
    rw [tallies_cons] at h
    rcases Pipeline.add_pos_cases h with h | h
    · obtain ⟨y, hy, e⟩ := ih h
      exact ⟨y, List.mem_cons_of_mem _ hy, e⟩
    · rw [tallyAt_apply] at h
      by_cases hx : g = x.1 ∧ u = ()
      · exact ⟨x, List.mem_cons_self, hx.1⟩
      · rw [if_neg hx] at h; exact absurd h (Nat.lt_irrefl 0)

/-- A cell the copies of `c` are owed to is a receive cell of one of its peers. -/
theorem OC_pos {c : Dev nD} {g : GSem nD τ sig} {u : Unit} (h : 0 < OC c g u) : ∃ d : Fin 7, g = recvCell (nb c d) (rev d) := by
  obtain ⟨x, hx, rfl⟩ := tallies_pos h
  simp only [copiesFrom, List.mem_cons, List.not_mem_nil, or_false] at hx
  rcases hx with rfl | rfl | rfl | rfl | rfl | rfl | rfl
  · exact ⟨0, rfl⟩
  · exact ⟨1, rfl⟩
  · exact ⟨2, rfl⟩
  · exact ⟨3, rfl⟩
  · exact ⟨4, rfl⟩
  · exact ⟨5, rfl⟩
  · exact ⟨6, rfl⟩

omit [FloatOps F] in
/-- At its barrier wait a device owes its copies only: receive cells, above its barrier cell. -/
theorem mayWait_bar (c : Dev nD) :
    (levAts L lv : sProp 𝕄) ⊢ MayWait (c : Thread nD τ) (.reg barS) () (OC c) :=
  MayOwe.of_cut (L := L) (lev := lv) 1 (fun p hp => by rw [Finset.mem_singleton.mp hp, L_tc]; exact Finset.mem_singleton_self _)
    (fun g u hg => by obtain ⟨d, rfl⟩ := OC_pos hg; rw [L_tc]; exact Finset.mem_singleton_self _)
    (fun p hp => by rw [Finset.mem_singleton.mp hp]; exact le_of_eq (lv_bar c ()))
    (fun g u hg => by obtain ⟨d, rfl⟩ := OC_pos hg; rw [lv_recv]; decide)

end Cert.KernelIdeal.Hand

end
-- ==== Proof.BodyLemmas.lean ====
/-
  Small facts the proof of the kernel's body uses.  The seven payloads a device stores into its send slots are one
  function.  A slot held after the store of a partial product is the slot held at the canonical contents, and what a
  copy of that slot leaves in the peer's landing slot is the peer's canonical landed contents, which a load through
  the slot's rectangle reads back as the partial product.  A seven-slot buffer held whole is its seven slots, and
  seven slots at any contents join to the buffer whole.  A send or receive cell whose one round is over closes at zero.
-/
import proofs.«900558_g7700000000000559_dist_matmul_mk_i_outk_m768_n768_k384_v7x_i8_bf16_1_alg».proof.Proof.Sched
import proofs.«900558_g7700000000000559_dist_matmul_mk_i_outk_m768_n768_k384_v7x_i8_bf16_1_alg».proof.Proof.Views

noncomputable section

namespace Cert.KernelIdeal.Hand

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A seven-slot buffer held whole is its seven slots -/

theorem sM_split (c : Dev nD) (f : Buf (Elt F) ((c : Thread nD τ).loc cc0_scratch0)) :
    ((((c : Thread nD τ).loc cc0_scratch0) ↦{fullShare} f : sProp 𝕄))
      = iprop(sPts c 0 f ∗ sPts c 1 f ∗ sPts c 2 f ∗ sPts c 3 f ∗ sPts c 4 f ∗ sPts c 5 f ∗ sPts c 6 f) := by
  rw [Ring.pointsTo_blocks (ℓ := (c : Thread nD τ).loc cc0_scratch0) (fun d : Fin 7 => slotSet sM d)
    (fun d d' h => slots_disjoint sM d d' h) sSlots_cover, bigSep_fin7]
  rfl

theorem rM_split (c : Dev nD) (f : Buf (Elt F) ((c : Thread nD τ).loc cc0_scratch1)) :
    ((((c : Thread nD τ).loc cc0_scratch1) ↦{fullShare} f : sProp 𝕄))
      = iprop(rPts c 0 f ∗ rPts c 1 f ∗ rPts c 2 f ∗ rPts c 3 f ∗ rPts c 4 f ∗ rPts c 5 f ∗ rPts c 6 f) := by
  rw [Ring.pointsTo_blocks (ℓ := (c : Thread nD τ).loc cc0_scratch1) (fun d : Fin 7 => slotSet rM d)
    (fun d d' h => slots_disjoint rM d d' h) rSlots_cover, bigSep_fin7]
  rfl

/-! ## The slot a store leaves, and the slot a copy leaves -/

/-- The slot held after the store of the partial product is the slot held at the canonical contents: a full store
    through the slot's rectangle does not consult what was there before. -/
theorem stored_eq (c : Dev nD) (d : Fin 7) (f : Buf (Elt F) ((sM : Memref sig .tc .vmem S7x96x768 .bf16).view.loc (c : Thread nD τ))) :
    sPts c d (((sM : Memref sig .tc .vmem S7x96x768 .bf16).access (slotRect d)).write (Elt F) f (sVal m c d) Finset.univ)
      = sPts c d (sentBuf m c d) := by
  unfold sPts sentBuf
  refine pointsTo_congr fun i hi => ?_
  have hs : (sSlot d : Memref sig .tc .vmem S96x768 .bf16).view.set
      = ((sM : Memref sig .tc .vmem S7x96x768 .bf16).access (slotRect d)).set :=
    View.set_reshape ((sM : Memref sig .tc .vmem S7x96x768 .bf16).view.slice (slotRect d)) _
  exact write_univ_congr_on_set ((sM : Memref sig .tc .vmem S7x96x768 .bf16).access (slotRect d)) f (junkS c) (sVal m c d) i (hs ▸ hi)

/-- What device `c`'s copy of its send slot `d` leaves in slot `6 - d` of the peer `nb c d` is that peer's canonical
    landed contents: the copy reads the stored partial product re-indexed to 96 x 768, and the partial product the
    peer expects in that slot, from the peer that reaches it by step `6 - d`, is the one `c` sends by step `d`. -/
theorem landing_ok (c : Dev nD) (d : Fin 7)
    (fd : Buf (Elt F) ((rM : Memref sig .tc .vmem S7x96x768 .bf16).view.loc ((nb c d : Dev nD) : Thread nD τ))) :
    ((rSlot (rev d) : Memref sig .tc .vmem S96x768 .bf16).view.loc ((nb c d : Dev nD) : Thread nD τ)
        ↦[(rSlot (rev d) : Memref sig .tc .vmem S96x768 .bf16).view.set]{fullShare}
          (rSlot (rev d) : Memref sig .tc .vmem S96x768 .bf16).view.write (Elt F) fd
            ((sSlot d : Memref sig .tc .vmem S96x768 .bf16).view.read (Elt F) (sentBuf m c d)) Finset.univ : sProp 𝕄)
      ⊢ rPts (nb c d) (rev d) (landedBuf m (nb c d) (rev d)) := by
  refine Entails.of_eq ?_
  have hread : (sSlot d : Memref sig .tc .vmem S96x768 .bf16).view.read (Elt F) (sentBuf m c d)
      = shapeCast S96x768 (sVal m c d) Gen.shapeCasts_S1x96x768_S96x768 := by
    unfold sentBuf
    exact read_slot_of_store sM d (junkS c) (sVal m c d)
  have hval : rVal m (nb c d) (rev d) = sVal m c d := by
    show Spec.sendVal (Ablk m) (Bblk m) (nb (nb c d) (rev d)) (rev (rev d)) = Spec.sendVal (Ablk m) (Bblk m) c d
    rw [Spec.nb_nb_rev, Spec.rev_rev]
  unfold rPts landedBuf
  rw [hread, hval]
  exact pointsTo_congr fun i hi =>
    write_univ_congr_on_set (rSlot (rev d) : Memref sig .tc .vmem S96x768 .bf16).view fd (junkR (nb c d)) _ i hi

/-- A load through the rectangle of slot `s` of the canonical landed contents reads the partial product that landed. -/
theorem load_landed (c : Dev nD) (s : Fin 7) :
    (rM : Memref sig .tc .vmem S7x96x768 .bf16).view.readAt (Elt F) (slotRect s).toLoadRect (landedBuf m c s) = rVal m c s := by
  unfold landedBuf
  exact (readAt_slot_of_landing rM s (junkR c) _).trans (shapeCast_round _)

/-! ## The seven store payloads are one function -/

theorem pay4_eq : @k0_pay4 F _ = @k0_pay3 F _ := rfl
theorem pay5_eq : @k0_pay5 F _ = @k0_pay3 F _ := rfl
theorem pay6_eq : @k0_pay6 F _ = @k0_pay3 F _ := rfl
theorem pay7_eq : @k0_pay7 F _ = @k0_pay3 F _ := rfl
theorem pay8_eq : @k0_pay8 F _ = @k0_pay3 F _ := rfl

/-! ## Closing an own cell after its one round -/

theorem close_send (K : Dev nD × Fin 15 → ℕ) (c : Dev nD) (d : Fin 7) :
    iprop(cellInv ER (ringRd m) (K (c, kS d)) (sendCell c d) ∗ atPos ER (sendCell c d) (0 + 1) ∅ 0)
      ⊢ (|={Set.univ}=> semVal (sendCell c d) 0 : sProp 𝕄) :=
  Rounds.cell_close ER (ringRd m) (Set.mem_univ _) (fun h => h) (R := 0 + 1) (duties_later m _)

theorem close_recv (K : Dev nD × Fin 15 → ℕ) (c : Dev nD) (d : Fin 7) :
    iprop(cellInv ER (ringRd m) (K (c, kR d)) (recvCell c d) ∗ atPos ER (recvCell c d) (0 + 1) ∅ 0)
      ⊢ (|={Set.univ}=> semVal (recvCell c d) 0 : sProp 𝕄) :=
  Rounds.cell_close ER (ringRd m) (Set.mem_univ _) (fun h => h) (R := 0 + 1) (duties_later m _)

/-! ## Seven slots at any contents join to the buffer whole -/

theorem sM_join (c : Dev nD) (fs : Fin 7 → Buf (Elt F) ((c : Thread nD τ).loc cc0_scratch0)) :
    iprop(sPts c 0 (fs 0) ∗ sPts c 1 (fs 1) ∗ sPts c 2 (fs 2) ∗ sPts c 3 (fs 3) ∗ sPts c 4 (fs 4) ∗ sPts c 5 (fs 5) ∗ sPts c 6 (fs 6))
      ⊢ (iprop(∃ g : Buf (Elt F) ((c : Thread nD τ).loc cc0_scratch0), ((c : Thread nD τ).loc cc0_scratch0) ↦{fullShare} g) : sProp 𝕄) := by
  have h := Ring.pointsTo_blocks_join (nD := nD) (τ := τ) (sig := sig) (Ix := Unit) (Val := Elt F) (Name := ℕ) (U := UU) (Lvl := ℕ)
    (ℓ := (c : Thread nD τ).loc cc0_scratch0) (fun d : Fin 7 => slotSet sM d)
    (fun d d' h => slots_disjoint sM d d' h) sSlots_cover (q := fullShare) fs (fs 0)
  rw [bigSep_fin7] at h
  exact h

theorem rM_join (c : Dev nD) (fs : Fin 7 → Buf (Elt F) ((c : Thread nD τ).loc cc0_scratch1)) :
    iprop(rPts c 0 (fs 0) ∗ rPts c 1 (fs 1) ∗ rPts c 2 (fs 2) ∗ rPts c 3 (fs 3) ∗ rPts c 4 (fs 4) ∗ rPts c 5 (fs 5) ∗ rPts c 6 (fs 6))
      ⊢ (iprop(∃ g : Buf (Elt F) ((c : Thread nD τ).loc cc0_scratch1), ((c : Thread nD τ).loc cc0_scratch1) ↦{fullShare} g) : sProp 𝕄) := by
  have h := Ring.pointsTo_blocks_join (nD := nD) (τ := τ) (sig := sig) (Ix := Unit) (Val := Elt F) (Name := ℕ) (U := UU) (Lvl := ℕ)
    (ℓ := (c : Thread nD τ).loc cc0_scratch1) (fun d : Fin 7 => slotSet rM d)
    (fun d d' h => slots_disjoint rM d d' h) rSlots_cover (q := fullShare) fs (fs 0)
  rw [bigSep_fin7] at h
  exact h

/-! ## The body's last step: the fourteen own cells closed, the two buffers whole again -/

/-- The seven send cells close together; -/
theorem close_sends (K : Dev nD × Fin 15 → ℕ) (c : Dev nD) :
    iprop((bigSep Finset.univ fun d : Fin 7 => cellInv ER (ringRd m) (K (c, kS d)) (sendCell c d))
        ∗ (bigSep Finset.univ fun d : Fin 7 => atPos ER (sendCell c d) (0 + 1) ∅ 0))
      ⊢ (|={Set.univ}=> bigSep Finset.univ fun d : Fin 7 => semVal (sendCell c d) 0 : sProp 𝕄) := by
  rw [← bigSep_sep']
  exact (bigSep_mono fun d _ => close_send m K c d).trans (bigSep_fupd _ _)

/-- so do the seven receive cells. -/
theorem close_recvs (K : Dev nD × Fin 15 → ℕ) (c : Dev nD) :
    iprop((bigSep Finset.univ fun d : Fin 7 => cellInv ER (ringRd m) (K (c, kR d)) (recvCell c d))
        ∗ (bigSep Finset.univ fun d : Fin 7 => atPos ER (recvCell c d) (0 + 1) ∅ 0))
      ⊢ (|={Set.univ}=> bigSep Finset.univ fun d : Fin 7 => semVal (recvCell c d) 0 : sProp 𝕄) := by
  rw [← bigSep_sep']
  exact (bigSep_mono fun d _ => close_recv m K c d).trans (bigSep_fupd _ _)

/-- The seven send slots at their canonical contents are the send buffer whole at some contents; -/
theorem sM_join_sent (c : Dev nD) :
    (bigSep Finset.univ fun d : Fin 7 => sPts c d (sentBuf m c d))
      ⊢ (iprop(∃ g : Buf (Elt F) ((c : Thread nD τ).loc cc0_scratch0), ((c : Thread nD τ).loc cc0_scratch0) ↦{fullShare} g) : sProp 𝕄) := by
  rw [bigSep_fin7]
  exact sM_join c fun d => sentBuf m c d

/-- the seven landing slots at theirs, the landing buffer. -/
theorem rM_join_landed (c : Dev nD) :
    (bigSep Finset.univ fun d : Fin 7 => rPts c d (landedBuf m c d))
      ⊢ (iprop(∃ g : Buf (Elt F) ((c : Thread nD τ).loc cc0_scratch1), ((c : Thread nD τ).loc cc0_scratch1) ↦{fullShare} g) : sProp 𝕄) := by
  rw [bigSep_fin7]
  exact rM_join c fun d => landedBuf m c d

/-- From the fourteen own cells past their one round, with nothing taken, and the fourteen slots back at their
    canonical contents: the cells close at zero and the two buffers are whole at some contents. -/
theorem phi1_intro (K : Dev nD × Fin 15 → ℕ) (c : Dev nD) :
    iprop((bigSep Finset.univ fun d : Fin 7 => cellInv ER (ringRd m) (K (c, kS d)) (sendCell c d))
        ∗ (bigSep Finset.univ fun d : Fin 7 => cellInv ER (ringRd m) (K (c, kR d)) (recvCell c d))
        ∗ (bigSep Finset.univ fun d : Fin 7 => atPos ER (sendCell c d) (0 + 1) ∅ 0)
        ∗ (bigSep Finset.univ fun d : Fin 7 => atPos ER (recvCell c d) (0 + 1) ∅ 0)
        ∗ (bigSep Finset.univ fun d : Fin 7 => sPts c d (sentBuf m c d))
        ∗ (bigSep Finset.univ fun d : Fin 7 => rPts c d (landedBuf m c d)))
      ⊢ (|={Set.univ}=> Φ₁ c : sProp 𝕄) := by
  iintro ⟨HiS, HiR, HaS, HaR, HsP, HrP⟩
  imod (close_sends m K c) $$ [HiS HaS] with HzS
  · isplitl [HiS]; · iexact HiS
    iexact HaS
  imod (close_recvs m K c) $$ [HiR HaR] with HzR
  · isplitl [HiR]; · iexact HiR
    iexact HaR
  imodintro
  unfold Φ₁
  isplitl [HsP]
  · iapply (sM_join_sent m c); iexact HsP
  isplitl [HrP]
  · iapply (rM_join_landed m c); iexact HrP
  isplitl [HzS]; · iexact HzS
  iexact HzR

/-- The same with the positions' round written `1`. -/
theorem phi1_intro_one (K : Dev nD × Fin 15 → ℕ) (c : Dev nD) :
    iprop((bigSep Finset.univ fun d : Fin 7 => cellInv ER (ringRd m) (K (c, kS d)) (sendCell c d))
        ∗ (bigSep Finset.univ fun d : Fin 7 => cellInv ER (ringRd m) (K (c, kR d)) (recvCell c d))
        ∗ (bigSep Finset.univ fun d : Fin 7 => atPos ER (sendCell c d) 1 ∅ 0)
        ∗ (bigSep Finset.univ fun d : Fin 7 => atPos ER (recvCell c d) 1 ∅ 0)
        ∗ (bigSep Finset.univ fun d : Fin 7 => sPts c d (sentBuf m c d))
        ∗ (bigSep Finset.univ fun d : Fin 7 => rPts c d (landedBuf m c d)))
      ⊢ (|={Set.univ}=> Φ₁ c : sProp 𝕄) :=
  phi1_intro m K c

/-! ## The copy of a send slot into the peer's landing slot -/

/-- The copy device `c` issues at step `d`: from its send slot `d`, held at the canonical contents, into slot `6 - d`
    of the peer `nb c d`, which it holds at any contents.  The send slot goes to its send cell's one duty; the landing
    slot, rewritten, is the peer's canonical landed contents and goes to the peer's receive cell's one duty.  The
    copy's credit on the send cell comes back, and the debt on the peer's receive cell is paid. -/
theorem wp_send_slot (K : Dev nD × Fin 15 → ℕ) (c : Dev nD) (d : Fin 7) (O : CellTallies nD τ sig Unit) (W : Waits sig Unit)
    (fd : Buf (Elt F) ((rM : Memref sig .tc .vmem S7x96x768 .bf16).view.loc ((nb c d : Dev nD) : Thread nD τ)))
    {hsc : (rSlot (rev d) : Memref sig (Dev.tc (nb c d) : Thread nD τ).2.kind .vmem S96x768 .bf16).view.ref.isScScratch = false}
    {hsrc : (sSlot d : Memref sig .tc .vmem S96x768 .bf16).view.WordExact} {hdst : (rSlot (rev d) : Memref sig .tc .vmem S96x768 .bf16).view.WordExact}
    {hsem : DmaTarget.Typed .vmem (.dma (recvS (rev d))) (.remote (Dev.tc (nb c d) : Thread nD τ) (rSlot (rev d) : Memref sig .tc .vmem S96x768 .bf16) (.dma (sendS d)) hsc)}
    {α : Type} {Q : α → sProp 𝕄} {k : PUnit → Prog (TpuEff nD τ sig (Elt F) Λ₀ .tc) α} :
    iprop(cellInv ER (ringRd m) (K (c, kS d)) (sendCell c d) ∗ cellInv ER (ringRd m) (K (nb c d, kR (rev d))) (recvCell (nb c d) (rev d))
        ∗ sPts c d (sentBuf m c d) ∗ rPts (nb c d) (rev d) fd
        ∗ owes (c : Thread nD τ) (O + tallyAt (recvCell (nb c d) (rev d)) () N) W
        ∗ dutyTok ER (sendCell c d) 0 0 ∗ reached ER (sendCell c d) 0
        ∗ dutyTok ER (recvCell (nb c d) (rev d)) 0 0 ∗ reached ER (recvCell (nb c d) (rev d)) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot d : Memref sig .tc .vmem S96x768 .bf16) (.remote (Dev.tc (nb c d) : Thread nD τ) (rSlot (rev d) : Memref sig .tc .vmem S96x768 .bf16) (.dma (sendS d)) hsc) (.dma (recvS (rev d))) hsrc hdst hsem) k) Q) := by
  unfold sPts rPts
  exact Rounds.wp_send_pointsTo 𝒱₀ ER (ringRd m) (c : Thread nD τ) none (c' := (nb c d : Thread nD τ))
    (src := (sSlot d : Memref sig .tc .vmem S96x768 .bf16)) (dst := (rSlot (rev d) : Memref sig .tc .vmem S96x768 .bf16))
    (q := fullShare) (fs := sentBuf m c d) (κ₁ := K (c, kS d)) (κ₂ := K (nb c d, kR (rev d)))
    (r₁ := 0) (r₂ := 0) (d₁ := 0) (d₂ := 0) (fd := fd)
    (by rw [duties_send]; exact Finset.mem_singleton_self _) (by rw [duties_recv]; exact Finset.mem_singleton_self _)
    () () N rfl (amount_send m c d 0) (amount_recv m (nb c d) (rev d) 0) O rfl (W := W)
    (by rw [payload_send]; exact BI.Entails.refl _)
    (by rw [payload_recv]; exact landing_ok m c d fd)

end Cert.KernelIdeal.Hand

end
-- ==== Proof.BodyStmt.lean ====
/-
  The statement of one device's body: what it starts from, spelt out cell by cell and slot by slot, and what it
  leaves.
-/
import proofs.«900558_g7700000000000559_dist_matmul_mk_i_outk_m768_n768_k384_v7x_i8_bf16_1_alg».proof.Proof.Sched
import proofs.«900558_g7700000000000559_dist_matmul_mk_i_outk_m768_n768_k384_v7x_i8_bf16_1_alg».proof.Proof.Views
import proofs.«900558_g7700000000000559_dist_matmul_mk_i_outk_m768_n768_k384_v7x_i8_bf16_1_alg».proof.Proof.Levels
import proofs.«900558_g7700000000000559_dist_matmul_mk_i_outk_m768_n768_k384_v7x_i8_bf16_1_alg».proof.Proof.BodyLemmas

noncomputable section

namespace Cert.KernelIdeal.Hand

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What device `c`'s body starts from, every piece by itself: the invariants of the cells it opens, the rounds it knows
    reached, its positions, the tokens of the duties it pays, the credit on its barrier and receive cells, the levels,
    what it owes (its seven signals, then its seven copies), the seven slots of each of its two buffers, and the three
    staged blocks. -/
def bodyPre (K : Dev nD × Fin 15 → ℕ) (c : Dev nD) (W : Waits sig Unit)
    (f0 : Buf (Elt F) ((c : Thread nD τ).loc cc0_scratch0)) (g0 : Buf (Elt F) ((c : Thread nD τ).loc cc0_scratch1))
    (o0 : Buf (Elt F) ((c : Thread nD τ).loc cc0_stg2_0)) : sProp 𝕄 :=
  iprop(cellInv ER (ringRd m) (K (c, kB)) (barCell c)
        ∗ cellInv ER (ringRd m) (K (c, kS 0)) (sendCell c 0)
        ∗ cellInv ER (ringRd m) (K (c, kS 1)) (sendCell c 1)
        ∗ cellInv ER (ringRd m) (K (c, kS 2)) (sendCell c 2)
        ∗ cellInv ER (ringRd m) (K (c, kS 3)) (sendCell c 3)
        ∗ cellInv ER (ringRd m) (K (c, kS 4)) (sendCell c 4)
        ∗ cellInv ER (ringRd m) (K (c, kS 5)) (sendCell c 5)
        ∗ cellInv ER (ringRd m) (K (c, kS 6)) (sendCell c 6)
        ∗ cellInv ER (ringRd m) (K (c, kR 0)) (recvCell c 0)
        ∗ cellInv ER (ringRd m) (K (c, kR 1)) (recvCell c 1)
        ∗ cellInv ER (ringRd m) (K (c, kR 2)) (recvCell c 2)
        ∗ cellInv ER (ringRd m) (K (c, kR 3)) (recvCell c 3)
        ∗ cellInv ER (ringRd m) (K (c, kR 4)) (recvCell c 4)
        ∗ cellInv ER (ringRd m) (K (c, kR 5)) (recvCell c 5)
        ∗ cellInv ER (ringRd m) (K (c, kR 6)) (recvCell c 6)
        ∗ cellInv ER (ringRd m) (K (nb c 0, kB)) (barCell (nb c 0))
        ∗ cellInv ER (ringRd m) (K (nb c 1, kB)) (barCell (nb c 1))
        ∗ cellInv ER (ringRd m) (K (nb c 2, kB)) (barCell (nb c 2))
        ∗ cellInv ER (ringRd m) (K (nb c 3, kB)) (barCell (nb c 3))
        ∗ cellInv ER (ringRd m) (K (nb c 4, kB)) (barCell (nb c 4))
        ∗ cellInv ER (ringRd m) (K (nb c 5, kB)) (barCell (nb c 5))
        ∗ cellInv ER (ringRd m) (K (nb c 6, kB)) (barCell (nb c 6))
        ∗ cellInv ER (ringRd m) (K (nb c 0, kR 6)) (recvCell (nb c 0) 6)
        ∗ cellInv ER (ringRd m) (K (nb c 1, kR 5)) (recvCell (nb c 1) 5)
        ∗ cellInv ER (ringRd m) (K (nb c 2, kR 4)) (recvCell (nb c 2) 4)
        ∗ cellInv ER (ringRd m) (K (nb c 3, kR 3)) (recvCell (nb c 3) 3)
        ∗ cellInv ER (ringRd m) (K (nb c 4, kR 2)) (recvCell (nb c 4) 2)
        ∗ cellInv ER (ringRd m) (K (nb c 5, kR 1)) (recvCell (nb c 5) 1)
        ∗ cellInv ER (ringRd m) (K (nb c 6, kR 0)) (recvCell (nb c 6) 0)
        ∗ reached ER (barCell (nb c 0)) 0
        ∗ reached ER (barCell (nb c 1)) 0
        ∗ reached ER (barCell (nb c 2)) 0
        ∗ reached ER (barCell (nb c 3)) 0
        ∗ reached ER (barCell (nb c 4)) 0
        ∗ reached ER (barCell (nb c 5)) 0
        ∗ reached ER (barCell (nb c 6)) 0
        ∗ reached ER (recvCell (nb c 0) 6) 0
        ∗ reached ER (recvCell (nb c 1) 5) 0
        ∗ reached ER (recvCell (nb c 2) 4) 0
        ∗ reached ER (recvCell (nb c 3) 3) 0
        ∗ reached ER (recvCell (nb c 4) 2) 0
        ∗ reached ER (recvCell (nb c 5) 1) 0
        ∗ reached ER (recvCell (nb c 6) 0) 0
        ∗ reached ER (sendCell c 0) 0
        ∗ reached ER (sendCell c 1) 0
        ∗ reached ER (sendCell c 2) 0
        ∗ reached ER (sendCell c 3) 0
        ∗ reached ER (sendCell c 4) 0
        ∗ reached ER (sendCell c 5) 0
        ∗ reached ER (sendCell c 6) 0
        ∗ reached ER (recvCell c 0) 0
        ∗ reached ER (recvCell c 1) 0
        ∗ reached ER (recvCell c 2) 0
        ∗ reached ER (recvCell c 3) 0
        ∗ reached ER (recvCell c 4) 0
        ∗ reached ER (recvCell c 5) 0
        ∗ reached ER (recvCell c 6) 0
        ∗ atPos ER (barCell c) 0 ∅ 0
        ∗ atPos ER (sendCell c 0) 0 ∅ 0
        ∗ atPos ER (sendCell c 1) 0 ∅ 0
        ∗ atPos ER (sendCell c 2) 0 ∅ 0
        ∗ atPos ER (sendCell c 3) 0 ∅ 0
        ∗ atPos ER (sendCell c 4) 0 ∅ 0
        ∗ atPos ER (sendCell c 5) 0 ∅ 0
        ∗ atPos ER (sendCell c 6) 0 ∅ 0
        ∗ atPos ER (recvCell c 0) 0 ∅ 0
        ∗ atPos ER (recvCell c 1) 0 ∅ 0
        ∗ atPos ER (recvCell c 2) 0 ∅ 0
        ∗ atPos ER (recvCell c 3) 0 ∅ 0
        ∗ atPos ER (recvCell c 4) 0 ∅ 0
        ∗ atPos ER (recvCell c 5) 0 ∅ 0
        ∗ atPos ER (recvCell c 6) 0 ∅ 0
        ∗ dutyTok ER (barCell (nb c 0)) 0 0
        ∗ dutyTok ER (barCell (nb c 1)) 0 1
        ∗ dutyTok ER (barCell (nb c 2)) 0 2
        ∗ dutyTok ER (barCell (nb c 3)) 0 3
        ∗ dutyTok ER (barCell (nb c 4)) 0 4
        ∗ dutyTok ER (barCell (nb c 5)) 0 5
        ∗ dutyTok ER (barCell (nb c 6)) 0 6
        ∗ dutyTok ER (recvCell (nb c 0) 6) 0 0
        ∗ dutyTok ER (recvCell (nb c 1) 5) 0 0
        ∗ dutyTok ER (recvCell (nb c 2) 4) 0 0
        ∗ dutyTok ER (recvCell (nb c 3) 3) 0 0
        ∗ dutyTok ER (recvCell (nb c 4) 2) 0 0
        ∗ dutyTok ER (recvCell (nb c 5) 1) 0 0
        ∗ dutyTok ER (recvCell (nb c 6) 0) 0 0
        ∗ dutyTok ER (sendCell c 0) 0 0
        ∗ dutyTok ER (sendCell c 1) 0 0
        ∗ dutyTok ER (sendCell c 2) 0 0
        ∗ dutyTok ER (sendCell c 3) 0 0
        ∗ dutyTok ER (sendCell c 4) 0 0
        ∗ dutyTok ER (sendCell c 5) 0 0
        ∗ dutyTok ER (sendCell c 6) 0 0
        ∗ cred (tallyAt (barCell c) () 7)
        ∗ cred (tallyAt (recvCell c 0) () N)
        ∗ cred (tallyAt (recvCell c 1) () N)
        ∗ cred (tallyAt (recvCell c 2) () N)
        ∗ cred (tallyAt (recvCell c 3) () N)
        ∗ cred (tallyAt (recvCell c 4) () N)
        ∗ cred (tallyAt (recvCell c 5) () N)
        ∗ cred (tallyAt (recvCell c 6) () N)
        ∗ levAts L lv
        ∗ owes (c : Thread nD τ) (0 + tallyAt (recvCell (nb c 6) 0) () N + tallyAt (recvCell (nb c 5) 1) () N + tallyAt (recvCell (nb c 4) 2) () N + tallyAt (recvCell (nb c 3) 3) () N + tallyAt (recvCell (nb c 2) 4) () N + tallyAt (recvCell (nb c 1) 5) () N + tallyAt (recvCell (nb c 0) 6) () N + tallyAt (barCell (nb c 6)) () 1 + tallyAt (barCell (nb c 5)) () 1 + tallyAt (barCell (nb c 4)) () 1 + tallyAt (barCell (nb c 3)) () 1 + tallyAt (barCell (nb c 2)) () 1 + tallyAt (barCell (nb c 1)) () 1 + tallyAt (barCell (nb c 0)) () 1) W
        ∗ ((sSlot 0 : Memref sig .tc .vmem S96x768 .bf16).view.loc (c : Thread nD τ) ↦[(sSlot 0 : Memref sig .tc .vmem S96x768 .bf16).view.set]{fullShare} f0)
        ∗ ((sSlot 1 : Memref sig .tc .vmem S96x768 .bf16).view.loc (c : Thread nD τ) ↦[(sSlot 1 : Memref sig .tc .vmem S96x768 .bf16).view.set]{fullShare} f0)
        ∗ ((sSlot 2 : Memref sig .tc .vmem S96x768 .bf16).view.loc (c : Thread nD τ) ↦[(sSlot 2 : Memref sig .tc .vmem S96x768 .bf16).view.set]{fullShare} f0)
        ∗ ((sSlot 3 : Memref sig .tc .vmem S96x768 .bf16).view.loc (c : Thread nD τ) ↦[(sSlot 3 : Memref sig .tc .vmem S96x768 .bf16).view.set]{fullShare} f0)
        ∗ ((sSlot 4 : Memref sig .tc .vmem S96x768 .bf16).view.loc (c : Thread nD τ) ↦[(sSlot 4 : Memref sig .tc .vmem S96x768 .bf16).view.set]{fullShare} f0)
        ∗ ((sSlot 5 : Memref sig .tc .vmem S96x768 .bf16).view.loc (c : Thread nD τ) ↦[(sSlot 5 : Memref sig .tc .vmem S96x768 .bf16).view.set]{fullShare} f0)
        ∗ ((sSlot 6 : Memref sig .tc .vmem S96x768 .bf16).view.loc (c : Thread nD τ) ↦[(sSlot 6 : Memref sig .tc .vmem S96x768 .bf16).view.set]{fullShare} f0)
        ∗ ((rSlot 0 : Memref sig .tc .vmem S96x768 .bf16).view.loc (c : Thread nD τ) ↦[(rSlot 0 : Memref sig .tc .vmem S96x768 .bf16).view.set]{fullShare} g0)
        ∗ ((rSlot 1 : Memref sig .tc .vmem S96x768 .bf16).view.loc (c : Thread nD τ) ↦[(rSlot 1 : Memref sig .tc .vmem S96x768 .bf16).view.set]{fullShare} g0)
        ∗ ((rSlot 2 : Memref sig .tc .vmem S96x768 .bf16).view.loc (c : Thread nD τ) ↦[(rSlot 2 : Memref sig .tc .vmem S96x768 .bf16).view.set]{fullShare} g0)
        ∗ ((rSlot 3 : Memref sig .tc .vmem S96x768 .bf16).view.loc (c : Thread nD τ) ↦[(rSlot 3 : Memref sig .tc .vmem S96x768 .bf16).view.set]{fullShare} g0)
        ∗ ((rSlot 4 : Memref sig .tc .vmem S96x768 .bf16).view.loc (c : Thread nD τ) ↦[(rSlot 4 : Memref sig .tc .vmem S96x768 .bf16).view.set]{fullShare} g0)
        ∗ ((rSlot 5 : Memref sig .tc .vmem S96x768 .bf16).view.loc (c : Thread nD τ) ↦[(rSlot 5 : Memref sig .tc .vmem S96x768 .bf16).view.set]{fullShare} g0)
        ∗ ((rSlot 6 : Memref sig .tc .vmem S96x768 .bf16).view.loc (c : Thread nD τ) ↦[(rSlot 6 : Memref sig .tc .vmem S96x768 .bf16).view.set]{fullShare} g0)
        ∗ ((Memref.whole cc0_stg0_0 : Memref sig .tc .vmem S768x384 .f32).view.loc (c : Thread nD τ) ↦[(Memref.whole cc0_stg0_0 : Memref sig .tc .vmem S768x384 .f32).view.set]{fullShare} Ablk m c)
        ∗ ((Memref.whole cc0_stg1_0 : Memref sig .tc .vmem S384x768 .f32).view.loc (c : Thread nD τ) ↦[(Memref.whole cc0_stg1_0 : Memref sig .tc .vmem S384x768 .f32).view.set]{fullShare} Bblk m c)
        ∗ ((Memref.whole cc0_stg2_0 : Memref sig .tc .vmem S96x768 .f32).view.loc (c : Thread nD τ) ↦[(Memref.whole cc0_stg2_0 : Memref sig .tc .vmem S96x768 .f32).view.set]{fullShare} o0))

/-- What it leaves: the two buffers whole again and its fourteen own cells closed, nothing owed, the two staged operand
    blocks as they were and the staged result block holding the result. -/
def bodyPost (c : Dev nD) : sProp 𝕄 :=
  iprop(Φ₁ c ∗ (∃ W' : Waits sig Unit, owes (c : Thread nD τ) 0 W')
    ∗ stg c cc0_stg0_0 (Ablk m c) ∗ stg c cc0_stg1_0 (Bblk m c) ∗ stg c cc0_stg2_0 (oVal m c))

end Cert.KernelIdeal.Hand

end
-- ==== Proof.Steps.lean ====
/-
  What the send slot holds after the kernel's store, in the words the body's run leaves it in, is the slot at its
  canonical contents.
-/
import proofs.«900558_g7700000000000559_dist_matmul_mk_i_outk_m768_n768_k384_v7x_i8_bf16_1_alg».proof.Proof.BodyLemmas

noncomputable section

namespace Cert.KernelIdeal.Hand

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem hz2 : (![0, 0] : Fin 2 → Nat) = fun _ => 0 := funext fun a => by fin_cases a <;> rfl

/-- The whole-block load of the staged right operand reads the block. -/
theorem read_B (c : Dev nD) :
    (bM : Memref sig .tc .vmem S384x768 .f32).view.readAt (Elt F)
      (Rect.unit (s := S384x768) ![0, 0] S384x768.size Gen.inb_S384x768_S384x768_0_0).toLoadRect (Bblk m c) = Bblk m c :=
  Memref.readAt_unit_zero (Elt F) cc0_stg1_0 hz2 _ _

/-- After the store of the partial product for step `d`, computed from the two loads, slot `d` is held at its
    canonical contents. -/
theorem stored_ok (c : Dev nD) (d : Fin 7) (f : Buf (Elt F) ((sM : Memref sig .tc .vmem S7x96x768 .bf16).view.loc (c : Thread nD τ)))
    (X : Buf (Elt F) ((sM : Memref sig .tc .vmem S7x96x768 .bf16).view.loc (c : Thread nD τ)))
    (hX : X = ((sM : Memref sig .tc .vmem S7x96x768 .bf16).access (slotRect d)).write (Elt F) f
          (k0_pay3 (k0_pay1 ((bM : Memref sig .tc .vmem S384x768 .f32).view.readAt (Elt F)
              (Rect.unit (s := S384x768) ![0, 0] S384x768.size Gen.inb_S384x768_S384x768_0_0).toLoadRect (Bblk m c)))
            (rowsFor (Ablk m) c d)) Finset.univ) :
    ((sSlot d : Memref sig .tc .vmem S96x768 .bf16).view.loc (c : Thread nD τ) ↦[(sSlot d : Memref sig .tc .vmem S96x768 .bf16).view.set]{fullShare} X : sProp 𝕄)
      ⊢ sPts c d (sentBuf m c d) := by
  subst hX
  rw [read_B]
  exact Entails.of_eq (stored_eq m c d f)

/-- A whole staged block held through its whole-buffer view is the staged block held. -/
theorem stg_of (c : Dev nD) (b : Ref sig .tc) (X : b.ty.Contents (Elt F)) :
    ((Memref.whole b).view.loc (c : Thread nD τ) ↦[(Memref.whole b).view.set]{fullShare} X : sProp 𝕄)
      ⊢ iprop(∃ f : Buf (Elt F) (((c : Dev nD) : Thread nD τ).loc b), ⌜f = X⌝ ∗ (((c : Thread nD τ).loc b) ↦{fullShare} f)) := by
  rw [View.set_whole]
  iintro H
  iexists X
  isplitr; · (ipureintro; rfl)
  iexact H

/-- The result block the kernel stores, computed from its loads, is the device's result block: the loads of the
    landing slots read the partial products that landed there. -/
theorem out_ok (c : Dev nD) (o0 : Buf (Elt F) ((c : Thread nD τ).loc cc0_stg2_0)) :
    ((oM : Memref sig .tc .vmem S96x768 .f32).access (Rect.unit (s := S96x768) ![0, 0] S96x768.size Gen.inb_S96x768_S96x768_0_0)).write (Elt F) o0
      (k0_pay12
        (k0_pay11
          (k0_pay10
            (k0_pay9 (k0_pay1 ((bM : Memref sig .tc .vmem S384x768 .f32).view.readAt (Elt F)
                (Rect.unit (s := S384x768) ![0, 0] S384x768.size Gen.inb_S384x768_S384x768_0_0).toLoadRect (Bblk m c)))
              (rowsOwn (Ablk m) c) ((rM : Memref sig .tc .vmem S7x96x768 .bf16).view.readAt (Elt F) (slotRect 6).toLoadRect (landedBuf m c 6)))
            ((rM : Memref sig .tc .vmem S7x96x768 .bf16).view.readAt (Elt F) (slotRect 5).toLoadRect (landedBuf m c 5)) ((rM : Memref sig .tc .vmem S7x96x768 .bf16).view.readAt (Elt F) (slotRect 4).toLoadRect (landedBuf m c 4)) ((rM : Memref sig .tc .vmem S7x96x768 .bf16).view.readAt (Elt F) (slotRect 3).toLoadRect (landedBuf m c 3)))
          ((rM : Memref sig .tc .vmem S7x96x768 .bf16).view.readAt (Elt F) (slotRect 2).toLoadRect (landedBuf m c 2)) ((rM : Memref sig .tc .vmem S7x96x768 .bf16).view.readAt (Elt F) (slotRect 1).toLoadRect (landedBuf m c 1)))
        ((rM : Memref sig .tc .vmem S7x96x768 .bf16).view.readAt (Elt F) (slotRect 0).toLoadRect (landedBuf m c 0))) Finset.univ
      = oVal m c := by
  refine (Memref.write_access_unit_zero_univ (Elt F) cc0_stg2_0 hz2 _ o0 _).trans ?_
  rw [read_B, load_landed, load_landed, load_landed, load_landed, load_landed, load_landed, load_landed]
  rfl

end Cert.KernelIdeal.Hand

end
-- ==== Proof.Body.lean ====
/-
  One device's body, run from its pieces: the seven signals, the barrier wait, seven times (compute a partial product,
  store it in its send slot, copy the slot to the peer), the own partial product, seven times (wait for a landing, add
  it), the store of the result, the seven send waits.
-/
import proofs.«900558_g7700000000000559_dist_matmul_mk_i_outk_m768_n768_k384_v7x_i8_bf16_1_alg».proof.Proof.BodyStmt
import proofs.«900558_g7700000000000559_dist_matmul_mk_i_outk_m768_n768_k384_v7x_i8_bf16_1_alg».proof.Proof.Steps

noncomputable section

namespace Cert.KernelIdeal.Hand

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem payload_bar_at' (c : Dev nD) (d : Fin 7) : (ringRd (F := F) m).payload (barCell (nb c d)) 0 d
    = iprop((∃ f, ((rSlot d : Memref sig .tc .vmem S96x768 .bf16).view.loc (c : Thread nD τ) ↦[(rSlot d : Memref sig .tc .vmem S96x768 .bf16).view.set]{fullShare} f)) ∗ reached ER (recvCell c d) 0) := payload_bar_at m c d
theorem payload_send' (c : Dev nD) (d : Fin 7) (e : Fin 7) : (ringRd (F := F) m).payload (sendCell c d) 0 e
    = ((sSlot d : Memref sig .tc .vmem S96x768 .bf16).view.loc (c : Thread nD τ) ↦[(sSlot d : Memref sig .tc .vmem S96x768 .bf16).view.set]{fullShare} sentBuf m c d) := payload_send m c d e
theorem payload_recv' (c : Dev nD) (d : Fin 7) (e : Fin 7) : (ringRd (F := F) m).payload (recvCell c d) 0 e
    = ((rSlot d : Memref sig .tc .vmem S96x768 .bf16).view.loc (c : Thread nD τ) ↦[(rSlot d : Memref sig .tc .vmem S96x768 .bf16).view.set]{fullShare} landedBuf m c d) := payload_recv m c d e

theorem bar_payloads' (c : Dev nD) : bigSep Finset.univ (fun e => (ringRd (F := F) m).payload (barCell c) 0 e)
    = iprop(((∃ f, ((rSlot 0 : Memref sig .tc .vmem S96x768 .bf16).view.loc ((nb c 6 : Dev nD) : Thread nD τ) ↦[(rSlot 0 : Memref sig .tc .vmem S96x768 .bf16).view.set]{fullShare} f)) ∗ reached ER (recvCell (nb c 6) 0) 0)
      ∗ ((∃ f, ((rSlot 1 : Memref sig .tc .vmem S96x768 .bf16).view.loc ((nb c 5 : Dev nD) : Thread nD τ) ↦[(rSlot 1 : Memref sig .tc .vmem S96x768 .bf16).view.set]{fullShare} f)) ∗ reached ER (recvCell (nb c 5) 1) 0)
      ∗ ((∃ f, ((rSlot 2 : Memref sig .tc .vmem S96x768 .bf16).view.loc ((nb c 4 : Dev nD) : Thread nD τ) ↦[(rSlot 2 : Memref sig .tc .vmem S96x768 .bf16).view.set]{fullShare} f)) ∗ reached ER (recvCell (nb c 4) 2) 0)
      ∗ ((∃ f, ((rSlot 3 : Memref sig .tc .vmem S96x768 .bf16).view.loc ((nb c 3 : Dev nD) : Thread nD τ) ↦[(rSlot 3 : Memref sig .tc .vmem S96x768 .bf16).view.set]{fullShare} f)) ∗ reached ER (recvCell (nb c 3) 3) 0)
      ∗ ((∃ f, ((rSlot 4 : Memref sig .tc .vmem S96x768 .bf16).view.loc ((nb c 2 : Dev nD) : Thread nD τ) ↦[(rSlot 4 : Memref sig .tc .vmem S96x768 .bf16).view.set]{fullShare} f)) ∗ reached ER (recvCell (nb c 2) 4) 0)
      ∗ ((∃ f, ((rSlot 5 : Memref sig .tc .vmem S96x768 .bf16).view.loc ((nb c 1 : Dev nD) : Thread nD τ) ↦[(rSlot 5 : Memref sig .tc .vmem S96x768 .bf16).view.set]{fullShare} f)) ∗ reached ER (recvCell (nb c 1) 5) 0)
      ∗ ((∃ f, ((rSlot 6 : Memref sig .tc .vmem S96x768 .bf16).view.loc ((nb c 0 : Dev nD) : Thread nD τ) ↦[(rSlot 6 : Memref sig .tc .vmem S96x768 .bf16).view.set]{fullShare} f)) ∗ reached ER (recvCell (nb c 0) 6) 0)) := by
  rw [bigSep_fin7]; rfl

attribute [local sl_rounds] duties_bar duties_send duties_recv amount_bar amount_send amount_recv expect_bar expect_send expect_recv
  payload_bar_at' payload_send' payload_recv'
theorem sendS0 : ((cc0_scratch2.slice (Rect.unit (s := S7) ![0] S1.size Gen.inb_S7_S1_0)).squeeze S_ Gen.squeezes_S1_S_).sem = sendS 0 := rfl
theorem recvS0 : ((cc0_scratch3.slice (Rect.unit (s := S7) ![0] S1.size Gen.inb_S7_S1_0)).squeeze S_ Gen.squeezes_S1_S_).sem = recvS 0 := rfl
theorem sendS1 : ((cc0_scratch2.slice (Rect.unit (s := S7) ![1] S1.size Gen.inb_S7_S1_1)).squeeze S_ Gen.squeezes_S1_S_).sem = sendS 1 := rfl
theorem recvS1 : ((cc0_scratch3.slice (Rect.unit (s := S7) ![1] S1.size Gen.inb_S7_S1_1)).squeeze S_ Gen.squeezes_S1_S_).sem = recvS 1 := rfl
theorem sendS2 : ((cc0_scratch2.slice (Rect.unit (s := S7) ![2] S1.size Gen.inb_S7_S1_2)).squeeze S_ Gen.squeezes_S1_S_).sem = sendS 2 := rfl
theorem recvS2 : ((cc0_scratch3.slice (Rect.unit (s := S7) ![2] S1.size Gen.inb_S7_S1_2)).squeeze S_ Gen.squeezes_S1_S_).sem = recvS 2 := rfl
theorem sendS3 : ((cc0_scratch2.slice (Rect.unit (s := S7) ![3] S1.size Gen.inb_S7_S1_3)).squeeze S_ Gen.squeezes_S1_S_).sem = sendS 3 := rfl
theorem recvS3 : ((cc0_scratch3.slice (Rect.unit (s := S7) ![3] S1.size Gen.inb_S7_S1_3)).squeeze S_ Gen.squeezes_S1_S_).sem = recvS 3 := rfl
theorem sendS4 : ((cc0_scratch2.slice (Rect.unit (s := S7) ![4] S1.size Gen.inb_S7_S1_4)).squeeze S_ Gen.squeezes_S1_S_).sem = sendS 4 := rfl
theorem recvS4 : ((cc0_scratch3.slice (Rect.unit (s := S7) ![4] S1.size Gen.inb_S7_S1_4)).squeeze S_ Gen.squeezes_S1_S_).sem = recvS 4 := rfl
theorem sendS5 : ((cc0_scratch2.slice (Rect.unit (s := S7) ![5] S1.size Gen.inb_S7_S1_5)).squeeze S_ Gen.squeezes_S1_S_).sem = sendS 5 := rfl
theorem recvS5 : ((cc0_scratch3.slice (Rect.unit (s := S7) ![5] S1.size Gen.inb_S7_S1_5)).squeeze S_ Gen.squeezes_S1_S_).sem = recvS 5 := rfl
theorem sendS6 : ((cc0_scratch2.slice (Rect.unit (s := S7) ![6] S1.size Gen.inb_S7_S1_6)).squeeze S_ Gen.squeezes_S1_S_).sem = sendS 6 := rfl
theorem recvS6 : ((cc0_scratch3.slice (Rect.unit (s := S7) ![6] S1.size Gen.inb_S7_S1_6)).squeeze S_ Gen.squeezes_S1_S_).sem = recvS 6 := rfl
attribute [local sl_canon] sendS0 recvS0 sendS1 recvS1 sendS2 recvS2 sendS3 recvS3 sendS4 recvS4 sendS5 recvS5 sendS6 recvS6
attribute [local sl_canon] dev1_eq dev2_eq dev3_eq dev4_eq dev5_eq dev6_eq dev7_eq dev8_eq dev9_eq dev10_eq dev11_eq dev12_eq dev13_eq dev14_eq

set_option maxHeartbeats 4000000 in
set_option maxRecDepth 65536 in
theorem sound_body (K : Dev nD × Fin 15 → ℕ) (c : Dev nD) (Kt : PUnit → sProp 𝕄) (W : Waits sig Unit)
    (f0 : Buf (Elt F) ((c : Thread nD τ).loc cc0_scratch0)) (g0 : Buf (Elt F) ((c : Thread nD τ).loc cc0_scratch1))
    (o0 : Buf (Elt F) ((c : Thread nD τ).loc cc0_stg2_0)) :
    iprop(bodyPre m K c W f0 g0 o0 ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _) cc0_scratch2 cc0_scratch3) Kt := by
  unfold bodyPre
  iintro ⟨⟨#HIbar, #HIs0, #HIs1, #HIs2, #HIs3, #HIs4, #HIs5, #HIs6, #HIv0, #HIv1, #HIv2, #HIv3, #HIv4, #HIv5, #HIv6, #HIb0, #HIb1, #HIb2, #HIb3, #HIb4, #HIb5, #HIb6, #HIn0, #HIn1, #HIn2, #HIn3, #HIn4, #HIn5, #HIn6, #Hrb0, #Hrb1, #Hrb2, #Hrb3, #Hrb4, #Hrb5, #Hrb6, #Hrn0, #Hrn1, #Hrn2, #Hrn3, #Hrn4, #Hrn5, #Hrn6, #Hrs0, #Hrs1, #Hrs2, #Hrs3, #Hrs4, #Hrs5, #Hrs6, #Hrv0, #Hrv1, #Hrv2, #Hrv3, #Hrv4, #Hrv5, #Hrv6, HatB, Has0, Has1, Has2, Has3, Has4, Has5, Has6, Hav0, Hav1, Hav2, Hav3, Hav4, Hav5, Hav6, Htb0, Htb1, Htb2, Htb3, Htb4, Htb5, Htb6, Htn0, Htn1, Htn2, Htn3, Htn4, Htn5, Htn6, Hts0, Hts1, Hts2, Hts3, Hts4, Hts5, Hts6, HcB, Hcv0, Hcv1, Hcv2, Hcv3, Hcv4, Hcv5, Hcv6, #Hlev, HO, Hs0, Hs1, Hs2, Hs3, Hs4, Hs5, Hs6, Hr0, Hr1, Hr2, Hr3, Hr4, Hr5, Hr6, Hx, Hb, Hout⟩, Hk⟩
  have hmw : (levAts L lv : sProp 𝕄) ⊢ MayWait (c : Thread nD τ) (.reg barS) ()
      (0 + tallyAt (recvCell (nb c 6) 0) () N + tallyAt (recvCell (nb c 5) 1) () N + tallyAt (recvCell (nb c 4) 2) () N + tallyAt (recvCell (nb c 3) 3) () N + tallyAt (recvCell (nb c 2) 4) () N + tallyAt (recvCell (nb c 1) 5) () N + tallyAt (recvCell (nb c 0) 6) () N) := mayWait_bar c
  sl_unfold [cc0_body]
  sl_exec_parts (disch := simp only [dev1_eq, dev2_eq, dev3_eq, dev4_eq, dev5_eq, dev6_eq, dev7_eq, dev8_eq, dev9_eq, dev10_eq, dev11_eq, dev12_eq, dev13_eq, dev14_eq, sendS0, recvS0, sendS1, recvS1, sendS2, recvS2, sendS3, recvS3, sendS4, recvS4, sendS5, recvS5, sendS6, recvS6])
  ihave Hp := (Entails.of_eq (bar_payloads' m c)) $$ HatB_pay1
  icases Hp with ⟨⟨⟨%gn0, Hn0⟩, #Hq0⟩, ⟨⟨%gn1, Hn1⟩, #Hq1⟩, ⟨⟨%gn2, Hn2⟩, #Hq2⟩, ⟨⟨%gn3, Hn3⟩, #Hq3⟩, ⟨⟨%gn4, Hn4⟩, #Hq4⟩, ⟨⟨%gn5, Hn5⟩, #Hq5⟩, ⟨⟨%gn6, Hn6⟩, #Hq6⟩⟩
  -- the copy of send slot 0 to peer nb c 0, slot 6
  ihave Hs0' := (stored_ok m c 0 f0 (sound_body.sl.Hs0_w1 m c f0) rfl) $$ Hs0
  unfold sPts
  iapply (Rounds.wp_send_pointsTo 𝒱₀ ER (ringRd m) (c : Thread nD τ) none (c' := ((nb c 0 : Dev nD) : Thread nD τ)) (src := sSlot 0) (dst := rSlot 6) (q := fullShare)
      (fs := sentBuf m c 0) (fd := gn6) (κ₁ := K (c, kS 0)) (κ₂ := K (nb c 0, kR 6)) (r₁ := 0) (r₂ := 0) (d₁ := 0) (d₂ := 0)
      (by rw [duties_send]; exact Finset.mem_singleton_self _) (by rw [duties_recv]; exact Finset.mem_singleton_self _)
      () () N rfl (amount_send m c 0 0) (amount_recv m (nb c 0) 6 0) _ rfl
      (by rw [payload_send]; exact BI.Entails.refl _) (by rw [payload_recv]; exact landing_ok m c 0 gn6)) $$ [Hs0' Hn6 HO Hts0 Htn0]
  · isplitr; · iexact HIs0
    isplitr; · iexact HIn0
    isplitl [Hs0']; · iexact Hs0'
    isplitl [Hn6]; · iexact Hn6
    isplitl [HO]; · iexact HO
    isplitl [Hts0]; · iexact Hts0
    isplitr; · iexact Hrs0
    isplitl [Htn0]; · iexact Htn0
    iexact Hrn0
  iintro ⟨Hcs0, HO⟩
  sl_exec_parts (disch := simp only [dev1_eq, dev2_eq, dev3_eq, dev4_eq, dev5_eq, dev6_eq, dev7_eq, dev8_eq, dev9_eq, dev10_eq, dev11_eq, dev12_eq, dev13_eq, dev14_eq, sendS0, recvS0, sendS1, recvS1, sendS2, recvS2, sendS3, recvS3, sendS4, recvS4, sendS5, recvS5, sendS6, recvS6])
  -- the copy of send slot 1 to peer nb c 1, slot 5
  ihave Hs1' := (stored_ok m c 1 f0 (sound_body.sl.Hs1_w1 m c f0) rfl) $$ Hs1
  unfold sPts
  iapply (Rounds.wp_send_pointsTo 𝒱₀ ER (ringRd m) (c : Thread nD τ) none (c' := ((nb c 1 : Dev nD) : Thread nD τ)) (src := sSlot 1) (dst := rSlot 5) (q := fullShare)
      (fs := sentBuf m c 1) (fd := gn5) (κ₁ := K (c, kS 1)) (κ₂ := K (nb c 1, kR 5)) (r₁ := 0) (r₂ := 0) (d₁ := 0) (d₂ := 0)
      (by rw [duties_send]; exact Finset.mem_singleton_self _) (by rw [duties_recv]; exact Finset.mem_singleton_self _)
      () () N rfl (amount_send m c 1 0) (amount_recv m (nb c 1) 5 0) _ rfl
      (by rw [payload_send]; exact BI.Entails.refl _) (by rw [payload_recv]; exact landing_ok m c 1 gn5)) $$ [Hs1' Hn5 HO Hts1 Htn1]
  · isplitr; · iexact HIs1
    isplitr; · iexact HIn1
    isplitl [Hs1']; · iexact Hs1'
    isplitl [Hn5]; · iexact Hn5
    isplitl [HO]; · iexact HO
    isplitl [Hts1]; · iexact Hts1
    isplitr; · iexact Hrs1
    isplitl [Htn1]; · iexact Htn1
    iexact Hrn1
  iintro ⟨Hcs1, HO⟩
  sl_exec_parts (disch := simp only [dev1_eq, dev2_eq, dev3_eq, dev4_eq, dev5_eq, dev6_eq, dev7_eq, dev8_eq, dev9_eq, dev10_eq, dev11_eq, dev12_eq, dev13_eq, dev14_eq, sendS0, recvS0, sendS1, recvS1, sendS2, recvS2, sendS3, recvS3, sendS4, recvS4, sendS5, recvS5, sendS6, recvS6])
  -- the copy of send slot 2 to peer nb c 2, slot 4
  ihave Hs2' := (stored_ok m c 2 f0 (sound_body.sl.Hs2_w1 m c f0) rfl) $$ Hs2
  unfold sPts
  iapply (Rounds.wp_send_pointsTo 𝒱₀ ER (ringRd m) (c : Thread nD τ) none (c' := ((nb c 2 : Dev nD) : Thread nD τ)) (src := sSlot 2) (dst := rSlot 4) (q := fullShare)
      (fs := sentBuf m c 2) (fd := gn4) (κ₁ := K (c, kS 2)) (κ₂ := K (nb c 2, kR 4)) (r₁ := 0) (r₂ := 0) (d₁ := 0) (d₂ := 0)
      (by rw [duties_send]; exact Finset.mem_singleton_self _) (by rw [duties_recv]; exact Finset.mem_singleton_self _)
      () () N rfl (amount_send m c 2 0) (amount_recv m (nb c 2) 4 0) _ rfl
      (by rw [payload_send]; exact BI.Entails.refl _) (by rw [payload_recv]; exact landing_ok m c 2 gn4)) $$ [Hs2' Hn4 HO Hts2 Htn2]
  · isplitr; · iexact HIs2
    isplitr; · iexact HIn2
    isplitl [Hs2']; · iexact Hs2'
    isplitl [Hn4]; · iexact Hn4
    isplitl [HO]; · iexact HO
    isplitl [Hts2]; · iexact Hts2
    isplitr; · iexact Hrs2
    isplitl [Htn2]; · iexact Htn2
    iexact Hrn2
  iintro ⟨Hcs2, HO⟩
  sl_exec_parts (disch := simp only [dev1_eq, dev2_eq, dev3_eq, dev4_eq, dev5_eq, dev6_eq, dev7_eq, dev8_eq, dev9_eq, dev10_eq, dev11_eq, dev12_eq, dev13_eq, dev14_eq, sendS0, recvS0, sendS1, recvS1, sendS2, recvS2, sendS3, recvS3, sendS4, recvS4, sendS5, recvS5, sendS6, recvS6])
  -- the copy of send slot 3 to peer nb c 3, slot 3
  ihave Hs3' := (stored_ok m c 3 f0 (sound_body.sl.Hs3_w1 m c f0) rfl) $$ Hs3
  unfold sPts
  iapply (Rounds.wp_send_pointsTo 𝒱₀ ER (ringRd m) (c : Thread nD τ) none (c' := ((nb c 3 : Dev nD) : Thread nD τ)) (src := sSlot 3) (dst := rSlot 3) (q := fullShare)
      (fs := sentBuf m c 3) (fd := gn3) (κ₁ := K (c, kS 3)) (κ₂ := K (nb c 3, kR 3)) (r₁ := 0) (r₂ := 0) (d₁ := 0) (d₂ := 0)
      (by rw [duties_send]; exact Finset.mem_singleton_self _) (by rw [duties_recv]; exact Finset.mem_singleton_self _)
      () () N rfl (amount_send m c 3 0) (amount_recv m (nb c 3) 3 0) _ rfl
      (by rw [payload_send]; exact BI.Entails.refl _) (by rw [payload_recv]; exact landing_ok m c 3 gn3)) $$ [Hs3' Hn3 HO Hts3 Htn3]
  · isplitr; · iexact HIs3
    isplitr; · iexact HIn3
    isplitl [Hs3']; · iexact Hs3'
    isplitl [Hn3]; · iexact Hn3
    isplitl [HO]; · iexact HO
    isplitl [Hts3]; · iexact Hts3
    isplitr; · iexact Hrs3
    isplitl [Htn3]; · iexact Htn3
    iexact Hrn3
  iintro ⟨Hcs3, HO⟩
  sl_exec_parts (disch := simp only [dev1_eq, dev2_eq, dev3_eq, dev4_eq, dev5_eq, dev6_eq, dev7_eq, dev8_eq, dev9_eq, dev10_eq, dev11_eq, dev12_eq, dev13_eq, dev14_eq, sendS0, recvS0, sendS1, recvS1, sendS2, recvS2, sendS3, recvS3, sendS4, recvS4, sendS5, recvS5, sendS6, recvS6])
  -- the copy of send slot 4 to peer nb c 4, slot 2
  ihave Hs4' := (stored_ok m c 4 f0 (sound_body.sl.Hs4_w1 m c f0) rfl) $$ Hs4
  unfold sPts
  iapply (Rounds.wp_send_pointsTo 𝒱₀ ER (ringRd m) (c : Thread nD τ) none (c' := ((nb c 4 : Dev nD) : Thread nD τ)) (src := sSlot 4) (dst := rSlot 2) (q := fullShare)
      (fs := sentBuf m c 4) (fd := gn2) (κ₁ := K (c, kS 4)) (κ₂ := K (nb c 4, kR 2)) (r₁ := 0) (r₂ := 0) (d₁ := 0) (d₂ := 0)
      (by rw [duties_send]; exact Finset.mem_singleton_self _) (by rw [duties_recv]; exact Finset.mem_singleton_self _)
      () () N rfl (amount_send m c 4 0) (amount_recv m (nb c 4) 2 0) _ rfl
      (by rw [payload_send]; exact BI.Entails.refl _) (by rw [payload_recv]; exact landing_ok m c 4 gn2)) $$ [Hs4' Hn2 HO Hts4 Htn4]
  · isplitr; · iexact HIs4
    isplitr; · iexact HIn4
    isplitl [Hs4']; · iexact Hs4'
    isplitl [Hn2]; · iexact Hn2
    isplitl [HO]; · iexact HO
    isplitl [Hts4]; · iexact Hts4
    isplitr; · iexact Hrs4
    isplitl [Htn4]; · iexact Htn4
    iexact Hrn4
  iintro ⟨Hcs4, HO⟩
  sl_exec_parts (disch := simp only [dev1_eq, dev2_eq, dev3_eq, dev4_eq, dev5_eq, dev6_eq, dev7_eq, dev8_eq, dev9_eq, dev10_eq, dev11_eq, dev12_eq, dev13_eq, dev14_eq, sendS0, recvS0, sendS1, recvS1, sendS2, recvS2, sendS3, recvS3, sendS4, recvS4, sendS5, recvS5, sendS6, recvS6])
  -- the copy of send slot 5 to peer nb c 5, slot 1
  ihave Hs5' := (stored_ok m c 5 f0 (sound_body.sl.Hs5_w1 m c f0) rfl) $$ Hs5
  unfold sPts
  iapply (Rounds.wp_send_pointsTo 𝒱₀ ER (ringRd m) (c : Thread nD τ) none (c' := ((nb c 5 : Dev nD) : Thread nD τ)) (src := sSlot 5) (dst := rSlot 1) (q := fullShare)
      (fs := sentBuf m c 5) (fd := gn1) (κ₁ := K (c, kS 5)) (κ₂ := K (nb c 5, kR 1)) (r₁ := 0) (r₂ := 0) (d₁ := 0) (d₂ := 0)
      (by rw [duties_send]; exact Finset.mem_singleton_self _) (by rw [duties_recv]; exact Finset.mem_singleton_self _)
      () () N rfl (amount_send m c 5 0) (amount_recv m (nb c 5) 1 0) _ rfl
      (by rw [payload_send]; exact BI.Entails.refl _) (by rw [payload_recv]; exact landing_ok m c 5 gn1)) $$ [Hs5' Hn1 HO Hts5 Htn5]
  · isplitr; · iexact HIs5
    isplitr; · iexact HIn5
    isplitl [Hs5']; · iexact Hs5'
    isplitl [Hn1]; · iexact Hn1
    isplitl [HO]; · iexact HO
    isplitl [Hts5]; · iexact Hts5
    isplitr; · iexact Hrs5
    isplitl [Htn5]; · iexact Htn5
    iexact Hrn5
  iintro ⟨Hcs5, HO⟩
  sl_exec_parts (disch := simp only [dev1_eq, dev2_eq, dev3_eq, dev4_eq, dev5_eq, dev6_eq, dev7_eq, dev8_eq, dev9_eq, dev10_eq, dev11_eq, dev12_eq, dev13_eq, dev14_eq, sendS0, recvS0, sendS1, recvS1, sendS2, recvS2, sendS3, recvS3, sendS4, recvS4, sendS5, recvS5, sendS6, recvS6])
  -- the copy of send slot 6 to peer nb c 6, slot 0
  ihave Hs6' := (stored_ok m c 6 f0 (sound_body.sl.Hs6_w1 m c f0) rfl) $$ Hs6
  unfold sPts
  iapply (Rounds.wp_send_pointsTo 𝒱₀ ER (ringRd m) (c : Thread nD τ) none (c' := ((nb c 6 : Dev nD) : Thread nD τ)) (src := sSlot 6) (dst := rSlot 0) (q := fullShare)
      (fs := sentBuf m c 6) (fd := gn0) (κ₁ := K (c, kS 6)) (κ₂ := K (nb c 6, kR 0)) (r₁ := 0) (r₂ := 0) (d₁ := 0) (d₂ := 0)
      (by rw [duties_send]; exact Finset.mem_singleton_self _) (by rw [duties_recv]; exact Finset.mem_singleton_self _)
      () () N rfl (amount_send m c 6 0) (amount_recv m (nb c 6) 0 0) _ rfl
      (by rw [payload_send]; exact BI.Entails.refl _) (by rw [payload_recv]; exact landing_ok m c 6 gn0)) $$ [Hs6' Hn0 HO Hts6 Htn6]
  · isplitr; · iexact HIs6
    isplitr; · iexact HIn6
    isplitl [Hs6']; · iexact Hs6'
    isplitl [Hn0]; · iexact Hn0
    isplitl [HO]; · iexact HO
    isplitl [Hts6]; · iexact Hts6
    isplitr; · iexact Hrs6
    isplitl [Htn6]; · iexact Htn6
    iexact Hrn6
  iintro ⟨Hcs6, HO⟩
  sl_exec_parts (disch := simp only [dev1_eq, dev2_eq, dev3_eq, dev4_eq, dev5_eq, dev6_eq, dev7_eq, dev8_eq, dev9_eq, dev10_eq, dev11_eq, dev12_eq, dev13_eq, dev14_eq, sendS0, recvS0, sendS1, recvS1, sendS2, recvS2, sendS3, recvS3, sendS4, recvS4, sendS5, recvS5, sendS6, recvS6])
  -- the fourteen own cells close at zero and the fourteen slots rejoin into the two buffers
  imod (phi1_intro_one m K c) $$ [Has0 Has1 Has2 Has3 Has4 Has5 Has6 Hav0 Hav1 Hav2 Hav3 Hav4 Hav5 Hav6 Has0_pay1 Has1_pay1 Has2_pay1 Has3_pay1 Has4_pay1 Has5_pay1 Has6_pay1 Hav0_pay1 Hav1_pay1 Hav2_pay1 Hav3_pay1 Hav4_pay1 Hav5_pay1 Hav6_pay1] with HΦ
  · simp only [bigSep_fin7]
    unfold sPts rPts
    iframe
    isplitr
    · isplitr; · iexact HIs0
      isplitr; · iexact HIs1
      isplitr; · iexact HIs2
      isplitr; · iexact HIs3
      isplitr; · iexact HIs4
      isplitr; · iexact HIs5
      iexact HIs6
    · isplitr; · iexact HIv0
      isplitr; · iexact HIv1
      isplitr; · iexact HIv2
      isplitr; · iexact HIv3
      isplitr; · iexact HIv4
      isplitr; · iexact HIv5
      iexact HIv6
  have hout : (Memref.whole cc0_stg2_0 : Memref sig .tc .vmem S96x768 .f32).view.writes (Elt F) o0 (sound_body.sl.Hout_1 m c) = oVal m c :=
    out_ok m c o0
  rw [hout, wp_ret]
  imodintro
  iapply Hk
  unfold bodyPost
  isplitl [HΦ]; · iexact HΦ
  isplitl [HO]; · iexists _; iexact HO
  isplitl [Hx]; · iapply (stg_of c cc0_stg0_0 (Ablk m c)); iexact Hx
  isplitl [Hb]; · iapply (stg_of c cc0_stg1_0 (Bblk m c)); iexact Hb
  iapply (stg_of c cc0_stg2_0 (oVal m c)); iexact Hout

/-- info: 'Cert.KernelIdeal.Hand.sound_body' depends on axioms: [propext, Classical.choice, Quot.sound] -/
#guard_msgs in #print axioms sound_body

end Cert.KernelIdeal.Hand

end
-- ==== Proof.Wrap.lean ====
/-
  From the body, stated piece by piece, to the pipeline's body obligation: unpacking what the launch hands a device
  (its invariant before the point, what it owes, the three staged blocks) into the pieces, and packing what the body
  leaves into the invariant after the point.
-/
import proofs.«900558_g7700000000000559_dist_matmul_mk_i_outk_m768_n768_k384_v7x_i8_bf16_1_alg».proof.Proof.BodyStmt

noncomputable section

namespace Cert.KernelIdeal.Hand

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The seven steps' return slots, evaluated. -/
theorem rev_0 : rev 0 = 6 := rfl
theorem rev_1 : rev 1 = 5 := rfl
theorem rev_2 : rev 2 = 4 := rfl
theorem rev_3 : rev 3 = 3 := rfl
theorem rev_4 : rev 4 = 2 := rfl
theorem rev_5 : rev 5 = 1 := rfl
theorem rev_6 : rev 6 = 0 := rfl

omit [FloatOps F] in
/-- Owning a whole buffer through its memref is holding the buffer at the contents read. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What a device owes before the point, summand by summand. -/
theorem owed0_eq (c : Dev nD) : (dats (F := F) m ρ 0 c).owed t₀.castSucc = 0 + tallyAt (recvCell (nb c 6) 0) () N + tallyAt (recvCell (nb c 5) 1) () N + tallyAt (recvCell (nb c 4) 2) () N + tallyAt (recvCell (nb c 3) 3) () N + tallyAt (recvCell (nb c 2) 4) () N + tallyAt (recvCell (nb c 1) 5) () N + tallyAt (recvCell (nb c 0) 6) () N + tallyAt (barCell (nb c 6)) () 1 + tallyAt (barCell (nb c 5)) () 1 + tallyAt (barCell (nb c 4)) () 1 + tallyAt (barCell (nb c 3)) () 1 + tallyAt (barCell (nb c 2)) () 1 + tallyAt (barCell (nb c 1)) () 1 + tallyAt (barCell (nb c 0)) () 1 := rfl

set_option maxRecDepth 4000 in
/-- What the pipeline hands the body at the point: the invariant before it, what is owed, the three staged blocks. -/
def wrapPre (c : Dev nD) : sProp 𝕄 :=
  iprop(Φ₀ m c ∗ (dats m ρ 0 c).owesAt () t₀.castSucc
    ∗ (∃ d, owns (c : Thread nD τ) (Memref.whole cc0_stg0_0) fullShare ((dats m ρ 0 c).before (0 : Fin 3) t₀ d))
    ∗ (∃ d, owns (c : Thread nD τ) (Memref.whole cc0_stg1_0) fullShare ((dats m ρ 0 c).before (1 : Fin 3) t₀ d))
    ∗ (∃ d, owns (c : Thread nD τ) (Memref.whole cc0_stg2_0) fullShare ((dats m ρ 0 c).before (2 : Fin 3) t₀ d)))

/-- What it wants back: the invariant after the point, nothing owed, the three staged blocks at what the body leaves. -/
def wrapPost (c : Dev nD) : sProp 𝕄 :=
  iprop(Φ₁ c ∗ (dats m ρ 0 c).owesAt () t₀.succ
    ∗ owns (c : Thread nD τ) (Memref.whole cc0_stg0_0) fullShare (Ablk m c)
    ∗ owns (c : Thread nD τ) (Memref.whole cc0_stg1_0) fullShare (Bblk m c)
    ∗ owns (c : Thread nD τ) (Memref.whole cc0_stg2_0) fullShare (oVal m c))

/-- The pipeline's body obligation on device `c`, from the body stated piece by piece. -/
theorem body_obligation_of
    (hsound : ∀ (K : Dev nD × Fin 15 → ℕ) (c : Dev nD) (Kt : PUnit → sProp 𝕄) (W : Waits sig Unit)
      (f0 : Buf (Elt F) ((c : Thread nD τ).loc cc0_scratch0)) (g0 : Buf (Elt F) ((c : Thread nD τ).loc cc0_scratch1))
      (o0 : Buf (Elt F) ((c : Thread nD τ).loc cc0_stg2_0)),
      iprop(bodyPre m K c W f0 g0 o0 ∗ (bodyPost m c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_stg2_0) (Memref.isWhole_whole _)
              (Memref.whole cc0_scratch0) (Memref.isWhole_whole _) (Memref.whole cc0_scratch1) (Memref.isWhole_whole _) cc0_scratch2 cc0_scratch3) Kt)
    (c : Dev nD) : BodyObligation (dats (F := F) m ρ 0 c) (defs₀ (F := F)) 𝒱₀ () Set.univ :=
  fun t => by
  rw [fin_N t]
  rw [bigSep_W0, bigSep_W0]
  show wrapPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _) cc0_scratch2 cc0_scratch3) (fun _ => wrapPost m ρ c)
  unfold wrapPre Φ₀ start ghost invs reacheds positions payToks owns Dat.owesAt Pipeline.owesWithin
  rw [owed0_eq]
  simp only [bigSep_fin7, rev_0, rev_1, rev_2, rev_3, rev_4, rev_5, rev_6]
  iintro ⟨⟨⟨⟨%K, ⟨⟨IB, ⟨IS0, IS1, IS2, IS3, IS4, IS5, IS6⟩, ⟨IR0, IR1, IR2, IR3, IR4, IR5, IR6⟩, ⟨INB0, INB1, INB2, INB3, INB4, INB5, INB6⟩, ⟨INR0, INR1, INR2, INR3, INR4, INR5, INR6⟩⟩, ⟨⟨RNB0, RNB1, RNB2, RNB3, RNB4, RNB5, RNB6⟩, ⟨RNR0, RNR1, RNR2, RNR3, RNR4, RNR5, RNR6⟩, ⟨RS0, RS1, RS2, RS3, RS4, RS5, RS6⟩, ⟨RR0, RR1, RR2, RR3, RR4, RR5, RR6⟩⟩, ⟨AB, ⟨AS0, AS1, AS2, AS3, AS4, AS5, AS6⟩, ⟨AR0, AR1, AR2, AR3, AR4, AR5, AR6⟩⟩, ⟨⟨TNB0, TNB1, TNB2, TNB3, TNB4, TNB5, TNB6⟩, ⟨TNR0, TNR1, TNR2, TNR3, TNR4, TNR5, TNR6⟩, ⟨TS0, TS1, TS2, TS3, TS4, TS5, TS6⟩⟩⟩⟩, HcB, ⟨HcR0, HcR1, HcR2, HcR3, HcR4, HcR5, HcR6⟩, Hlev⟩, ⟨%f0, Hs0⟩, ⟨%g0, Hs1⟩⟩, ⟨%W, %hW, HO⟩, ⟨%d0, %a0, %ha0, Hx⟩, ⟨%d1, %b0, %hb0, Hy⟩, ⟨%d2, %o0, %ho0, Hz⟩⟩
  -- the two staged operand blocks are the argument buffers' blocks, fetched at the point
  have hx : a0 = Ablk m c := by
    refine (show a0 = (dats m ρ 0 c).before (0 : Fin 3) t₀ d0 from ha0).trans ?_
    unfold Dat.before; rw [if_pos (fetch0_0 t₀)]; rfl
  have hy : b0 = Bblk m c := by
    refine (show b0 = (dats m ρ 0 c).before (1 : Fin 3) t₀ d1 from hb0).trans ?_
    unfold Dat.before; rw [if_pos (fetch0_1 t₀)]; rfl
  subst hx hy
  -- each seven-slot buffer, held whole, is its seven slots
  ihave Hs := (Entails.of_eq (sM_split c f0)) $$ Hs0
  ihave Hr := (Entails.of_eq (rM_split c g0)) $$ Hs1
  unfold sPts rPts
  icases Hs with ⟨S0, S1, S2, S3, S4, S5, S6⟩
  icases Hr with ⟨R0, R1, R2, R3, R4, R5, R6⟩
  iapply (hsound K c (fun _ => wrapPost m ρ c) W f0 g0 o0)
  isplitr []
  · unfold bodyPre
    iframe
  · -- what the body leaves is what the pipeline wants back
    iintro H
    unfold bodyPost wrapPost Dat.owesAt Pipeline.owesWithin
    icases H with ⟨HΦ, ⟨%W', HO'⟩, H0, H1, H2⟩
    isplitl [HΦ]; · iexact HΦ
    isplitl [HO']
    · iexists W'
      isplitr; · ipureintro; exact fun _ _ => Or.inl trivial
      iexact HO'
    isplitl [H0]
    · iapply (Entails.of_eq (owns_whole_eq c cc0_stg0_0 (Ablk m c)).symm); iexact H0
    isplitl [H1]
    · iapply (Entails.of_eq (owns_whole_eq c cc0_stg1_0 (Bblk m c)).symm); iexact H1
    iapply (Entails.of_eq (owns_whole_eq c cc0_stg2_0 (oVal m c)).symm); iexact H2

/-- info: 'Cert.KernelIdeal.Hand.body_obligation_of' depends on axioms: [propext, Classical.choice, Quot.sound] -/
#guard_msgs in #print axioms body_obligation_of

end Cert.KernelIdeal.Hand

end
-- ==== Proof.Obligation.lean ====
/-
  The pipeline's body obligation on every device: the body, wrapped.
-/
import proofs.«900558_g7700000000000559_dist_matmul_mk_i_outk_m768_n768_k384_v7x_i8_bf16_1_alg».proof.Proof.Body
import proofs.«900558_g7700000000000559_dist_matmul_mk_i_outk_m768_n768_k384_v7x_i8_bf16_1_alg».proof.Proof.Wrap

noncomputable section

namespace Cert.KernelIdeal.Hand

open Cert.KernelIdeal Cert.KernelIdeal.Gen
open Idealize.ShloMosaic Idealize.ShloMosaic.TcCoe Idealize.SL.Sem
open Idealize.ShloMosaic.Pipeline (BodyObligation)

theorem body_obligation {F : FTy → Type} [FloatOps F] (m : (ℓ : Loc nD τ sig) → Buf (Elt F) ℓ) (ρ : Dev nD → PrngReg) (c : Dev nD) :
    BodyObligation (dats (F := F) m ρ 0 c) (defs₀ (F := F)) 𝒱₀ () Set.univ :=
  body_obligation_of m ρ (fun K c Kt W f0 g0 o0 => sound_body m K c Kt W f0 g0 o0) c

end Cert.KernelIdeal.Hand

end
-- ==== Proof.Launch.lean ====
/-
  The launch: from every device's body to the run of the whole mesh.  All devices' cells are allocated under one
  update (the barrier cell's invariant is shared by the eight devices that touch it), each device is dealt its
  positions and the tokens of the duties it pays, the credit other devices owe its cells, and the levels
  (staging and send cells 0 < barrier cells 1 < receive cells 2) that make every wait safe.
-/
import proofs.«900558_g7700000000000559_dist_matmul_mk_i_outk_m768_n768_k384_v7x_i8_bf16_1_alg».proof.Proof.Levels

noncomputable section

namespace Cert.KernelIdeal.Hand

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the fifteen cells and the twenty-one tokens of a device -/

/-- The kernel's fourteen own (scoped) semaphores: the seven send cells, then the seven receive cells. -/
abbrev osem : Fin 7 ⊕ Fin 7 → SemLoc sig
  | .inl d => .dma (sendS d)
  | .inr d => .dma (recvS d)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def protoCells : Finset (GSem nD τ sig) := Finset.univ.map ⟨kcell, kcell_injective⟩

/-- The fifteen cells are the barrier cell, the seven send cells and the seven receive cells. -/
def split15 : Unit ⊕ Fin 7 ⊕ Fin 7 ≃ Fin 15 where
  toFun
    | .inl _ => kB
    | .inr (.inl d) => kS d
    | .inr (.inr d) => kR d
  invFun k :=
    if h : k.val = 0 then .inl ()
    else if h8 : k.val < 8 then .inr (.inl ⟨k.val - 1, by omega⟩)
    else .inr (.inr ⟨k.val - 8, by have := k.isLt; omega⟩)
  left_inv := by decide
  right_inv := by decide

omit [FloatOps F] in
theorem bigSep_fin15 (Φ : Fin 15 → sProp 𝕄) :
    bigSep Finset.univ Φ = iprop(Φ kB ∗ (bigSep Finset.univ fun d : Fin 7 => Φ (kS d)) ∗ (bigSep Finset.univ fun d : Fin 7 => Φ (kR d))) := by
  rw [bigSep_univ_equiv split15 Φ, bigSep_univ_sum, bigSep_univ_sum, Finset.univ_unique, bigSep_singleton]
  rfl

/-- A device's own cells' duty tokens as minted: the seven duties of its barrier cell, the duty of each send cell,
    the duty of each receive cell. -/
def tokSem : Fin 7 ⊕ Fin 7 ⊕ Fin 7 → SemLoc sig × Fin 7
  | .inl e => (.reg barS, e)
  | .inr (.inl d) => (.dma (sendS d), 0)
  | .inr (.inr d) => (.dma (recvS d), 0)
theorem tokSem_injective : Function.Injective tokSem := by decide
abbrev tokOf (ct : Dev nD × (Fin 7 ⊕ Fin 7 ⊕ Fin 7)) : GSem nD τ sig × ℕ × Fin 7 :=
  (((ct.1 : Thread nD τ), (tokSem ct.2).1), 0, (tokSem ct.2).2)
theorem tokOf_injective : Function.Injective tokOf := by
  rintro ⟨c, t⟩ ⟨c', t'⟩ h
  have h1 : c = c' := by have := congrArg (fun x : GSem nD τ sig × ℕ × Fin 7 => x.1.1.1) h; exact this
  subst h1
  have h2 : tokSem t = tokSem t' :=
    Prod.ext (congrArg (fun x : GSem nD τ sig × ℕ × Fin 7 => x.1.2) h) (congrArg (fun x : GSem nD τ sig × ℕ × Fin 7 => x.2.2) h)
  rw [tokSem_injective h2]
def protoToks : Finset (GSem nD τ sig × ℕ × Fin 7) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun e : Fin 7 => dutyTok ER (barCell c) 0 e)
    ∗ (bigSep Finset.univ fun d : Fin 7 => dutyTok ER (sendCell c d) 0 0)
    ∗ (bigSep Finset.univ fun d : Fin 7 => dutyTok ER (recvCell c d) 0 0))

/-- What the launch element deals device `c`. -/
def G (c : Dev nD) : sProp 𝕄 :=
  iprop((bigSep Finset.univ fun k : Fin 15 => roundState ER (ringRd m) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 15 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_sum]; rfl
  iintro HX
  imod (Rounds.fund ER (ringRd m) protoCells protoToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated, the ghost state regrouped per device -/

/-- The send and receive semaphores are the kernel's own fourteen; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 7 => semVal (sendCell c d) 0) ∗ (bigSep Finset.univ fun d : Fin 7 => semVal (recvCell c d) 0)) := by
  unfold Pipeline.ownSems0; rw [bigSep_univ_sum]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15]
  simp only [kcell_B, kcell_S, kcell_R]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant under its name, and round 0 of every cell reached: what every device may read. -/
def records (K : Dev nD × Fin 15 → ℕ) : sProp 𝕄 :=
  iprop((bigSep Finset.univ fun ck : Dev nD × Fin 15 => cellInv ER (ringRd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) : records m K ⊢ cellInv ER (ringRd m) (K ck) (kcell ck) := by
  have h : (bigSep Finset.univ fun ck : Dev nD × Fin 15 => (cellInv ER (ringRd m) (K ck) (kcell ck) : sProp 𝕄)) ⊢ cellInv ER (ringRd m) (K ck) (kcell ck) :=
    bigSep_elim (Finset.mem_univ ck)
  unfold records
  iintro ⟨HI, -⟩
  iapply h; iexact HI
theorem reached_at (K : Dev nD × Fin 15 → ℕ) (ck : Dev nD × Fin 15) : records m K ⊢ reached ER (kcell ck) 0 := by
  have h : (bigSep Finset.univ fun ck : Dev nD × Fin 15 => (reached ER (kcell ck) 0 : sProp 𝕄)) ⊢ reached ER (kcell ck) 0 :=
    bigSep_elim (Finset.mem_univ ck)
  unfold records
  iintro ⟨-, HR⟩
  iapply h; iexact HR

theorem invs_intro (K : Dev nD × Fin 15 → ℕ) (c : Dev nD) : records m K ⊢ invs m K c := by
  unfold invs
  iintro #HR
  isplitr; · iapply (inv_at m K (c, kB)); iexact HR
  isplitr
  · iapply (bigSep_intro_persistent (R := records m K) fun d _ => by rw [← kcell_S]; exact inv_at m K (c, kS d)); iexact HR
  isplitr
  · iapply (bigSep_intro_persistent (R := records m K) fun d _ => by rw [← kcell_R]; exact inv_at m K (c, kR d)); iexact HR
  isplitr
  · iapply (bigSep_intro_persistent (R := records m K) fun d _ => inv_at m K (nb c d, kB)); iexact HR
  · iapply (bigSep_intro_persistent (R := records m K) fun d _ => by rw [← kcell_R]; exact inv_at m K (nb c d, kR (rev d))); iexact HR

theorem reacheds_intro (K : Dev nD × Fin 15 → ℕ) (c : Dev nD) : records m K ⊢ reacheds c := by
  unfold reacheds
  iintro #HR
  isplitr
  · iapply (bigSep_intro_persistent (R := records m K) fun d _ => reached_at m K (nb c d, kB)); iexact HR
  isplitr
  · iapply (bigSep_intro_persistent (R := records m K) fun d _ => by rw [← kcell_R]; exact reached_at m K (nb c d, kR (rev d))); iexact HR
  isplitr
  · iapply (bigSep_intro_persistent (R := records m K) fun d _ => by rw [← kcell_S]; exact reached_at m K (c, kS d)); iexact HR
  · iapply (bigSep_intro_persistent (R := records m K) fun d _ => by rw [← kcell_R]; exact reached_at m K (c, kR d)); iexact HR

/-- What stays with device `c`: its positions, and the tokens of the duties it pays. -/
def linear (c : Dev nD) : sProp 𝕄 := iprop(positions c ∗ payToks c)

theorem ghost_intro (K : Dev nD × Fin 15 → ℕ) (c : Dev nD) : iprop(records m K ∗ linear c) ⊢ G' m c := by
  unfold linear G' ghost
  iintro ⟨#HR, Hpos, Htok⟩
  iexists K
  isplitr; · iapply (invs_intro m K c); iexact HR
  isplitr; · iapply (reacheds_intro m K c); iexact HR
  isplitl [Hpos] <;> iassumption

/-! ### The tokens dealt around: duty `e` of a barrier cell to the peer that reaches its owner by step `e`, the duty of
    receive cell `s` to the peer `s + 1` places on -/

/-- (device, step) ↦ (the peer reached, the same duty name): who pays which barrier duty. -/
def aroundB : Dev nD × Fin 7 ≃ Dev nD × Fin 7 where
  toFun cd := (nb cd.1 cd.2, cd.2)
  invFun ye := (nb ye.1 (rev ye.2), ye.2)
  left_inv := by decide
  right_inv := by decide
/-- (device, step) ↦ (the peer reached, the slot filled there): who pays which receive duty. -/
def aroundR : Dev nD × Fin 7 ≃ Dev nD × Fin 7 where
  toFun cd := (nb cd.1 cd.2, rev cd.2)
  invFun ys := (nb ys.1 ys.2, rev ys.2)
  left_inv := by decide
  right_inv := by decide

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun ce : Dev nD × Fin 7 => (dutyTok ER (barCell ce.1) 0 ce.2 : sProp 𝕄)),
    ← bigSep_univ_prod (fun cs : Dev nD × Fin 7 => (dutyTok ER (recvCell cs.1 cs.2) 0 0 : sProp 𝕄)),
    bigSep_univ_equiv aroundB (fun ce : Dev nD × Fin 7 => (dutyTok ER (barCell ce.1) 0 ce.2 : sProp 𝕄)),
    bigSep_univ_equiv aroundR (fun cs : Dev nD × Fin 7 => (dutyTok ER (recvCell cs.1 cs.2) 0 0 : sProp 𝕄)),
    bigSep_univ_prod, bigSep_univ_prod]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (ringRd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ linear c from Entails.of_eq (by unfold linear positions; rw [bigSep_fin15]; simp only [kcell_B, kcell_S, kcell_R])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem nb_rev_nb (c : Dev nD) (e : Fin 7) : nb (nb c (rev e)) e = c := by revert c e; decide

omit [FloatOps F] in
/-- Every device signalling the barrier cell of the peer it reaches by step `e`, device `c` is dealt one unit on its own. -/
theorem cred_bar_of (e : Fin 7) (c : Dev nD) :
    (Pipeline.launchCred (fun d : Dev nD => (tallyAt (barCell (nb d e)) () 1 : CellTallies nD τ sig Unit)) c : sProp 𝕄) ⊢ cred (tallyAt (barCell c) () 1) :=
  Pipeline.launchCred_tallyAt (.reg barS) (fun d => nb d e) (fun y => nb y (rev e)) (fun y => nb_rev_nb y e) (fun d => nb_nb_rev d e) () 1 c

omit [FloatOps F] in
/-- Every device copying into slot `s` of the peer it reaches by step `e`, device `c` is dealt the slot's credit on its receive cell `s`. -/
theorem cred_recv_of (e s : Fin 7) (hs : rev e = s) (c : Dev nD) :
    (Pipeline.launchCred (fun d : Dev nD => (tallyAt (recvCell (nb d e) s) () N : CellTallies nD τ sig Unit)) c : sProp 𝕄) ⊢ cred (tallyAt (recvCell c s) () N) := by
  subst hs
  exact Pipeline.launchCred_tallyAt (.dma (recvS (rev e))) (fun d => nb d e) (fun y => nb y (rev e)) (fun y => nb_rev_nb y e) (fun d => nb_nb_rev d e) () N c

omit [FloatOps F] in
theorem cred_join (g : GSem nD τ sig) (a b : ℕ) : iprop(cred (tallyAt g () a) ∗ cred (tallyAt g () b)) ⊢ (cred (tallyAt g () (a + b)) : sProp 𝕄) := by
  rw [← tallyAt_add]; exact (cred_add _ _).2

omit [FloatOps F] in
theorem tallies_nil : tallies ([] : List (GSem nD τ sig × ℕ)) = 0 := rfl

/-- The launch credit of device `c`: seven units on its barrier cell, one from each peer, and a slot's credit on each
    receive cell, from the peer that fills the slot. -/
theorem creds (c : Dev nD) :
    (Pipeline.launchCred O₀ c : sProp 𝕄) ⊢ iprop(cred (tallyAt (barCell c) () 7) ∗ bigSep Finset.univ fun d : Fin 7 => cred (tallyAt (recvCell c d) () N)) := by
  show (Pipeline.launchCred (fun d : Dev nD => tallies (sigsFrom d 0)) c : sProp 𝕄) ⊢ _
  simp only [sigsFrom, copiesFrom, tallies_cons, tallies_nil, Pipeline.launchCred_add, Pipeline.launchCred_zero]
  rw [bigSep_fin7]
  iintro ⟨⟨⟨⟨⟨⟨⟨⟨⟨⟨⟨⟨⟨⟨-, R6⟩, R5⟩, R4⟩, R3⟩, R2⟩, R1⟩, R0⟩, B6⟩, B5⟩, B4⟩, B3⟩, B2⟩, B1⟩, B0⟩
  ihave C0 := (cred_bar_of (F := F) 0 c) $$ B0
  ihave C1 := (cred_bar_of (F := F) 1 c) $$ B1
  ihave C2 := (cred_bar_of (F := F) 2 c) $$ B2
  ihave C3 := (cred_bar_of (F := F) 3 c) $$ B3
  ihave C4 := (cred_bar_of (F := F) 4 c) $$ B4
  ihave C5 := (cred_bar_of (F := F) 5 c) $$ B5
  ihave C6 := (cred_bar_of (F := F) 6 c) $$ B6
  ihave D6 := (cred_recv_of (F := F) 0 6 rfl c) $$ R0
  ihave D5 := (cred_recv_of (F := F) 1 5 rfl c) $$ R1
  ihave D4 := (cred_recv_of (F := F) 2 4 rfl c) $$ R2
  ihave D3 := (cred_recv_of (F := F) 3 3 rfl c) $$ R3
  ihave D2 := (cred_recv_of (F := F) 4 2 rfl c) $$ R4
  ihave D1 := (cred_recv_of (F := F) 5 1 rfl c) $$ R5
  ihave D0 := (cred_recv_of (F := F) 6 0 rfl c) $$ R6
  isplitl [C0 C1 C2 C3 C4 C5 C6]
  · ihave E := (cred_join (F := F) (barCell c) 1 1) $$ [C0 C1]
    · isplitl [C0] <;> iassumption
    ihave E := (cred_join (F := F) (barCell c) 2 1) $$ [E C2]
    · isplitl [E] <;> iassumption
    ihave E := (cred_join (F := F) (barCell c) 3 1) $$ [E C3]
    · isplitl [E] <;> iassumption
    ihave E := (cred_join (F := F) (barCell c) 4 1) $$ [E C4]
    · isplitl [E] <;> iassumption
    ihave E := (cred_join (F := F) (barCell c) 5 1) $$ [E C5]
    · isplitl [E] <;> iassumption
    ihave E := (cred_join (F := F) (barCell c) 6 1) $$ [E C6]
    · isplitl [E] <;> iassumption
    iexact E
  isplitl [D0]; · iexact D0
  isplitl [D1]; · iexact D1
  isplitl [D2]; · iexact D2
  isplitl [D3]; · iexact D3
  isplitl [D4]; · iexact D4
  isplitl [D5]; · iexact D5
  iexact D6

/-! ### The pipeline's own waits -/

/-- A cell a device owes at launch is a peer's barrier cell or the receive cell its copy to that peer lands on. -/
theorem O₀_pos {c : Dev nD} {g : GSem nD τ sig} {u : Unit} (h : 0 < O₀ c g u) :
    (∃ d : Fin 7, g = barCell (nb c d)) ∨ ∃ d : Fin 7, g = recvCell (nb c d) (rev d) := by
  obtain ⟨x, hx, rfl⟩ := tallies_pos h
  simp only [sigsFrom, copiesFrom, List.mem_cons, List.not_mem_nil, or_false] at hx
  rcases hx with rfl | rfl | rfl | rfl | rfl | rfl | rfl | rfl | rfl | rfl | rfl | rfl | rfl | rfl
  · exact .inl ⟨0, rfl⟩
  · exact .inl ⟨1, rfl⟩
  · exact .inl ⟨2, rfl⟩
  · exact .inl ⟨3, rfl⟩
  · exact .inl ⟨4, rfl⟩
  · exact .inl ⟨5, rfl⟩
  · exact .inl ⟨6, rfl⟩
  · exact .inr ⟨0, rfl⟩
  · exact .inr ⟨1, rfl⟩
  · exact .inr ⟨2, rfl⟩
  · exact .inr ⟨3, rfl⟩
  · exact .inr ⟨4, rfl⟩
  · exact .inr ⟨5, rfl⟩
  · exact .inr ⟨6, rfl⟩

omit [FloatOps F] in
/-- A wait on a cell at level 0 is below everything a device owes at launch (barrier cells 1, receive cells 2). -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> (rw [L_tc]; exact Finset.mem_singleton_self _))
      (fun p hp => by rw [Finset.mem_singleton.mp hp]; exact le_of_eq hq)
      (fun g u hg => by
        rcases O₀_pos hg with ⟨d, rfl⟩ | ⟨d, rfl⟩
        · rw [lv_bar]; decide
        · rw [lv_recv]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hs0, Hs1⟩
  isplitl [Hs]; · iexact Hs
  isplitl [Hs0] <;> iassumption

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨Hs0, Hs1, HzS, HzV⟩
  isplitr; · iempintro
  isplitl [HzS HzV]
  · isplitl [HzS] <;> iassumption
  isplitl [Hs0] <;> iassumption

/-! ### The run -/

/-- The result array after the one point: the whole block, written back, is what the body left. -/
theorem finalA_out (c : Dev nD) : (dats m ρ 0 c).arrAt (2 : Fin 3) cfg0.N = oVal m c := by
  show (dats m ρ 0 c).arrAt (2 : Fin 3) ((t0_0 : Fin cfg0.N).val + 1) = oVal m c
  rw [Dat.arrAt_succ, flush0_2, if_pos rfl]
  exact Memref.write_access_unit_zero_univ (Elt F) main_v1 (funext fun a => Nat.zero_mul _) _ _ _

/-- At the compiled mesh of eight devices, for any float values, from any memory with zero counters: given each
    device's body, every weakly fair execution of @main terminates, and every final state has each device's result
    array at its result block and its argument arrays unchanged. -/
theorem run_main (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = oVal m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c => ⟨((h c).1 (2 : Fin 3)).trans (finalA_out m ρ c),
      ((h c).1 (0 : Fin 3)).trans ((dats (F := F) m ρ 0 c).arrAt_in (0 : Fin 3) rfl _),
      ((h c).1 (1 : Fin 3)).trans ((dats (F := F) m ρ 0 c).arrAt_in (1 : Fin 3) rfl _)⟩)

/-- info: 'Cert.KernelIdeal.Hand.run_main' depends on axioms: [propext, Classical.choice, Quot.sound] -/
#guard_msgs in #print axioms run_main

end Cert.KernelIdeal.Hand

end
-- ==== Proof.Value.lean ====
/-
  The value of the result at the exact instance: each device's result block is its block of rows of the
  whole product.  Entry (r, j) of device c's block is the sum over the eight devices q of the partial
  products  sum_{k < 384} A[96 c + r, 384 q + k] * B[384 q + k, j];  the eight ranges of k tile 0 .. 3071,
  and addition of extended reals is commutative and associative, so whatever order the partial products
  are added in, the sum is the reference's  sum_{k < 3072} A[96 c + r, k] * B[k, j].
-/
import proofs.«900558_g7700000000000559_dist_matmul_mk_i_outk_m768_n768_k384_v7x_i8_bf16_1_alg».proof.Defs
import proofs.«900558_g7700000000000559_dist_matmul_mk_i_outk_m768_n768_k384_v7x_i8_bf16_1_alg».proof.Proof.Spec
import proofs.«900558_g7700000000000559_dist_matmul_mk_i_outk_m768_n768_k384_v7x_i8_bf16_1_alg».proof.Proof.Gen.ReferenceIdeal.Run
import proofs.«900558_g7700000000000559_dist_matmul_mk_i_outk_m768_n768_k384_v7x_i8_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws
import Mathlib.Algebra.BigOperators.Fin
import Mathlib.Algebra.BigOperators.Group.Finset.Defs
import Mathlib.Data.Fintype.BigOperators
import Mathlib.Logic.Equiv.Fin.Basic
import Mathlib.Tactic.FinCases

noncomputable section

namespace Cert.KernelIdeal.ValueProof

open Cert.KernelIdeal Cert.KernelIdeal.Gen
open Idealize.ShloMosaic Idealize.SL.Sem
open Idealize.ShloMosaic.ValueIdx (ix2)

/-! ### The kernel's product record: where it reads its operands -/

theorem lhs_0 (i : S96x768.Idx) (q : dot_S96x384_S384x768_S96x768_1_0_0_1_n_n.contr.Idx) :
    (dot_S96x384_S384x768_S96x768_1_0_0_1_n_n.lhsIdx i q 0).val = (i 0).val := by
  unfold DotDims.lhsIdx
  rw [dif_neg (show ¬(0 : Fin S96x384.rank) ∈ dot_S96x384_S384x768_S96x768_1_0_0_1_n_n.lhsBatch by decide), dif_pos (show (0 : Fin S96x384.rank) ∈ dot_S96x384_S384x768_S96x768_1_0_0_1_n_n.lhsNonContracting by decide)]
  rfl
theorem lhs_1 (i : S96x768.Idx) (q : dot_S96x384_S384x768_S96x768_1_0_0_1_n_n.contr.Idx) :
    (dot_S96x384_S384x768_S96x768_1_0_0_1_n_n.lhsIdx i q 1).val = (q ⟨0, by decide⟩).val :=
  dot_S96x384_S384x768_S96x768_1_0_0_1_n_n.lhsIdx_val_of_single rfl i q
theorem rhs_0 (i : S96x768.Idx) (q : dot_S96x384_S384x768_S96x768_1_0_0_1_n_n.contr.Idx) :
    (dot_S96x384_S384x768_S96x768_1_0_0_1_n_n.rhsIdx i q 0).val = (q ⟨0, by decide⟩).val :=
  dot_S96x384_S384x768_S96x768_1_0_0_1_n_n.rhsIdx_val_of_single rfl i q
theorem rhs_1 (i : S96x768.Idx) (q : dot_S96x384_S384x768_S96x768_1_0_0_1_n_n.contr.Idx) :
    (dot_S96x384_S384x768_S96x768_1_0_0_1_n_n.rhsIdx i q 1).val = (i 1).val := by
  unfold DotDims.rhsIdx
  rw [dif_neg (show ¬(1 : Fin S384x768.rank) ∈ dot_S96x384_S384x768_S96x768_1_0_0_1_n_n.rhsBatch by decide), dif_pos (show (1 : Fin S384x768.rank) ∈ dot_S96x384_S384x768_S96x768_1_0_0_1_n_n.rhsNonContracting by decide)]
  rfl

/-- The product of a 96 x 384 by a 384 x 768 array into the zero accumulator, at entry (r, j). -/
theorem matmul_zero_apply (x : FVec Ideal S96x384 .bf16) (y : FVec Ideal S384x768 .bf16) (r : Fin 96) (j : Fin 768) :
    matmul (F := Ideal) dot_S96x384_S384x768_S96x768_1_0_0_1_n_n none x y (constant S96x768 .f32 0x00000000#32) (ix2 r j)
      = ∑ k : Fin 384, x (ix2 r k) * y (ix2 k j) := by
  simp only [matmul]
  rw [Ideal.matmul_constant_zero_apply, ← Equiv.sum_comp (ValueIdx.contrEquiv1 dot_S96x384_S384x768_S96x768_1_0_0_1_n_n 384 rfl rfl).symm]
  refine Finset.sum_congr rfl fun k _ => ?_
  have hk := ValueIdx.contrEquiv1_symm_val dot_S96x384_S384x768_S96x768_1_0_0_1_n_n 384 rfl rfl k
  have el : dot_S96x384_S384x768_S96x768_1_0_0_1_n_n.lhsIdx (ix2 r j) ((ValueIdx.contrEquiv1 dot_S96x384_S384x768_S96x768_1_0_0_1_n_n 384 rfl rfl).symm k) = ix2 r k := funext fun a => Fin.ext (by
    match a with
    | ⟨0, _⟩ => exact lhs_0 _ _
    | ⟨1, _⟩ => exact (lhs_1 _ _).trans hk)
  have er : dot_S96x384_S384x768_S96x768_1_0_0_1_n_n.rhsIdx (ix2 r j) ((ValueIdx.contrEquiv1 dot_S96x384_S384x768_S96x768_1_0_0_1_n_n 384 rfl rfl).symm k) = ix2 k j := funext fun a => Fin.ext (by
    match a with
    | ⟨0, _⟩ => exact (rhs_0 _ _).trans hk
    | ⟨1, _⟩ => exact rhs_1 _ _)
  rw [el, er]

/-- The offset of the rows read for the peer d + 1 places on: the rows of that peer's result block. -/
theorem off1_eq : ∀ (c : Dev nD) (d : Fin 7), k0_off1 c (BitVec.ofNat 32 d.val) = ![96 * (Spec.nb c d).val, 0] := by decide +kernel

/-! ### The payloads at the exact instance -/

/-- Rounding to bf16 is the identity at the exact instance, and so is the cast to the same shape. -/
theorem pay1_eq (Bq : Vec Ideal S384x768 .f32) : k0_pay1 (F := Ideal) Bq = Bq := by
  unfold k0_pay1
  exact shapeCast_self _ _

/-- The partial product of 96 rows with a block of the right operand, as a 96 x 768 array. -/
def part (Bq : Vec Ideal S384x768 .f32) (rows : Vec Ideal S96x384 .f32) : FVec Ideal S96x768 .f32 :=
  fun i => ∑ k : Fin 384, rows (ix2 (i 0) k) * Bq (ix2 k (i 1))

theorem part_apply (Bq : Vec Ideal S384x768 .f32) (rows : Vec Ideal S96x384 .f32) (r : Fin 96) (j : Fin 768) :
    part Bq rows (ix2 r j) = ∑ k : Fin 384, rows (ix2 r k) * Bq (ix2 k j) := rfl

/-- Two 96 x 768 arrays are equal when they agree at every (r, j). -/
theorem ext_ix2 {α : Type} {f g : S96x768.Idx → α} (h : ∀ (r : Fin 96) (j : Fin 768), f (ix2 r j) = g (ix2 r j)) : f = g := by
  funext i
  have hi : i = ix2 (n0 := 96) (n1 := 768) (i 0) (i 1) := by
    funext a; match a with | ⟨0, _⟩ => rfl | ⟨1, _⟩ => rfl
  rw [hi]
  exact h _ _

/-- The product inside every payload: the rows, cast to their own shape and rounded, times the rounded block. -/
theorem matmul_rows_eq (Bq : Vec Ideal S384x768 .f32) (rows : Vec Ideal S96x384 .f32) :
    matmul (F := Ideal) dot_S96x384_S384x768_S96x768_1_0_0_1_n_n none
        (truncf .bf16 (shapeCast S96x384 rows shapeCasts_S96x384_S96x384) bitsLt_bf16_f32) (k0_pay1 Bq)
        (constant S96x768 .f32 0x00000000#32)
      = part Bq rows := by
  refine ext_ix2 fun r j => ?_
  rw [matmul_zero_apply, part_apply, pay1_eq, shapeCast_self]
  rfl

/-- What a device sends: the partial product, as a 1 x 96 x 768 array. -/
theorem pay3_eq (Bq : Vec Ideal S384x768 .f32) (rows : Vec Ideal S96x384 .f32) :
    k0_pay3 (F := Ideal) (k0_pay1 Bq) rows = shapeCast S1x96x768 (part Bq rows) shapeCasts_S96x768_S1x96x768 := by
  unfold k0_pay3
  show shapeCast S1x96x768 (matmul (F := Ideal) dot_S96x384_S384x768_S96x768_1_0_0_1_n_n none
        (truncf .bf16 (shapeCast S96x384 rows shapeCasts_S96x384_S96x384) bitsLt_bf16_f32) (k0_pay1 Bq)
        (constant S96x768 .f32 0x00000000#32)) shapeCasts_S96x768_S1x96x768 = _
  rw [matmul_rows_eq]

/-- What a device makes of a landed slot: the 96 x 768 array it holds. -/
def recv (v : Vec Ideal S1x96x768 .bf16) : FVec Ideal S96x768 .f32 :=
  extf .f32 (shapeCast S96x768 v shapeCasts_S1x96x768_S96x768) bitsLt_bf16_f32

theorem recv_pay3 (Bq : Vec Ideal S384x768 .f32) (rows : Vec Ideal S96x384 .f32) :
    recv (k0_pay3 (F := Ideal) (k0_pay1 Bq) rows) = part Bq rows := by
  rw [pay3_eq]
  unfold recv
  rw [shapeCast_shapeCast]
  rfl

/-- The result block, entry by entry: the own partial product plus the seven landed ones. -/
theorem outVal_apply (A : Dev nD → (cc0_stg0_0 : Ref sig .tc).ty.Contents (Elt Ideal))
    (B : Dev nD → (cc0_stg1_0 : Ref sig .tc).ty.Contents (Elt Ideal)) (c : Dev nD) (i : S96x768.Idx) :
    Spec.outVal (F := Ideal) A B c i
      = part (B c) (Spec.rowsOwn A c) i + recv (Spec.rcvVal A B c 6) i + recv (Spec.rcvVal A B c 5) i
          + recv (Spec.rcvVal A B c 4) i + recv (Spec.rcvVal A B c 3) i + recv (Spec.rcvVal A B c 2) i
          + recv (Spec.rcvVal A B c 1) i + recv (Spec.rcvVal A B c 0) i := by
  unfold Spec.outVal k0_pay12 k0_pay11 k0_pay10 k0_pay9
  rw [← matmul_rows_eq]
  rfl

/-! ### The rows a device reads -/

/-- Row `r` of the result block of device `c`, as a row of the whole 768. -/
def row (c : Dev nD) (r : Fin 96) : Fin 768 :=
  ⟨96 * c.val + r.val, by have h1 : c.val < 8 := c.isLt; have h2 := r.isLt; omega⟩

/-- A load of 96 rows from row offset `96 * R` reads the staged block at rows `96 * R + r`. -/
theorem readRows_apply (Ac : (cc0_stg0_0 : Ref sig .tc).ty.Contents (Elt Ideal)) (off : Fin 2 → Nat)
    (inb : ∀ a, off a + S96x384.size a ≤ S768x384.size a) (R : Dev nD) (hoff : off = ![96 * R.val, 0])
    (r : Fin 96) (k : Fin 384) :
    (Spec.aM : Memref sig .tc .vmem S768x384 .f32).view.readAt (Elt Ideal)
        (Rect.unit (s := S768x384) off S96x384.size inb).toLoadRect Ac (ix2 r k)
      = Ac (ix2 (row R r) k) := by
  subst hoff
  refine congrArg Ac (funext fun a => Fin.ext ?_)
  match a with
  | ⟨0, _⟩ => show 96 * R.val + 1 * r.val = 96 * R.val + r.val; omega
  | ⟨1, _⟩ => show 0 + 1 * k.val = k.val; omega

theorem rowsOwn_apply (A : Dev nD → (cc0_stg0_0 : Ref sig .tc).ty.Contents (Elt Ideal)) (c : Dev nD) (r : Fin 96) (k : Fin 384) :
    Spec.rowsOwn (F := Ideal) A c (ix2 r k) = A c (ix2 (row c r) k) :=
  readRows_apply (A c) _ _ c (k0_off2_eq c) r k

/-- The rows device `q` reads for the peer `d + 1` places on are the rows of that peer's block. -/
theorem rowsFor_apply (A : Dev nD → (cc0_stg0_0 : Ref sig .tc).ty.Contents (Elt Ideal)) (q : Dev nD) (d : Fin 7)
    (c : Dev nD) (hc : Spec.nb q d = c) (r : Fin 96) (k : Fin 384) :
    Spec.rowsFor (F := Ideal) A q d (ix2 r k) = A q (ix2 (row c r) k) := by
  subst hc
  exact readRows_apply (A q) _ _ (Spec.nb q d) (off1_eq q d) r k

/-! ### One device's share of an entry, and the eight shares -/

/-- Device `q`'s share of entry (r, j) of device `c`'s block: its 384 products along the contraction axis. -/
def share (A : Dev nD → Vec Ideal S768x384 .f32) (B : Dev nD → Vec Ideal S384x768 .f32)
    (c : Dev nD) (r : Fin 96) (j : Fin 768) (q : Dev nD) : EReal :=
  ∑ k : Fin 384, A q (ix2 (row c r) k) * B q (ix2 k j)

theorem own_apply (A : Dev nD → (cc0_stg0_0 : Ref sig .tc).ty.Contents (Elt Ideal))
    (B : Dev nD → (cc0_stg1_0 : Ref sig .tc).ty.Contents (Elt Ideal)) (c : Dev nD) (r : Fin 96) (j : Fin 768) :
    part (B c) (Spec.rowsOwn A c) (ix2 r j) = share A B c r j c := by
  rw [part_apply]
  exact Finset.sum_congr rfl fun k _ => by rw [rowsOwn_apply]

/-- What lands in slot `s` is the share of the peer `s + 1` places on. -/
theorem recv_apply (A : Dev nD → (cc0_stg0_0 : Ref sig .tc).ty.Contents (Elt Ideal))
    (B : Dev nD → (cc0_stg1_0 : Ref sig .tc).ty.Contents (Elt Ideal)) (c : Dev nD) (s : Fin 7) (r : Fin 96) (j : Fin 768) :
    recv (Spec.rcvVal A B c s) (ix2 r j) = share A B c r j (Spec.nb c s) := by
  unfold Spec.rcvVal Spec.sendVal
  rw [recv_pay3, part_apply]
  exact Finset.sum_congr rfl fun k _ => by rw [rowsFor_apply A (Spec.nb c s) (Spec.rev s) c (Spec.nb_nb_rev c s)]

/-- A device and its seven peers are all eight devices: a sum over them, in whatever order, is the sum over all. -/
theorem sum_ring {M : Type} [AddCommMonoid M] (f : Dev nD → M) (c : Dev nD) :
    f c + f (Spec.nb c 6) + f (Spec.nb c 5) + f (Spec.nb c 4) + f (Spec.nb c 3) + f (Spec.nb c 2) + f (Spec.nb c 1)
        + f (Spec.nb c 0) = ∑ q : Dev nD, f q := by
  rw [Fin.sum_univ_eight]
  fin_cases c
  · show f 0 + f 7 + f 6 + f 5 + f 4 + f 3 + f 2 + f 1 = _; ac_rfl
  · show f 1 + f 0 + f 7 + f 6 + f 5 + f 4 + f 3 + f 2 = _; ac_rfl
  · show f 2 + f 1 + f 0 + f 7 + f 6 + f 5 + f 4 + f 3 = _; ac_rfl
  · show f 3 + f 2 + f 1 + f 0 + f 7 + f 6 + f 5 + f 4 = _; ac_rfl
  · show f 4 + f 3 + f 2 + f 1 + f 0 + f 7 + f 6 + f 5 = _; ac_rfl
  · show f 5 + f 4 + f 3 + f 2 + f 1 + f 0 + f 7 + f 6 = _; ac_rfl
  · show f 6 + f 5 + f 4 + f 3 + f 2 + f 1 + f 0 + f 7 = _; ac_rfl
  · show f 7 + f 6 + f 5 + f 4 + f 3 + f 2 + f 1 + f 0 = _; ac_rfl

/-- The eight ranges of 384 tile the contraction axis of 3072. -/
theorem sum_blocks {M : Type} [AddCommMonoid M] (G : Fin 3072 → M) :
    ∑ q : Fin 8, ∑ k : Fin 384, G ⟨384 * q.val + k.val, by have := q.isLt; have := k.isLt; omega⟩ = ∑ K : Fin 3072, G K := by
  rw [← Equiv.sum_comp (finProdFinEquiv : Fin 8 × Fin 384 ≃ Fin 3072) G, Fintype.sum_prod_type]
  refine Finset.sum_congr rfl fun q _ => Finset.sum_congr rfl fun k _ => congrArg G (Fin.ext ?_)
  show 384 * q.val + k.val = k.val + 384 * q.val
  omega

/-- With every device's staged blocks the blocks of the whole operands, device `c`'s result is block `c` (of rows)
    of the reference's product of the whole operands. -/
theorem outVal_eq_block
    (Aw : (⟨Cert.ReferenceIdeal.S768x3072, .f32⟩ : BufTy).Contents (Elt Ideal))
    (Bw : (⟨Cert.ReferenceIdeal.S3072x768, .f32⟩ : BufTy).Contents (Elt Ideal))
    (A : Dev nD → (cc0_stg0_0 : Ref sig .tc).ty.Contents (Elt Ideal))
    (B : Dev nD → (cc0_stg1_0 : Ref sig .tc).ty.Contents (Elt Ideal))
    (hA : ∀ c, A c = Layout.block ⟨2, ![768, 384]⟩ ⟨2, ![768, 3072]⟩ 1 8 c Aw)
    (hB : ∀ c, B c = Layout.block ⟨2, ![384, 768]⟩ ⟨2, ![3072, 768]⟩ 0 8 c Bw) (c : Dev nD) :
    Spec.outVal (F := Ideal) A B c
      = Layout.block ⟨2, ![96, 768]⟩ ⟨2, ![768, 768]⟩ 0 8 c
          (Cert.ReferenceIdeal.Read.val_main_v0 (F := Ideal) Aw Bw) := by
  refine ext_ix2 fun r j => ?_
  -- the kernel's side: the eight shares, which are all eight devices'
  rw [outVal_apply, own_apply, recv_apply, recv_apply, recv_apply, recv_apply, recv_apply, recv_apply, recv_apply,
    sum_ring (share A B c r j) c]
  -- the reference's side: the sum over the whole contraction axis, cut into the eight ranges
  rw [Layout.block_apply, Cert.ReferenceIdeal.Read.val_main_v0_apply, ← sum_blocks]
  refine Finset.sum_congr rfl fun q _ => Finset.sum_congr rfl fun k _ => ?_
  rw [hA q, hB q, Layout.block_apply, Layout.block_apply]
  refine congrArg₂ (· * ·) (congrArg Aw (funext fun a => Fin.ext ?_)) (congrArg Bw (funext fun a => Fin.ext ?_))
  · match a with
    | ⟨0, _⟩ => show 96 * c.val + r.val = c.val * 96 + r.val; omega
    | ⟨1, _⟩ => show q.val * 384 + k.val = 384 * q.val + k.val; omega
  · match a with
    | ⟨0, _⟩ => show q.val * 384 + k.val = 384 * q.val + k.val; omega
    | ⟨1, _⟩ => rfl

end Cert.KernelIdeal.ValueProof

end
-- ==== Proof.Claims.lean ====
/-
  The five conjuncts for the idealized kernel and the reference, from the run of the mesh, the value of the result
  block, and the reference's run.
-/
import proofs.«900558_g7700000000000559_dist_matmul_mk_i_outk_m768_n768_k384_v7x_i8_bf16_1_alg».proof.Defs
import proofs.«900558_g7700000000000559_dist_matmul_mk_i_outk_m768_n768_k384_v7x_i8_bf16_1_alg».proof.Proof.Launch
import proofs.«900558_g7700000000000559_dist_matmul_mk_i_outk_m768_n768_k384_v7x_i8_bf16_1_alg».proof.Proof.Value
import proofs.«900558_g7700000000000559_dist_matmul_mk_i_outk_m768_n768_k384_v7x_i8_bf16_1_alg».proof.Proof.Gen.ReferenceIdeal.Run
import proofs.«900558_g7700000000000559_dist_matmul_mk_i_outk_m768_n768_k384_v7x_i8_bf16_1_alg».proof.Proof.Gen.ReferenceIdeal.Read
import proofs.«900558_g7700000000000559_dist_matmul_mk_i_outk_m768_n768_k384_v7x_i8_bf16_1_alg».proof.Proof.Gen.Pre_finite_inputs_Kernel
import proofs.«900558_g7700000000000559_dist_matmul_mk_i_outk_m768_n768_k384_v7x_i8_bf16_1_alg».proof.Proof.Gen.Pre_finite_inputs_ReferenceIdeal
import proofs.«900558_g7700000000000559_dist_matmul_mk_i_outk_m768_n768_k384_v7x_i8_bf16_1_alg».proof.Proof.Gen.ReferenceIdeal

noncomputable section

namespace Cert.KernelIdeal.Claims

open Cert.KernelIdeal Cert.KernelIdeal.Gen Cert.KernelIdeal.Hand
open Idealize.ShloMosaic Idealize.ShloMosaic.TcCoe Idealize.SL.Sem
open Idealize.ShloMosaic.Pipeline (BodyObligation)

/-- A device's staged block of an operand is its argument buffer (no grid: the block is the whole array). -/
theorem Ablk_eq {F : FTy → Type} [FloatOps F] (m : (ℓ : Loc nD τ sig) → Buf (Elt F) ℓ) (c : Dev nD) :
    Ablk m c = m ((c.tc : Thread nD τ).loc main_arg0) := by
  -- the block's rectangle has the array's own sizes at offsets `0 * size`, that is, zero: it reads the whole buffer
  unfold Ablk
  exact Memref.read_access_unit_zero (Elt F) main_arg0 (funext fun a => Nat.zero_mul _) _ _
theorem Bblk_eq {F : FTy → Type} [FloatOps F] (m : (ℓ : Loc nD τ sig) → Buf (Elt F) ℓ) (c : Dev nD) :
    Bblk m c = m ((c.tc : Thread nD τ).loc main_arg1) := by
  unfold Bblk
  exact Memref.read_access_unit_zero (Elt F) main_arg1 (funext fun a => Nat.zero_mul _) _ _

theorem frame_ri : Cert.frame_ReferenceIdeal := by
  -- the reference's run, its result's value dropped
  intro m ρ _
  exact (θ_run Cert.ReferenceIdeal.defs _ _).mono (fun _ h c => (h c).2) (Cert.ReferenceIdeal.Value.run (F := Ideal) m ρ)

theorem preserves : Cert.preserves_Kernel_KernelIdeal := trivial

theorem frame_pi
    (hbody : ∀ (m : (ℓ : Loc nD τ sig) → Buf (Elt Ideal) ℓ) (ρ : Dev nD → PrngReg) (c : Dev nD),
      BodyObligation (dats (F := Ideal) m ρ 0 c) (defs₀ (F := Ideal)) 𝒱₀ () Set.univ) :
    Cert.frame_KernelIdeal := by
  -- the mesh's run, the result blocks' values dropped
  intro m ρ _
  exact (θ_run Cert.KernelIdeal.defs _ _).mono (fun _ h c => (h c).2) (run_main (F := Ideal) m ρ (hbody m ρ))

theorem algebraic
    (hbody : ∀ (m : (ℓ : Loc nD τ sig) → Buf (Elt Ideal) ℓ) (ρ : Dev nD → PrngReg) (c : Dev nD),
      BodyObligation (dats (F := Ideal) m ρ 0 c) (defs₀ (F := Ideal)) 𝒱₀ () Set.univ) :
    Cert.algebraic_KernelIdeal_ReferenceIdeal := by
  intro m ρ m' ρ' _ hagree
  -- the witness: the reference's product of its whole operands
  refine ⟨Cert.ReferenceIdeal.Read.val_main_v0 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · -- each device's staged blocks are its argument buffers, which are the blocks of the whole operands: so its
    -- result block is its block of rows of the product
    refine (θ_run Cert.KernelIdeal.defs _ _).mono (fun _ h c => ⟨(h c).1.trans ?_, (h c).2⟩)
      (run_main (F := Ideal) m ρ (hbody m ρ))
    exact ValueProof.outVal_eq_block _ _ (Ablk m) (Bblk m)
      (fun c' => (Ablk_eq m c').trans (hagree c').1) (fun c' => (Bblk_eq m c').trans (hagree c').2) c
  · -- the reference has one device, whose result is that product
    exact (θ_run Cert.ReferenceIdeal.defs _ _).mono
      (fun _ h => ⟨(h 0).1.trans (Cert.ReferenceIdeal.Read.val_main_v0_eq _ _), (h 0).2⟩)
      (Cert.ReferenceIdeal.Value.run (F := Ideal) m' ρ')

end Cert.KernelIdeal.Claims

end
-- ==== Proof.KClaims.lean ====
/-
  The frame conjunct of the kernel as printed, at the bit-exact instance: the run of the mesh with the result
  blocks' values dropped.
-/
import proofs.«900558_g7700000000000559_dist_matmul_mk_i_outk_m768_n768_k384_v7x_i8_bf16_1_alg».proof.Defs
import proofs.«900558_g7700000000000559_dist_matmul_mk_i_outk_m768_n768_k384_v7x_i8_bf16_1_alg».proof.Proof.KLaunch
import proofs.«900558_g7700000000000559_dist_matmul_mk_i_outk_m768_n768_k384_v7x_i8_bf16_1_alg».proof.Proof.Gen.Pre_finite_inputs_Kernel
import Idealize.ShloMosaic.PureOps.BitExact

noncomputable section

namespace Cert.Kernel.Claims

open Cert.Kernel Cert.Kernel.Gen Cert.Kernel.Hand
open Idealize.ShloMosaic Idealize.ShloMosaic.TcCoe Idealize.SL.Sem
open Idealize.ShloMosaic.Pipeline (BodyObligation)

/-- Given each device's body at the bit-exact instance, the kernel runs and its argument arrays end unchanged. -/
theorem frame_p
    (hbody : ∀ (m : (ℓ : Loc Cert.Kernel.nD Cert.Kernel.τ Cert.Kernel.sig) → Buf (Elt Bits) ℓ) (ρ : Dev Cert.Kernel.nD → PrngReg)
      (c : Dev Cert.Kernel.nD),
      BodyObligation (Cert.Kernel.Hand.dats (F := Bits) m ρ 0 c) (Cert.Kernel.defs₀ (F := Bits)) Cert.Kernel.Hand.𝒱₀ () Set.univ) :
    Cert.frame_Kernel := by
  intro m ρ _
  exact (θ_run Cert.Kernel.defs _ _).mono (fun _ h c => (h c).2) (Cert.Kernel.Hand.run_main (F := Bits) m ρ (hbody m ρ))

end Cert.Kernel.Claims

end
-- ==== Proof.lean ====
/-
  The proof of `Cert.Claim`.

  The mesh has eight devices, and every device exchanges with each of the other seven.  The contraction index of
  the 768 x 3072 by 3072 x 768 product is cut in eight ranges of 384: device `c` holds columns 384 c .. 384 c + 383
  of the left operand and the same rows of the right operand, and owes rows 96 c .. 96 c + 95 of the result.  Every
  device tells each of its seven peers, on that peer's barrier counter, that its own landing buffer is free, and
  waits until all seven peers have told it the same; only then does it copy anything into a peer.  For each peer it
  multiplies the 96 rows of its column block that belong to the peer's result block by its row block and copies
  that partial product into the landing slot the peer keeps for it; it multiplies its own 96 rows likewise, waits
  for the seven partial products its peers computed for it, and adds them to its own.

  Entry (r, j) of device c's result block is therefore the sum over the eight devices q of
  sum_{k < 384} A[96 c + r, 384 q + k] * B[384 q + k, j].  At the exact instance a float is an extended real and
  a change of format is the identity; the eight ranges of k tile 0 .. 3071, and addition of extended reals is
  commutative and associative, so in whatever order the partial products are added the entry is the reference's
  sum_{k < 3072} A[96 c + r, k] * B[k, j]: the result block is block c of rows of the reference's product.

  The three frame conjuncts are the same runs with the values forgotten: the run of the mesh (one text, read at
  the word-level instance and at the exact one) leaves every device's argument buffers as they were, and so does
  the reference's run.  The idealization rewrote no operation, so there is nothing for it to preserve.
-/
import proofs.«900558_g7700000000000559_dist_matmul_mk_i_outk_m768_n768_k384_v7x_i8_bf16_1_alg».proof.Defs
import proofs.«900558_g7700000000000559_dist_matmul_mk_i_outk_m768_n768_k384_v7x_i8_bf16_1_alg».proof.Proof.Gen.Kernel
import proofs.«900558_g7700000000000559_dist_matmul_mk_i_outk_m768_n768_k384_v7x_i8_bf16_1_alg».proof.Proof.Gen.Kernel.Skeleton
import proofs.«900558_g7700000000000559_dist_matmul_mk_i_outk_m768_n768_k384_v7x_i8_bf16_1_alg».proof.Proof.Gen.Kernel.Launch
import proofs.«900558_g7700000000000559_dist_matmul_mk_i_outk_m768_n768_k384_v7x_i8_bf16_1_alg».proof.Proof.Gen.Kernel.Points
import proofs.«900558_g7700000000000559_dist_matmul_mk_i_outk_m768_n768_k384_v7x_i8_bf16_1_alg».proof.Proof.Gen.Kernel.Frame
import proofs.«900558_g7700000000000559_dist_matmul_mk_i_outk_m768_n768_k384_v7x_i8_bf16_1_alg».proof.Proof.Gen.KernelIdeal
import proofs.«900558_g7700000000000559_dist_matmul_mk_i_outk_m768_n768_k384_v7x_i8_bf16_1_alg».proof.Proof.Gen.KernelIdeal.Skeleton
import proofs.«900558_g7700000000000559_dist_matmul_mk_i_outk_m768_n768_k384_v7x_i8_bf16_1_alg».proof.Proof.Gen.KernelIdeal.Launch
import proofs.«900558_g7700000000000559_dist_matmul_mk_i_outk_m768_n768_k384_v7x_i8_bf16_1_alg».proof.Proof.Gen.KernelIdeal.Points
import proofs.«900558_g7700000000000559_dist_matmul_mk_i_outk_m768_n768_k384_v7x_i8_bf16_1_alg».proof.Proof.Gen.KernelIdeal.Frame
import proofs.«900558_g7700000000000559_dist_matmul_mk_i_outk_m768_n768_k384_v7x_i8_bf16_1_alg».proof.Proof.Gen.ReferenceIdeal
import proofs.«900558_g7700000000000559_dist_matmul_mk_i_outk_m768_n768_k384_v7x_i8_bf16_1_alg».proof.Proof.Gen.Pre_finite_inputs_Kernel
import proofs.«900558_g7700000000000559_dist_matmul_mk_i_outk_m768_n768_k384_v7x_i8_bf16_1_alg».proof.Proof.Gen.Pre_finite_inputs_ReferenceIdeal
import proofs.«900558_g7700000000000559_dist_matmul_mk_i_outk_m768_n768_k384_v7x_i8_bf16_1_alg».proof.Proof.Obligation
import proofs.«900558_g7700000000000559_dist_matmul_mk_i_outk_m768_n768_k384_v7x_i8_bf16_1_alg».proof.Proof.KObligation
import proofs.«900558_g7700000000000559_dist_matmul_mk_i_outk_m768_n768_k384_v7x_i8_bf16_1_alg».proof.Proof.Claims
import proofs.«900558_g7700000000000559_dist_matmul_mk_i_outk_m768_n768_k384_v7x_i8_bf16_1_alg».proof.Proof.KClaims
import Idealize.ShloMosaic.Adequacy
import Idealize.ShloMosaic.Init

noncomputable section

namespace Cert.Proof

open Idealize.ShloMosaic Idealize.SL.Sem

/-- The facts the programs and the precondition state, then the five conjuncts: the two frames of the kernel from
    the run of the mesh given every device's body, the reference's frame from its run, and the value claim from the
    run of the mesh, the value of a result block, and the reference's run. -/
theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    Cert.Kernel.Claims.frame_p (fun m ρ c => Cert.Kernel.Hand.body_obligation m ρ c),
    Cert.KernelIdeal.Claims.frame_pi (fun m ρ c => Cert.KernelIdeal.Hand.body_obligation m ρ c),
    Cert.KernelIdeal.Claims.frame_ri,
    Cert.KernelIdeal.Claims.preserves,
    Cert.KernelIdeal.Claims.algebraic (fun m ρ c => Cert.KernelIdeal.Hand.body_obligation m ρ c)⟩

end Cert.Proof

end
